-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x100x50000 : Shape := ⟨3, ![16, 100, 50000]⟩
abbrev S16x100 : Shape := ⟨2, ![16, 100]⟩
abbrev S16 : Shape := ⟨1, ![16]⟩
abbrev S16x100x4 : Shape := ⟨3, ![16, 100, 4]⟩
abbrev S_ : Shape := ⟨0, ![]⟩

class Facts : Prop where
  bcast_S_S16x100x50000 : S_.BroadcastsInDim S16x100x50000 (![] : Fin 0 → Fin S16x100x50000.rank)
  reducesTo_S16x100x50000_S_d0_1_2 : S16x100x50000.ReducesTo [0, 1, 2] S_
  h_S_ : 0 < S_.numel
  bcast_S_S16x100 : S_.BroadcastsInDim S16x100 (![] : Fin 0 → Fin S16x100.rank)
  reducesTo_S16x100_S_d0_1 : S16x100.ReducesTo [0, 1] S_
  bcast_S_S16x100x4 : S_.BroadcastsInDim S16x100x4 (![] : Fin 0 → Fin S16x100x4.rank)
  reducesTo_S16x100x4_S_d0_1_2 : S16x100x4.ReducesTo [0, 1, 2] S_

variable [Facts]

def fn_part1 {F : FTy → Type} [FloatOps F] (main_arg4 : IVec S16x100x4 32) (main_v15 : IVec S_ 1) : IVec S_ 1 :=
  let main_c_6 : IVec S_ 32 := constantI S_ 32 50000#32
  let main_v16 : IVec S16x100x4 32 := broadcastInDim S16x100x4 ![] bcast_S_S16x100x4 main_c_6
  let main_v17 : IVec S16x100x4 1 := cmpi .slt main_arg4 main_v16
  let main_c_7 : IVec S_ 1 := constantI S_ 1 1#1
  let main_v18 : IVec S_ 1 := (fun x v => Host.reduce IntOp.andi x v reducesTo_S16x100x4_S_d0_1_2 h_S_) main_v17 main_c_7
  let main_v19 : IVec S_ 1 := andi main_v15 main_v18
  main_v19

def fn {F : FTy → Type} [FloatOps F] (main_arg0 : FVec F S16x100x50000 .f32) (main_arg1 : IVec S16x100 32) (main_arg2 : IVec S16 32) (main_arg3 : IVec S16 32) (main_arg4 : IVec S16x100x4 32) : IVec S_ 1 :=
  let main_v0 : FVec F S16x100x50000 .f32 := Host.absf main_arg0
  let main_cst : FVec F S_ .f32 := constant S_ .f32 0x7F800000#32
  let main_v1 : FVec F S16x100x50000 .f32 := broadcastInDim S16x100x50000 ![] bcast_S_S16x100x50000 main_cst
  let main_v2 : IVec S16x100x50000 1 := cmpf .olt main_v0 main_v1
  let main_c : IVec S_ 1 := constantI S_ 1 1#1
  let main_v3 : IVec S_ 1 := (fun x v => Host.reduce IntOp.andi x v reducesTo_S16x100x50000_S_d0_1_2 h_S_) main_v2 main_c
  let main_c_0 : IVec S_ 32 := constantI S_ 32 0#32
  let main_v4 : IVec S16x100 32 := broadcastInDim S16x100 ![] bcast_S_S16x100 main_c_0
  let main_v5 : IVec S16x100 1 := cmpi .sge main_arg1 main_v4
  let main_c_1 : IVec S_ 1 := constantI S_ 1 1#1
  let main_v6 : IVec S_ 1 := (fun x v => Host.reduce IntOp.andi x v reducesTo_S16x100_S_d0_1 h_S_) main_v5 main_c_1
  let main_v7 : IVec S_ 1 := andi main_v3 main_v6
  let main_c_2 : IVec S_ 32 := constantI S_ 32 50000#32
  let main_v8 : IVec S16x100 32 := broadcastInDim S16x100 ![] bcast_S_S16x100 main_c_2
  let main_v9 : IVec S16x100 1 := cmpi .slt main_arg1 main_v8
  let main_c_3 : IVec S_ 1 := constantI S_ 1 1#1
  let main_v10 : IVec S_ 1 := (fun x v => Host.reduce IntOp.andi x v reducesTo_S16x100_S_d0_1 h_S_) main_v9 main_c_3
  let main_v11 : IVec S_ 1 := andi main_v7 main_v10
  let main_c_4 : IVec S_ 32 := constantI S_ 32 0#32
  let main_v12 : IVec S16x100x4 32 := broadcastInDim S16x100x4 ![] bcast_S_S16x100x4 main_c_4
  let main_v13 : IVec S16x100x4 1 := cmpi .sge main_arg4 main_v12
  let main_c_5 : IVec S_ 1 := constantI S_ 1 1#1
  let main_v14 : IVec S_ 1 := (fun x v => Host.reduce IntOp.andi x v reducesTo_S16x100x4_S_d0_1_2 h_S_) main_v13 main_c_5
  let main_v15 : IVec S_ 1 := andi main_v11 main_v14
  fn_part1 (F := F) main_arg4 main_v15
-- ==== Kernel.lean ====
abbrev S16x100x50000 : Shape := ⟨3, ![16, 100, 50000]⟩
abbrev S16x100 : Shape := ⟨2, ![16, 100]⟩
abbrev S16 : Shape := ⟨1, ![16]⟩
abbrev S16x100x4 : Shape := ⟨3, ![16, 100, 4]⟩
abbrev S16x100x1 : Shape := ⟨3, ![16, 100, 1]⟩
abbrev S16x100x5 : Shape := ⟨3, ![16, 100, 5]⟩
abbrev S16x1 : Shape := ⟨2, ![16, 1]⟩
abbrev S16x128 : Shape := ⟨2, ![16, 128]⟩
abbrev S8x100x1280 : Shape := ⟨3, ![8, 100, 1280]⟩
abbrev S8x100x5 : Shape := ⟨3, ![8, 100, 5]⟩
abbrev S8x1 : Shape := ⟨2, ![8, 1]⟩
abbrev S8x128 : Shape := ⟨2, ![8, 128]⟩
abbrev S1x1x1280 : Shape := ⟨3, ![1, 1, 1280]⟩
abbrev S8x100x1 : Shape := ⟨3, ![8, 100, 1]⟩
abbrev S8x100 : Shape := ⟨2, ![8, 100]⟩
abbrev S8x100x4 : Shape := ⟨3, ![8, 100, 4]⟩
abbrev S1x100 : Shape := ⟨2, ![1, 100]⟩
abbrev S8 : Shape := ⟨1, ![8]⟩
abbrev S_ : Shape := ⟨0, ![]⟩
abbrev S1 : Shape := ⟨1, ![1]⟩

abbrev nBuf : Space → Nat
  | .hbm => 16
  | .vmem => 9
  | .smem => 0
  | _ => 0

abbrev bufTy : (tb : Table) → Fin (tcTables nBuf tb) → BufTy
  | .hbm, ⟨0, _⟩ => ⟨S16x100x50000, .f32⟩
  | .hbm, ⟨1, _⟩ => ⟨S16x100, .i32⟩
  | .hbm, ⟨2, _⟩ => ⟨S16, .i32⟩
  | .hbm, ⟨3, _⟩ => ⟨S16, .i32⟩
  | .hbm, ⟨4, _⟩ => ⟨S16x100x4, .i32⟩
  | .hbm, ⟨5, _⟩ => ⟨S16x100x1, .i32⟩
  | .hbm, ⟨6, _⟩ => ⟨S16x100x5, .i32⟩
  | .hbm, ⟨7, _⟩ => ⟨S16x1, .i32⟩
  | .hbm, ⟨8, _⟩ => ⟨S16x128, .f32⟩
  | .hbm, ⟨9, _⟩ => ⟨S16x1, .f32⟩
  | .hbm, ⟨10, _⟩ => ⟨S16, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1, .f32⟩
  | .local _ .vmem, ⟨0, _⟩ => ⟨S8x100x1280, .f32⟩
  | .local _ .vmem, ⟨1, _⟩ => ⟨S8x100x1280, .f32⟩
  | .local _ .vmem, ⟨2, _⟩ => ⟨S8x100x5, .i32⟩
  | .local _ .vmem, ⟨3, _⟩ => ⟨S8x100x5, .i32⟩
  | .local _ .vmem, ⟨4, _⟩ => ⟨S8x1, .i32⟩
  | .local _ .vmem, ⟨5, _⟩ => ⟨S8x1, .i32⟩
  | .local _ .vmem, ⟨6, _⟩ => ⟨S8x128, .f32⟩
  | .local _ .vmem, ⟨7, _⟩ => ⟨S8x128, .f32⟩
  | .local _ .vmem, ⟨8, _⟩ => ⟨S8x100x5, .f32⟩
  | _, _ => ⟨S16x100x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 40], ![false, false]⟩

def k0_cond2 (i : grid0.Coords) : BitVec 1 :=
  let arg1 : BitVec 32 := BitVec.ofNat 32 (i 1).val
  let c39_i32 : BitVec 32 := 39#32
  let v56 : BitVec 1 := Scalar.cmpi .eq arg1 c39_i32
  let v57 : BitVec 32 := Scalar.extui v56
  let c0_i32_21 : BitVec 32 := 0#32
  let v58 : BitVec 1 := Scalar.cmpi .ne v57 c0_i32_21
  v58

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x100x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x100x5 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S16x100_S16x100x1_0_1 : S16x100.BroadcastsInDim S16x100x1 (![0, 1] : Fin 2 → Fin S16x100x1.rank)
  concatenates_S16x100x1_S16x100x4_S16x100x5_d2 : Shape.Concatenates [S16x100x1, S16x100x4] S16x100x5 2
  shapeCasts_S16_S16x1 : S16.ShapeCasts S16x1
  inb_S8x100x5_S8x100x5_0_0_0 : ∀ a, (![0, 0, 0] : Fin 3 → Nat) a + S8x100x5.size a ≤ S8x100x5.size a
  h_S8x100x5 : 0 < S8x100x5.numel
  shapeCasts_S8x100x5_S8x100x5 : S8x100x5.ShapeCasts S8x100x5
  iota_S1x1x1280_d2_w32 : S1x1x1280.Iotas .tc 32 [2]
  inb_S8x100x1280_S8x100x1280_0_0_0 : ∀ a, (![0, 0, 0] : Fin 3 → Nat) a + S8x100x1280.size a ≤ S8x100x1280.size a
  h_S8x100x1280 : 0 < S8x100x1280.numel
  slices_S8x100x5_o0_0_0_S8x100x1 : S8x100x5.Slices ![0, 0, 0] S8x100x1
  broadcasts_S8x100x1_S8x100x1280 : S8x100x1.Broadcasts S8x100x1280
  broadcasts_S1x1x1280_S8x100x1280 : S1x1x1280.Broadcasts S8x100x1280
  reduces_S8x100x1280_S8x100 : S8x100x1280.Reduces [2] S8x100
  slices_S8x100x5_o0_0_1_S8x100x1 : S8x100x5.Slices ![0, 0, 1] S8x100x1
  slices_S8x100x5_o0_0_2_S8x100x1 : S8x100x5.Slices ![0, 0, 2] S8x100x1
  slices_S8x100x5_o0_0_3_S8x100x1 : S8x100x5.Slices ![0, 0, 3] S8x100x1
  slices_S8x100x5_o0_0_4_S8x100x1 : S8x100x5.Slices ![0, 0, 4] S8x100x1
  shapeCasts_S8x100_S8x100x1 : S8x100.ShapeCasts S8x100x1
  concatenates_S8x100x1_S8x100x1_S8x100x1_S8x100x1_S8x100x1_S8x100x5_d2 : Shape.Concatenates [S8x100x1, S8x100x1, S8x100x1, S8x100x1, S8x100x1] S8x100x5 2
  shapeCasts_S8x100x1_S8x100 : S8x100x1.ShapeCasts S8x100
  slices_S8x100x5_o0_0_1_S8x100x4 : S8x100x5.Slices ![0, 0, 1] S8x100x4
  broadcasts_S8x100x1_S8x100x4 : S8x100x1.Broadcasts S8x100x4
  reduces_S8x100x4_S8x100 : S8x100x4.Reduces [2] S8x100
  iota_S1x100_d1_w32 : S1x100.Iotas .tc 32 [1]
  inb_S8x1_S8x1_0_0 : ∀ a, (![0, 0] : Fin 2 → Nat) a + S8x1.size a ≤ S8x1.size a
  h_S8x1 : 0 < S8x1.numel
  shapeCasts_S8x1_S8x1 : S8x1.ShapeCasts S8x1
  broadcasts_S1x100_S8x100 : S1x100.Broadcasts S8x100
  broadcasts_S8x1_S8x100 : S8x1.Broadcasts S8x100
  natLt_1_32 : 1 < 32
  reduces_S8x100_S8 : S8x100.Reduces [1] S8
  shapeCasts_S8x1_S8 : S8x1.ShapeCasts S8
  iota_S8x128_d1_w32 : S8x128.Iotas .tc 32 [1]
  shapeCasts_S8_S8x1 : S8.ShapeCasts S8x1
  broadcasts_S8x1_S8x128 : S8x1.Broadcasts S8x128
  inb_S8x128_S8x128_0_0 : ∀ a, (![0, 0] : Fin 2 → Nat) a + S8x128.size a ≤ S8x128.size a
  h_S8x128 : 0 < S8x128.numel
  slices_S16x128_S16x1_0_0 : S16x128.Slices ![0, 0] S16x1
  shapeCasts_S16x1_S16 : S16x1.ShapeCasts S16
  reducesTo_S16_S_d0 : S16.ReducesTo [0] S_
  h_S_ : 0 < S_.numel
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8x100x1280.size a < S16x100x50000.size a
  hwx0_0 : ∀ i : grid0.Coords, EltTy.bits .f32 = 32 ∨ (Rect.unit (s := S16x100x50000) (fun a => cc0_transform_0 i a * S8x100x1280.size a) (fun a => (Pipeline.Clip.of (cc0_transform_0 i a) (S8x100x1280.size a) (S16x100x50000.size a)).extent (S8x100x1280.size a)) fun a => Pipeline.Clip.inb (Pipeline.Clip.ok_of (hstart0_0 i a))).WholeWords (EltTy.packing .f32)
  hwxs0_0 : ∀ i : grid0.Coords, EltTy.bits .f32 = 32 ∨ (Rect.unit (s := S8x100x1280) (fun _ => 0) (fun a => (Pipeline.Clip.of (cc0_transform_0 i a) (S8x100x1280.size a) (S16x100x50000.size a)).extent (S8x100x1280.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x100x5.size a ≤ S16x100x5.size a
  hwx0_1 : ∀ i : grid0.Coords, EltTy.bits .i32 = 32 ∨ (Rect.block (s := S16x100x5) S8x100x5.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S16x1.size a
  hwx0_2 : ∀ i : grid0.Coords, EltTy.bits .i32 = 32 ∨ (Rect.block (s := S16x1) S8x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

abbrev win0_0 : Pipeline.Window sig grid0 :=
  Pipeline.Window.ofSpecClip (Memref.whole main_arg0) S8x100x1280.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S8x100x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x100x50000 : Shape := ⟨3, ![16, 100, 50000]⟩
abbrev S16x100 : Shape := ⟨2, ![16, 100]⟩
abbrev S16 : Shape := ⟨1, ![16]⟩
abbrev S16x100x4 : Shape := ⟨3, ![16, 100, 4]⟩
abbrev S16x100x1 : Shape := ⟨3, ![16, 100, 1]⟩
abbrev S_ : Shape := ⟨0, ![]⟩
abbrev S16x100x1x1 : Shape := ⟨4, ![16, 100, 1, 1]⟩
abbrev S1 : Shape := ⟨1, ![1]⟩
abbrev S1x1x1x1 : Shape := ⟨4, ![1, 1, 1, 1]⟩
abbrev S16x100x4x1 : Shape := ⟨4, ![16, 100, 4, 1]⟩
abbrev S100 : Shape := ⟨1, ![100]⟩
abbrev S1x100 : Shape := ⟨2, ![1, 100]⟩
abbrev S16x1 : Shape := ⟨2, ![16, 1]⟩

abbrev nBuf : Space → Nat
  | .hbm => 88
  | .vmem => 0
  | .smem => 0
  | _ => 0

abbrev bufTy : (tb : Table) → Fin (tcTables nBuf tb) → BufTy
  | .hbm, ⟨0, _⟩ => ⟨S16x100x50000, .f32⟩
  | .hbm, ⟨1, _⟩ => ⟨S16x100, .i32⟩
  | .hbm, ⟨2, _⟩ => ⟨S16, .i32⟩
  | .hbm, ⟨3, _⟩ => ⟨S16, .i32⟩
  | .hbm, ⟨4, _⟩ => ⟨S16x100x4, .i32⟩
  | .hbm, ⟨5, _⟩ => ⟨S16x100x1, .i32⟩
  | .hbm, ⟨6, _⟩ => ⟨S_, .i32⟩
  | .hbm, ⟨7, _⟩ => ⟨S16x100x1, .i32⟩
  | .hbm, ⟨8, _⟩ => ⟨S16x100x1, .i1⟩
  | .hbm, ⟨9, _⟩ => ⟨S_, .i32⟩
  | .hbm, ⟨10, _⟩ => ⟨S16x100x1, .i32⟩
  | .hbm, ⟨11, _⟩ => ⟨S16x100x1, .i32⟩
  | .hbm, ⟨12, _⟩ => ⟨S16x100x1, .i32⟩
  | .hbm, ⟨13, _⟩ => ⟨S16x100x1x1, .i32⟩
  | .hbm, ⟨14, _⟩ => ⟨S1, .i32⟩
  | .hbm, ⟨15, _⟩ => ⟨S_, .i32⟩
  | .hbm, ⟨16, _⟩ => ⟨S16x100x1x1, .i32⟩
  | .hbm, ⟨17, _⟩ => ⟨S16x100x1x1, .i1⟩
  | .hbm, ⟨18, _⟩ => ⟨S1x1x1x1, .i32⟩
  | .hbm, ⟨19, _⟩ => ⟨S16x100x1x1, .i32⟩
  | .hbm, ⟨20, _⟩ => ⟨S16x100x1x1, .i1⟩
  | .hbm, ⟨21, _⟩ => ⟨S16x100x1x1, .i1⟩
  | .hbm, ⟨22, _⟩ => ⟨S_, .i1⟩
  | .hbm, ⟨23, _⟩ => ⟨S16x100x1, .i1⟩
  | .hbm, ⟨24, _⟩ => ⟨S16x100x1, .f32⟩
  | .hbm, ⟨25, _⟩ => ⟨S_, .f32⟩
  | .hbm, ⟨26, _⟩ => ⟨S16x100x1, .f32⟩
  | .hbm, ⟨27, _⟩ => ⟨S16x100x1, .f32⟩
  | .hbm, ⟨28, _⟩ => ⟨S_, .i32⟩
  | .hbm, ⟨29, _⟩ => ⟨S16x100x4, .i32⟩
  | .hbm, ⟨30, _⟩ => ⟨S16x100x4, .i1⟩
  | .hbm, ⟨31, _⟩ => ⟨S_, .i32⟩
  | .hbm, ⟨32, _⟩ => ⟨S16x100x4, .i32⟩
  | .hbm, ⟨33, _⟩ => ⟨S16x100x4, .i32⟩
  | .hbm, ⟨34, _⟩ => ⟨S16x100x4, .i32⟩
  | .hbm, ⟨35, _⟩ => ⟨S16x100x4x1, .i32⟩
  | .hbm, ⟨36, _⟩ => ⟨S1, .i32⟩
  | .hbm, ⟨37, _⟩ => ⟨S_, .i32⟩
  | .hbm, ⟨38, _⟩ => ⟨S16x100x4x1, .i32⟩
  | .hbm, ⟨39, _⟩ => ⟨S16x100x4x1, .i1⟩
  | .hbm, ⟨40, _⟩ => ⟨S1x1x1x1, .i32⟩
  | .hbm, ⟨41, _⟩ => ⟨S16x100x4x1, .i32⟩
  | .hbm, ⟨42, _⟩ => ⟨S16x100x4x1, .i1⟩
  | .hbm, ⟨43, _⟩ => ⟨S16x100x4x1, .i1⟩
  | .hbm, ⟨44, _⟩ => ⟨S_, .i1⟩
  | .hbm, ⟨45, _⟩ => ⟨S16x100x4, .i1⟩
  | .hbm, ⟨46, _⟩ => ⟨S16x100x4, .f32⟩
  | .hbm, ⟨47, _⟩ => ⟨S_, .f32⟩
  | .hbm, ⟨48, _⟩ => ⟨S16x100x4, .f32⟩
  | .hbm, ⟨49, _⟩ => ⟨S16x100x4, .f32⟩
  | .hbm, ⟨50, _⟩ => ⟨S16x100x4, .f32⟩
  | .hbm, ⟨51, _⟩ => ⟨S16x100x4, .f32⟩
  | .hbm, ⟨52, _⟩ => ⟨S16x100x4, .f32⟩
  | .hbm, ⟨53, _⟩ => ⟨S_, .f32⟩
  | .hbm, ⟨54, _⟩ => ⟨S16x100x4, .f32⟩
  | .hbm, ⟨55, _⟩ => ⟨S16x100x4, .f32⟩
  | .hbm, ⟨56, _⟩ => ⟨S16x100x4, .f32⟩
  | .hbm, ⟨57, _⟩ => ⟨S16x100x4, .f32⟩
  | .hbm, ⟨58, _⟩ => ⟨S16x100x4, .i1⟩
  | .hbm, ⟨59, _⟩ => ⟨S16x100x4, .f32⟩
  | .hbm, ⟨60, _⟩ => ⟨S16x100x4, .f32⟩
  | .hbm, ⟨61, _⟩ => ⟨S16x100x4, .f32⟩
  | .hbm, ⟨62, _⟩ => ⟨S16x100x4, .f32⟩
  | .hbm, ⟨63, _⟩ => ⟨S16x100x4, .f32⟩
  | .hbm, ⟨64, _⟩ => ⟨S16x100x4, .f32⟩
  | .hbm, ⟨65, _⟩ => ⟨S16x100x4, .f32⟩
  | .hbm, ⟨66, _⟩ => ⟨S16x100x4, .f32⟩
  | .hbm, ⟨67, _⟩ => ⟨S16x100x4, .f32⟩
  | .hbm, ⟨68, _⟩ => ⟨S100, .i32⟩
  | .hbm, ⟨69, _⟩ => ⟨S1x100, .i32⟩
  | .hbm, ⟨70, _⟩ => ⟨S16x1, .i32⟩
  | .hbm, ⟨71, _⟩ => ⟨S16x100, .i32⟩
  | .hbm, ⟨72, _⟩ => ⟨S16x100, .i32⟩
  | .hbm, ⟨73, _⟩ => ⟨S16x100, .i1⟩
  | .hbm, ⟨74, _⟩ => ⟨S_, .f32⟩
  | .hbm, ⟨75, _⟩ => ⟨S16x100, .f32⟩
  | .hbm, ⟨76, _⟩ => ⟨S16x100, .f32⟩
  | .hbm, ⟨77, _⟩ => ⟨S16x100, .f32⟩
  | .hbm, ⟨78, _⟩ => ⟨S_, .f32⟩
  | .hbm, ⟨79, _⟩ => ⟨S16, .f32⟩
  | .hbm, ⟨80, _⟩ => ⟨S16, .f32⟩
  | .hbm, ⟨81, _⟩ => ⟨S16, .f32⟩
  | .hbm, ⟨82, _⟩ => ⟨S16, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S1, .f32⟩
  | _, _ => ⟨S16x100x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v1 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_call2_v0 : Ref sig .tc := ⟨.hbm, 52, rfl⟩
abbrev main_call2_call0_cst : Ref sig .tc := ⟨.hbm, 53, rfl⟩
abbrev main_call2_call0_v0 : Ref sig .tc := ⟨.hbm, 54, rfl⟩
abbrev main_call2_call0_v1 : Ref sig .tc := ⟨.hbm, 55, rfl⟩
abbrev main_call2_call0_v2 : Ref sig .tc := ⟨.hbm, 56, rfl⟩
abbrev main_call2_call0_v3 : Ref sig .tc := ⟨.hbm, 57, rfl⟩
abbrev main_call2_call0_v4 : Ref sig .tc := ⟨.hbm, 58, rfl⟩
abbrev main_call2_call0_v5 : Ref sig .tc := ⟨.hbm, 59, rfl⟩
abbrev main_call2_call0_v6 : Ref sig .tc := ⟨.hbm, 60, rfl⟩
abbrev main_call2_call0_v7 : Ref sig .tc := ⟨.hbm, 61, rfl⟩
abbrev main_call2_call0_v8 : Ref sig .tc := ⟨.hbm, 62, rfl⟩
abbrev main_call2_call0_v9 : Ref sig .tc := ⟨.hbm, 63, rfl⟩
abbrev main_call2_call0_v10 : Ref sig .tc := ⟨.hbm, 64, rfl⟩
abbrev main_call2_call0_v11 : Ref sig .tc := ⟨.hbm, 65, rfl⟩
abbrev main_call2_v1 : Ref sig .tc := ⟨.hbm, 66, rfl⟩
abbrev main_v5 : Ref sig .tc := ⟨.hbm, 67, rfl⟩
abbrev main_v6 : Ref sig .tc := ⟨.hbm, 68, rfl⟩
abbrev main_v7 : Ref sig .tc := ⟨.hbm, 69, rfl⟩
abbrev main_v8 : Ref sig .tc := ⟨.hbm, 70, rfl⟩
abbrev main_v9 : Ref sig .tc := ⟨.hbm, 71, rfl⟩
abbrev main_v10 : Ref sig .tc := ⟨.hbm, 72, rfl⟩
abbrev main_v11 : Ref sig .tc := ⟨.hbm, 73, rfl⟩
abbrev main_cst : Ref sig .tc := ⟨.hbm, 74, rfl⟩
abbrev main_v12 : Ref sig .tc := ⟨.hbm, 75, rfl⟩
abbrev main_v13 : Ref sig .tc := ⟨.hbm, 76, rfl⟩
abbrev main_v14 : Ref sig .tc := ⟨.hbm, 77, rfl⟩
abbrev main_cst_0 : Ref sig .tc := ⟨.hbm, 78, rfl⟩
abbrev main_v15 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩
abbrev main_cst_1 : Ref sig .tc := ⟨.hbm, 83, rfl⟩
abbrev main_v19 : Ref sig .tc := ⟨.hbm, 84, rfl⟩
abbrev main_cst_2 : Ref sig .tc := ⟨.hbm, 85, rfl⟩
abbrev main_v20 : Ref sig .tc := ⟨.hbm, 86, rfl⟩
abbrev main_v21 : Ref sig .tc := ⟨.hbm, 87, rfl⟩

abbrev nD : Nat := 1
abbrev τ : Topo := Topo.v7x

variable {F : FTy → Type} [FloatOps F]

class Facts₀ : Prop where
  bcast_S16x100_S16x100x1_0_1 : S16x100.BroadcastsInDim S16x100x1 (![0, 1] : Fin 2 → Fin S16x100x1.rank)
  bcast_S_S16x100x1 : S_.BroadcastsInDim S16x100x1 (![] : Fin 0 → Fin S16x100x1.rank)
  shapeCasts_S16x100x1_S16x100x1x1 : S16x100x1.ShapeCasts S16x100x1x1
  bcast_S_S16x100x1x1 : S_.BroadcastsInDim S16x100x1x1 (![] : Fin 0 → Fin S16x100x1x1.rank)
  bcast_S1_S1x1x1x1_3 : S1.BroadcastsInDim S1x1x1x1 (![3] : Fin 1 → Fin S1x1x1x1.rank)
  bcast_S1x1x1x1_S16x100x1x1_0_1_2_3 : S1x1x1x1.BroadcastsInDim S16x100x1x1 (![0, 1, 2, 3] : Fin 4 → Fin S16x100x1x1.rank)
  reducesTo_S16x100x1x1_S16x100x1_d3 : S16x100x1x1.ReducesTo [3] S16x100x1
  h_S_ : 0 < S_.numel
  bcast_S_S16x100x4 : S_.BroadcastsInDim S16x100x4 (![] : Fin 0 → Fin S16x100x4.rank)
  shapeCasts_S16x100x4_S16x100x4x1 : S16x100x4.ShapeCasts S16x100x4x1
  bcast_S_S16x100x4x1 : S_.BroadcastsInDim S16x100x4x1 (![] : Fin 0 → Fin S16x100x4x1.rank)
  bcast_S1x1x1x1_S16x100x4x1_0_1_2_3 : S1x1x1x1.BroadcastsInDim S16x100x4x1 (![0, 1, 2, 3] : Fin 4 → Fin S16x100x4x1.rank)
  reducesTo_S16x100x4x1_S16x100x4_d3 : S16x100x4x1.ReducesTo [3] S16x100x4
  bcast_S16x100x1_S16x100x4_0_1_2 : S16x100x1.BroadcastsInDim S16x100x4 (![0, 1, 2] : Fin 3 → Fin S16x100x4.rank)
  bcast_S100_S1x100_1 : S100.BroadcastsInDim S1x100 (![1] : Fin 1 → Fin S1x100.rank)
  bcast_S16_S16x1_0 : S16.BroadcastsInDim S16x1 (![0] : Fin 1 → Fin S16x1.rank)
  bcast_S1x100_S16x100_0_1 : S1x100.BroadcastsInDim S16x100 (![0, 1] : Fin 2 → Fin S16x100.rank)
  bcast_S16x1_S16x100_0_1 : S16x1.BroadcastsInDim S16x100 (![0, 1] : Fin 2 → Fin S16x100.rank)
  reducesTo_S16x100x4_S16x100_d2 : S16x100x4.ReducesTo [2] S16x100
  reducesTo_S16x100_S16_d1 : S16x100.ReducesTo [1] S16
  reducesTo_S16_S_d0 : S16.ReducesTo [0] S_
  shapeCasts_S_S1 : S_.ShapeCasts S1
  gather_S16x100x50000_S16x100x1x1_S16x100x1_n_2_01_01_2_3_111_wf : GatherDims.WF S16x100x50000 S16x100x1x1 S16x100x1 [] [2] [0, 1] [2] [0, 1] 3 ![1, 1, 1]
  gather_S16x100x50000_S16x100x4x1_S16x100x4_n_2_01_01_2_3_111_wf : GatherDims.WF S16x100x50000 S16x100x4x1 S16x100x4 [] [2] [0, 1] [2] [0, 1] 3 ![1, 1, 1]

variable [Facts₀]

def gather_S16x100x50000_S16x100x1x1_S16x100x1_n_2_01_01_2_3_111 : GatherDims S16x100x50000 S16x100x1x1 S16x100x1 where
  offsetDims := []
  collapsedSliceDims := [2]
  operandBatchingDims := [0, 1]
  startIndicesBatchingDims := [0, 1]
  startIndexMap := [2]
  indexVectorDim := 3
  sliceSizes := ![1, 1, 1]
  wf := gather_S16x100x50000_S16x100x1x1_S16x100x1_n_2_01_01_2_3_111_wf
def gather_S16x100x50000_S16x100x4x1_S16x100x4_n_2_01_01_2_3_111 : GatherDims S16x100x50000 S16x100x4x1 S16x100x4 where
  offsetDims := []
  collapsedSliceDims := [2]
  operandBatchingDims := [0, 1]
  startIndicesBatchingDims := [0, 1]
  startIndexMap := [2]
  indexVectorDim := 3
  sliceSizes := ![1, 1, 1]
  wf := gather_S16x100x50000_S16x100x4x1_S16x100x4_n_2_01_01_2_3_111_wf

class Facts : Prop extends Facts₀ where

variable [Facts]
-- ==== Proof.K.Step.lean ====
/-
  One V-tile of the masked gather, and the epilogue, as pure functions of what the body loads.
  At a grid point (bt, vt) the body holds a block `x` of scores (8 users × 100 steps × 1280 items of tile vt),
  the block `ix` of the 8 × 100 × 5 target items (the label, then four negatives) and the running sums `acc`
  (8 × 100 × 5). `step` adds to `acc[b,t,j]` the sum over the tile's lanes l of `x[b,t,l]` where
  `ix[b,t,j] = vt·1280 + l` and of zero elsewhere; `acc0` is the all-zero start of a user tile's sweep;
  `epi` turns the finished sums into the per-user loss in lane 0 of an 8 × 128 block (zero in the other lanes).
  Beside them: which of the body's two branches a grid point takes (the sweep's first tile resets the sums,
  its last tile runs the epilogue), in closed form over the 2 × 40 grid, and where the result window is idle.
-/
import proofs.«401552_j2439541424724_1_alg».proof.Proof.Gen.Kernel.Skeleton
import proofs.«401552_j2439541424724_1_alg».proof.Proof.Gen.Kernel.Launch
import proofs.«401552_j2439541424724_1_alg».proof.Proof.Gen.Kernel.Points
import proofs.«401552_j2439541424724_1_alg».proof.Proof.Gen.Kernel.Frame

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

/-- The sums after one more tile: `acc` plus, per (user, step, target), the tile's lanes selected by the target. -/
def step (i : grid0.Coords) (x : Vec F S8x100x1280 .f32) (ix : Vec F S8x100x5 .i32) (acc : Vec F S8x100x5 .f32) :
    Vec F S8x100x5 .f32 :=
  k0_pay1 (k0_pay6 i) x (k0_pay8 i x ix) (k0_pay9 i x ix) (k0_pay10 i x ix) (k0_pay11 i x ix) (k0_pay12 ix) acc

/-- The sums a user tile's sweep starts from: zero everywhere. -/
def acc0 : Vec F S8x100x5 .f32 := k0_pay5

/-- The result block from the finished sums and the block of sequence lengths. -/
def epi (acc : Vec F S8x100x5 .f32) (xl : Vec F S8x1 .i32) : Vec F S8x128 .f32 :=
  k0_pay2 k0_pay3 (Scalar.ofBits .f32 0x00000000#32) (k0_pay4 acc xl)

/-! ## The two branches, over the grid -/

/-- The first tile of a sweep (the sums are reset). -/
abbrev condFirst (i : grid0.Coords) : Prop :=
  (Scalar.cmpi .ne (Scalar.extui (Scalar.cmpi .eq (BitVec.ofNat 32 (i 1).val) 0#32)) 0#32) = 1#1
theorem hcondFirst : ∀ t : Fin cfg0.N, condFirst (grid0.coords t) ↔ t.val % 40 = 0 :=
  (by decide +kernel : ∀ t : Fin grid0.N, condFirst (grid0.coords t) ↔ t.val % 40 = 0)

/-- The last tile of a sweep (the epilogue runs). -/
abbrev condLast (i : grid0.Coords) : Prop := k0_cond2 i = 1#1
theorem hcondLast : ∀ t : Fin cfg0.N, condLast (grid0.coords t) ↔ t.val % 40 = 39 :=
  (by decide +kernel : ∀ t : Fin grid0.N, condLast (grid0.coords t) ↔ t.val % 40 = 39)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Off a sweep's last tile the result window is idle and is not written back. -/
theorem idle3 : ∀ t : Fin cfg0.N, ¬t.val % 40 = 39 → cfg0.idle 3 (grid0.coords t) = true :=
  (by decide +kernel : ∀ t : Fin grid0.N, ¬t.val % 40 = 39 → cfg0.idle 3 (grid0.coords t) = true)
theorem noFlush3 : ∀ t : Fin cfg0.N, ¬t.val % 40 = 39 → (cfg0.win 3).flush t = false :=
  (by decide +kernel : ∀ t : Fin grid0.N, ¬t.val % 40 = 39 → win0_3.flush t = false)
/-- On it the body stores the result block. -/
theorem live3 : ∀ t : Fin cfg0.N, t.val % 40 = 39 → cfg0.idle 3 (grid0.coords t) = false :=
  (by decide +kernel : ∀ t : Fin grid0.N, t.val % 40 = 39 → cfg0.idle 3 (grid0.coords t) = false)

/-! ## The memrefs the body is called with -/

abbrev ms0 (t : Fin cfg0.N) : Memref sig .tc .vmem S8x100x1280 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x100x5 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x128 .f32 := win0_3.stage (cfg0.slots t 3)
abbrev hs3 (t : Fin cfg0.N) : (ms3 t).IsWhole := hstage0_3 ((cfg0.slots t 3).cast nbuf0_3)
/-- The running sums' buffer: a whole scoped buffer of the kernel's own. -/
abbrev scM : Memref sig .tc .vmem S8x100x5 .f32 := Memref.whole cc0_scratch0

/-- What the region's invariant holds before the first point: the sums' buffer at anything, the generator register
    at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The index range, the staged score block, the running sums point by point -/

variable (m : (ℓ : Loc nD τ sig) → Buf (Elt F) ℓ)

/-- Every target item (label or negative) indexes the item axis: as the region finds the 16 × 100 × 5 array of
    targets, each word is below 50000. -/
def IdxOk : Prop := ∀ (c : Dev nD) (j : S16x100x5.Idx), ((V m c main_v1 : IVec S16x100x5 32) j).toNat < 50000

/-- What the score window's staging buffer holds at point `t` when the part past the array's end is `d`: the
    array's block on the part the fetch moves, `d` elsewhere (only the last tile of a sweep has such a part:
    50000 items in tiles of 1280 leave 80 in tile 39). -/
def xwith (c : Dev nD) (t : Fin cfg0.N) (d : Vec F S8x100x1280 .f32) : Vec F S8x100x1280 .f32 :=
  (cfg0.win 0).fill (cfg0.grid.coords t) d (iblk m c 0 t)

/-- The same with zeros past the array's end: the contents the proof names. -/
def xfill (c : Dev nD) (t : Fin cfg0.N) : Vec F S8x100x1280 .f32 :=
  xwith m c t (fun _ => (Scalar.ofBits .f32 0x00000000#32 : F .f32))

/-- THE RUNNING SUMS after the body at position `n`: a sweep's first tile (position ≡ 0 mod 40) starts from zero,
    every other tile from what the position before left. -/
def accAt (c : Dev nD) : (n : ℕ) → n < cfg0.N → Vec F S8x100x5 .f32
  | 0, hn => step (grid0.coords ⟨0, hn⟩) (xfill m c ⟨0, hn⟩) (iblk m c 1 ⟨0, hn⟩) acc0
  | n + 1, hn =>
    if (n + 1) % 40 = 0 then step (grid0.coords ⟨n + 1, hn⟩) (xfill m c ⟨n + 1, hn⟩) (iblk m c 1 ⟨n + 1, hn⟩) acc0
    else step (grid0.coords ⟨n + 1, hn⟩) (xfill m c ⟨n + 1, hn⟩) (iblk m c 1 ⟨n + 1, hn⟩) (accAt c n (Nat.lt_of_succ_lt hn))

theorem accAt_first (c : Dev nD) (t : Fin cfg0.N) (h : t.val % 40 = 0) :
    accAt m c t.val t.isLt = step (grid0.coords t) (xfill m c t) (iblk m c 1 t) acc0 := by
  obtain ⟨n, hn⟩ := t
  cases n with
  | zero => rfl
  | succ n => exact (if_pos h).trans rfl

theorem accAt_next (c : Dev nD) (t : Fin cfg0.N) (h : ¬t.val % 40 = 0) :
    accAt m c t.val t.isLt = step (grid0.coords t) (xfill m c t) (iblk m c 1 t)
      (accAt m c (t.val - 1) (Nat.lt_of_le_of_lt (Nat.sub_le _ _) t.isLt)) := by
  obtain ⟨n, hn⟩ := t
  cases n with
  | zero => exact absurd (Nat.zero_mod _) h
  | succ n => exact (if_neg h).trans rfl

end Cert.Kernel.Hand

end
-- ==== Proof.K.RunAcc.lean ====
/-
  The body at a grid point that is not a sweep's last tile, as a separation-logic triple with the buffers' final
  contents stated through the payload functions: holding the score block `x`, the target block `ix` and the sums'
  buffer, the body runs to a state holding `x` and `ix` as they were and the sums' buffer at `step i x ix acc`,
  where `acc` is what the buffer held (`run_mid`: neither branch taken) or the all-zero start `acc0` (`run_first`:
  the first branch taken, which stores `acc0` over whatever the buffer held before the sums are loaded back).
  Every store of the body stores the WHOLE 8 × 100 × 5 buffer, so after the run the buffer reads the last stored
  payload, and a load after the reset reads the reset's payload; the loads of `x`, `ix` and the sums are loads of
  the whole blocks. The result window and the block of lengths are not touched in these two cases.
-/
import proofs.«401552_j2439541424724_1_alg».proof.Proof.K.Step
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

/-- After a run of stores whose LAST one stores the whole shape (a unit rectangle at offset zero of the shape's own
    extents, all lanes), the buffer reads that store's payload, whatever it held and whatever was stored before. -/
private theorem read_writes_whole_last {sig : RefSig} {κ : Kind} {sp : Space} {S : Shape} {e : EltTy} {Val : EltTy → Type}
    [∀ e, Nonempty (Val e)] (v : View sig κ sp S e) (f : v.ty.Contents Val) {off : Fin S.rank → Nat}
    (hz : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _
    (fun y => ⟨(⟨Rect.unit off S.size inb, w⟩ : View.Piece Val S e), List.mem_cons_self, View.mem_set_unit_zero hz inb y⟩)]
  exact View.canon_cons_unit_zero hz inb w L

/-- The zero offsets of the two rank-3 shapes. -/
private theorem hzA : (![0, 0, 0] : Fin S8x100x5.rank → Nat) = fun _ => 0 := funext fun a => by fin_cases a <;> rfl
private theorem hzX : (![0, 0, 0] : Fin S8x100x1280.rank → Nat) = fun _ => 0 := funext fun a => by fin_cases a <;> rfl

set_option maxHeartbeats 1000000 in
/-- Neither branch taken (a tile strictly inside a sweep): the sums' buffer goes from `s` to `step i x ix s`. -/
theorem run_mid (c : Dev nD) (i : grid0.Coords) (arg2 : Memref sig .tc .vmem S8x100x1280 .f32) (harg2 : arg2.IsWhole) (arg3 : Memref sig .tc .vmem S8x100x5 .i32) (harg3 : arg3.IsWhole) (arg4 : Memref sig .tc .vmem S8x1 .i32) (harg4 : arg4.IsWhole) (arg5 : Memref sig .tc .vmem S8x128 .f32) (harg5 : arg5.IsWhole) (arg6 : Memref sig .tc .vmem S8x100x5 .f32) (harg6 : arg6.IsWhole) (h1 : ¬condFirst i) (h2 : ¬condLast i) (x : Vec F S8x100x1280 .f32) (ix : Vec F S8x100x5 .i32) (s : Vec F S8x100x5 .f32) (E : Set ℕ) (K : PUnit → sProp 𝕄) :
    iprop(owns (c : Thread nD τ) arg2 fullShare x ∗ owns (c : Thread nD τ) arg3 fullShare ix ∗ owns (c : Thread nD τ) arg6 fullShare s
        ∗ (iprop(owns (c : Thread nD τ) arg2 fullShare x ∗ owns (c : Thread nD τ) arg3 fullShare ix ∗ owns (c : Thread nD τ) arg6 fullShare (step i x ix s)) -∗ K ⟨⟩))
      ⊢ wp frame (wpE (defs₀ (F := F)) Variants.none c none) E (cc0__bpr_kernel i arg2 harg2 arg3 harg3 arg4 harg4 arg5 harg5 arg6 harg6) K := by
  simp only [cc0__bpr_kernel_eq_skeleton]; unfold cc0__bpr_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg6.eq_unread hfs0
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  on_goal 2 => iexact HS0
  ipureintro
  refine (read_writes_whole_last _ _ hzA _ _ _).trans ?_
  sl_unfold_words
  simp only [View.readAt_eq_ld, harg2.read_unread, harg3.read_unread, harg6.read_unread, View.ld_unit_zero (S := S8x100x1280) hzX, View.ld_unit_zero (S := S8x100x5) hzA]
  rfl

set_option maxHeartbeats 1000000 in
/-- The first branch taken, the second not (a sweep's first tile): whatever the sums' buffer held, it is reset to
    `acc0`, read back, and left at `step i x ix acc0`. -/
theorem run_first (c : Dev nD) (i : grid0.Coords) (arg2 : Memref sig .tc .vmem S8x100x1280 .f32) (harg2 : arg2.IsWhole) (arg3 : Memref sig .tc .vmem S8x100x5 .i32) (harg3 : arg3.IsWhole) (arg4 : Memref sig .tc .vmem S8x1 .i32) (harg4 : arg4.IsWhole) (arg5 : Memref sig .tc .vmem S8x128 .f32) (harg5 : arg5.IsWhole) (arg6 : Memref sig .tc .vmem S8x100x5 .f32) (harg6 : arg6.IsWhole) (h1 : condFirst i) (h2 : ¬condLast i) (x : Vec F S8x100x1280 .f32) (ix : Vec F S8x100x5 .i32) (E : Set ℕ) (K : PUnit → sProp 𝕄) :
    iprop(owns (c : Thread nD τ) arg2 fullShare x ∗ owns (c : Thread nD τ) arg3 fullShare ix ∗ (∃ s, owns (c : Thread nD τ) arg6 fullShare s)
        ∗ (iprop(owns (c : Thread nD τ) arg2 fullShare x ∗ owns (c : Thread nD τ) arg3 fullShare ix ∗ owns (c : Thread nD τ) arg6 fullShare (step i x ix acc0)) -∗ K ⟨⟩))
      ⊢ wp frame (wpE (defs₀ (F := F)) Variants.none c none) E (cc0__bpr_kernel i arg2 harg2 arg3 harg3 arg4 harg4 arg5 harg5 arg6 harg6) K := by
  simp only [cc0__bpr_kernel_eq_skeleton]; unfold cc0__bpr_kernel_skel
  unfold owns
  iintro ⟨⟨%f0, %hf0, H0⟩, ⟨%f1, %hf1, H1⟩, ⟨%s0, %fs0, -, HS0⟩, Hk⟩
  obtain rfl := harg2.eq_unread hf0; obtain rfl := harg3.eq_unread hf1
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  on_goal 2 => iexact HS0
  ipureintro
  refine (read_writes_whole_last _ _ hzA _ _ _).trans ?_
  sl_unfold_words
  simp only [View.readAt_eq_ld, harg2.read_unread, harg3.read_unread, View.ld_unit_zero (S := S8x100x1280) hzX, View.ld_unit_zero (S := S8x100x5) hzA, View.readCov_unit_zero (S := S8x100x5) _ hzA]
  rfl

end Cert.Kernel.Hand

end
-- ==== Proof.K.RunLast.lean ====
/-
  The body at a sweep's LAST tile, as a separation-logic triple with the buffers' final contents stated through
  the payload functions. Holding the score block `x`, the target block `ix`, the block of sequence lengths `xl`,
  the result block at anything and the sums' buffer at `s`, the body runs to a state holding `x`, `ix` and `xl`
  as they were, the sums' buffer at `step i x ix s` and the result block at `epi (step i x ix s) xl`.
  The first branch is not taken (no reset); the accumulating store writes `step i x ix s` over the whole
  8 × 100 × 5 buffer; the second branch is taken: the epilogue loads the sums back AFTER that store, so it reads
  the stored payload, loads the lengths, and stores the whole 8 × 128 result block. Every store covers its whole
  buffer (a unit rectangle at offset zero of the buffer's own extents, all lanes), so each buffer afterwards reads
  the last payload stored into it, whatever it held before; every load is a load of a whole block.
-/
import proofs.«401552_j2439541424724_1_alg».proof.Proof.K.Step
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

/-- A buffer whose most recent store was of the whole shape (a unit rectangle at offset zero of the shape's own
    extents) reads that store's payload at every index: the rectangle holds every index, so neither the earlier
    stores nor the prior contents show through. -/
private theorem read_of_last_store_whole {sig : RefSig} {κ : Kind} {sp : Space} {S : Shape} {e : EltTy}
    {Val : EltTy → Type} [∀ e, Nonempty (Val e)] (v : View sig κ sp S e) (f : v.ty.Contents Val)
    {off : Fin S.rank → Nat} (hz : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w :=
  (View.read_writes_eq_canon v f _ fun y =>
      ⟨(⟨Rect.unit off S.size inb, w⟩ : View.Piece Val S e), List.mem_cons_self, View.mem_set_unit_zero hz inb y⟩).trans
    (View.canon_cons_unit_zero hz inb w L)

/-- The printed zero offsets are the constant zero, shape by shape. -/
private theorem zeroOff_res : (![0, 0] : Fin S8x128.rank → Nat) = fun _ => 0 := funext fun a => by fin_cases a <;> rfl
private theorem zeroOff_len : (![0, 0] : Fin S8x1.rank → Nat) = fun _ => 0 := funext fun a => by fin_cases a <;> rfl
private theorem zeroOff_sum : (![0, 0, 0] : Fin S8x100x5.rank → Nat) = fun _ => 0 := funext fun a => by fin_cases a <;> rfl
private theorem zeroOff_x : (![0, 0, 0] : Fin S8x100x1280.rank → Nat) = fun _ => 0 := funext fun a => by fin_cases a <;> rfl

set_option maxHeartbeats 1000000 in
/-- The first branch not taken, the second taken (a sweep's last tile): the sums' buffer goes from `s` to
    `step i x ix s`, and the result block, whatever it held, is left at `epi (step i x ix s) xl`. -/
theorem run_last (c : Dev nD) (i : grid0.Coords) (arg2 : Memref sig .tc .vmem S8x100x1280 .f32) (harg2 : arg2.IsWhole) (arg3 : Memref sig .tc .vmem S8x100x5 .i32) (harg3 : arg3.IsWhole) (arg4 : Memref sig .tc .vmem S8x1 .i32) (harg4 : arg4.IsWhole) (arg5 : Memref sig .tc .vmem S8x128 .f32) (harg5 : arg5.IsWhole) (arg6 : Memref sig .tc .vmem S8x100x5 .f32) (harg6 : arg6.IsWhole) (h1 : ¬condFirst i) (h2 : condLast i) (x : Vec F S8x100x1280 .f32) (ix : Vec F S8x100x5 .i32) (xl : Vec F S8x1 .i32) (s : Vec F S8x100x5 .f32) (E : Set ℕ) (K : PUnit → sProp 𝕄) :
    iprop(owns (c : Thread nD τ) arg2 fullShare x ∗ owns (c : Thread nD τ) arg3 fullShare ix ∗ owns (c : Thread nD τ) arg4 fullShare xl ∗ (∃ d, owns (c : Thread nD τ) arg5 fullShare d) ∗ owns (c : Thread nD τ) arg6 fullShare s
        ∗ (iprop(owns (c : Thread nD τ) arg2 fullShare x ∗ owns (c : Thread nD τ) arg3 fullShare ix ∗ owns (c : Thread nD τ) arg4 fullShare xl ∗ owns (c : Thread nD τ) arg5 fullShare (epi (step i x ix s) xl) ∗ owns (c : Thread nD τ) arg6 fullShare (step i x ix s)) -∗ K ⟨⟩))
      ⊢ wp frame (wpE (defs₀ (F := F)) Variants.none c none) E (cc0__bpr_kernel i arg2 harg2 arg3 harg3 arg4 harg4 arg5 harg5 arg6 harg6) K := by
  simp only [cc0__bpr_kernel_eq_skeleton]; unfold cc0__bpr_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3
  obtain rfl := harg4.eq_unread hf4; obtain rfl := harg6.eq_unread hf6
  sl_exec (disch := first | exact h1 | exact h2)
  sl_step
  iapply Hk
  -- the three inputs are held as they were
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  -- the result block: one whole store of the epilogue's payload, whose sums are the accumulating store read back
  · iexists _; isplitr
    on_goal 2 => iexact H5
    ipureintro
    sl_unfold_words
    refine (read_of_last_store_whole _ _ zeroOff_res _ _ _).trans ?_
    simp only [View.readCov_unit_zero (S := S8x100x5) _ zeroOff_sum, View.readAt_eq_ld, harg2.read_unread,
      harg3.read_unread, harg4.read_unread, harg6.read_unread, View.ld_unit_zero (S := S8x100x5) zeroOff_sum,
      View.ld_unit_zero (S := S8x100x1280) zeroOff_x, View.ld_unit_zero (S := S8x1) zeroOff_len]
    rfl
  -- the sums' buffer: one whole store of the accumulating payload over the loaded blocks
  · iexists _; isplitr
    on_goal 2 => iexact H6
    ipureintro
    sl_unfold_words
    refine (read_of_last_store_whole _ _ zeroOff_sum _ _ _).trans ?_
    simp only [View.readAt_eq_ld, harg2.read_unread, harg3.read_unread, harg6.read_unread,
      View.ld_unit_zero (S := S8x100x5) zeroOff_sum, View.ld_unit_zero (S := S8x100x1280) zeroOff_x]
    rfl

end Cert.Kernel.Hand

end
-- ==== Proof.K.Indep.lean ====
/-
  One tile's step does not see what the score buffer holds past the array's end.
  The score array has 50000 items on its last axis and is staged in tiles of 1280 lanes: 50000 = 39·1280 + 80, so
  the tile with second grid coordinate 39 overhangs the array and its fetch moves only the lanes l < 80; the other
  lanes of the staging buffer keep whatever they held. `step` reads the score block only inside five terms
  `select msk_j x 0` (j = 0 … 4), where `msk_j` at (b, s, l) says that the target word `ix[b, s, j]` equals the
  lane's item number vt·1280 + l as 32-bit words. On a lane the fetch does not move, vt·1280 + l ≥ 50000 (and at most
  51199: no wrap-around), while every target word is below 50000 by the index range: the mask is clear there, so the
  select yields zero whatever the buffer holds. On a moved lane the buffer holds the array's element in both cases.
  Hence the five selects agree as vectors, and with them the two steps.
-/
import proofs.«401552_j2439541424724_1_alg».proof.Proof.K.Step
import Idealize.ShloMosaic.Lib.ValueIdx
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Idealize.ShloMosaic.ValueIdx
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The cut of the score window, over the grid -/

/-- At every grid point the fetch of the score block moves all 8 users and all 100 steps, and on the lane axis either
    all 1280 lanes or exactly the lanes up to the array's end (tile start + moved lanes = 50000); the tile number
    is below 40. -/
theorem indep_cut0 : ∀ t : Fin cfg0.N,
    win0_0.xsize (grid0.coords t) 0 = 8 ∧ win0_0.xsize (grid0.coords t) 1 = 100 ∧
    (win0_0.xsize (grid0.coords t) 2 = 1280 ∨ (grid0.coords t 1).val * 1280 + win0_0.xsize (grid0.coords t) 2 = 50000) ∧
    (grid0.coords t 1).val < 40 :=
  (by decide +kernel : ∀ t : Fin grid0.N,
    win0_0.xsize (grid0.coords t) 0 = 8 ∧ win0_0.xsize (grid0.coords t) 1 = 100 ∧
    (win0_0.xsize (grid0.coords t) 2 = 1280 ∨ (grid0.coords t 1).val * 1280 + win0_0.xsize (grid0.coords t) 2 = 50000) ∧
    (grid0.coords t 1).val < 40)

/-! ## The words the mask compares -/

/-- Every word of the staged target block is a word of the target array, hence below 50000 under the index range. -/
theorem indep_tgt_lt (hH : IdxOk m) (c : Dev nD) (t : Fin cfg0.N) (y : S8x100x5.Idx) :
    ((iblk m c 1 t y : BitVec 32)).toNat < 50000 :=
  hH c (((cfg0.win 1).blk t).view.emb y)

/-- The item number of lane `l` of the tile with second grid coordinate `i 1`, as the body computes it: the lane's
    number plus 1280 times the tile's, in 32-bit words. -/
theorem indep_item_apply (i : grid0.Coords) (hb : S1x1x1280.Broadcasts S8x100x1280) (p : Fin 8) (q : Fin 100) (l : Fin 1280) :
    broadcastTo S8x100x1280 (k0_pay6 i) hb (ix3 p q l)
      = BitVec.ofNat 32 l.val + BitVec.ofNat 32 (i 1).val * 1280#32 := by
  refine (broadcastTo_apply _ hb (ix3 p q l) (ix3 0 0 l) ?_).trans ?_
  · intro a; match a with | ⟨0, _⟩ => rfl | ⟨1, _⟩ => rfl | ⟨2, _⟩ => rfl
  · show BitVec.ofNat 32 (0 * 1280 + l.val) + BitVec.ofNat 32 (i 1).val * 1280#32 = _
    rw [Nat.zero_mul, Nat.zero_add]

/-- Column `o` of the target block broadcast along the lanes, read at a lane: the target word `ix[p, q, o]`. -/
theorem indep_tgt_apply (ix : Vec F S8x100x5 .i32) (o : Nat) (ho : o < 5) (hs : S8x100x5.Slices ![0, 0, o] S8x100x1)
    (hb : S8x100x1.Broadcasts S8x100x1280) (p : Fin 8) (q : Fin 100) (l : Fin 1280) :
    broadcastTo S8x100x1280 (extractStridedSlice S8x100x1 ![0, 0, o] (k0_pay7 ix) hs) hb (ix3 p q l)
      = ix (ix3 p q ⟨o, ho⟩) := by
  refine (broadcastTo_apply _ hb (ix3 p q l) (ix3 p q 0) ?_).trans ?_
  · intro a; match a with | ⟨0, _⟩ => rfl | ⟨1, _⟩ => rfl | ⟨2, _⟩ => rfl
  refine (extractStridedSlice_apply _ _ hs (ix3 p q 0) (ix3 p q ⟨o, ho⟩) ?_).trans ?_
  · intro a; match a with | ⟨0, _⟩ => simp | ⟨1, _⟩ => simp | ⟨2, _⟩ => simp
  · unfold k0_pay7; rw [shapeCast_self]

/-- Two different words compare unequal: the equality mask bit is clear. -/
theorem indep_cmpi_eq_of_ne (x y : BitVec 32) (h : x ≠ y) : IntOp.cmpi .eq x y = 0#1 := by
  show BitVec.ofBool (x == y) = 0#1
  rw [beq_eq_false_iff_ne.mpr h]; rfl

/-! ## One masked select -/

/-- ONE MASKED SELECT. Where the fetch moves a lane both buffers hold the array's element; a lane it does not move
    has an item number at or past 50000, which no target word equals, so the mask is clear there and the select
    yields its third operand. -/
theorem indep_sel (hH : IdxOk m) (c : Dev nD) (t : Fin cfg0.N) (d d' z : Vec F S8x100x1280 .f32)
    (o : Nat) (ho : o < 5) (hs : S8x100x5.Slices ![0, 0, o] S8x100x1)
    (hb : S8x100x1.Broadcasts S8x100x1280) (hb' : S1x1x1280.Broadcasts S8x100x1280) :
    select (cmpi .eq (broadcastTo S8x100x1280 (extractStridedSlice S8x100x1 ![0, 0, o] (k0_pay7 (iblk m c 1 t)) hs) hb)
        (broadcastTo S8x100x1280 (k0_pay6 (grid0.coords t)) hb')) (xwith m c t d) z
    = select (cmpi .eq (broadcastTo S8x100x1280 (extractStridedSlice S8x100x1 ![0, 0, o] (k0_pay7 (iblk m c 1 t)) hs) hb)
        (broadcastTo S8x100x1280 (k0_pay6 (grid0.coords t)) hb')) (xwith m c t d') z := by
  funext y
  obtain ⟨p, q, l, rfl⟩ : ∃ (p : Fin 8) (q : Fin 100) (l : Fin 1280), y = ix3 p q l := ⟨y 0, y 1, y 2, eq_ix3 y⟩
  show Scalar.select (IntOp.cmpi .eq
        (broadcastTo S8x100x1280 (extractStridedSlice S8x100x1 ![0, 0, o] (k0_pay7 (iblk m c 1 t)) hs) hb (ix3 p q l))
        (broadcastTo S8x100x1280 (k0_pay6 (grid0.coords t)) hb' (ix3 p q l))) (xwith m c t d (ix3 p q l)) (z (ix3 p q l))
     = Scalar.select (IntOp.cmpi .eq
        (broadcastTo S8x100x1280 (extractStridedSlice S8x100x1 ![0, 0, o] (k0_pay7 (iblk m c 1 t)) hs) hb (ix3 p q l))
        (broadcastTo S8x100x1280 (k0_pay6 (grid0.coords t)) hb' (ix3 p q l))) (xwith m c t d' (ix3 p q l)) (z (ix3 p q l))
  rw [indep_tgt_apply (iblk m c 1 t) o ho hs hb p q l, indep_item_apply (grid0.coords t) hb' p q l]
  by_cases hm : win0_0.moved (grid0.coords t) (ix3 p q l) = true
  · -- a moved lane: the array's element, whatever the buffer held
    have e : ∀ d₀ : Vec F S8x100x1280 .f32, xwith m c t d₀ (ix3 p q l)
        = iblk m c 0 t (fun a => ⟨((ix3 p q l : S8x100x1280.Idx) a).val, (win0_0.moved_iff (grid0.coords t) (ix3 p q l)).mp hm a⟩) :=
      fun d₀ => dif_pos hm
    rw [e d, e d']
  · -- a lane past the array's end: its item number is at least 50000, so the mask is clear
    obtain ⟨h0, h1, h2, hv⟩ := indep_cut0 t
    have hge : 50000 ≤ (grid0.coords t 1).val * 1280 + l.val := by
      by_contra hcon
      refine hm ((win0_0.moved_iff (grid0.coords t) (ix3 p q l)).mpr fun a => ?_)
      match a with
      | ⟨0, _⟩ => show p.val < win0_0.xsize (grid0.coords t) 0; rw [h0]; exact p.isLt
      | ⟨1, _⟩ => show q.val < win0_0.xsize (grid0.coords t) 1; rw [h1]; exact q.isLt
      | ⟨2, _⟩ =>
        show l.val < win0_0.xsize (grid0.coords t) 2
        have hl := l.isLt
        generalize win0_0.xsize (grid0.coords t) 2 = X at h2 ⊢
        omega
    have hclear : IntOp.cmpi .eq (iblk m c 1 t (ix3 p q ⟨o, ho⟩))
        (BitVec.ofNat 32 l.val + BitVec.ofNat 32 (grid0.coords t 1).val * 1280#32) = 0#1 := by
      apply indep_cmpi_eq_of_ne
      intro he
      have hlt := indep_tgt_lt m hH c t (ix3 p q ⟨o, ho⟩)
      rw [he] at hlt
      simp only [BitVec.toNat_add, BitVec.toNat_mul, BitVec.toNat_ofNat] at hlt
      have hl := l.isLt
      omega
    rw [hclear, select_zero, select_zero]

/-! ## The step -/

/-- Under the index range, one tile's step does not depend on what the score buffer holds past the array's end. -/
theorem step_indep (hH : IdxOk m) (c : Dev nD) (t : Fin cfg0.N) (d d' : Vec F S8x100x1280 .f32) (s : Vec F S8x100x5 .f32) :
    step (grid0.coords t) (xwith m c t d) (iblk m c 1 t) s = step (grid0.coords t) (xwith m c t d') (iblk m c 1 t) s := by
  unfold step k0_pay1 k0_pay8 k0_pay9 k0_pay10 k0_pay11 k0_pay12
  dsimp only
  rw [indep_sel m hH c t d d' _ 0 (by decide), indep_sel m hH c t d d' _ 1 (by decide),
    indep_sel m hH c t d d' _ 2 (by decide), indep_sel m hH c t d d' _ 3 (by decide),
    indep_sel m hH c t d d' _ 4 (by decide)]

end Cert.Kernel.Hand

end
-- ==== Proof.K.Data.lean ====
/-
  The proof data of the one pipeline, and the frame.
  After the body at point t: the score window's buffer holds the array's block (zeros named past the array's end,
  where only a sweep's last tile has lanes), the target and length windows their blocks, the sums' buffer the running
  sums `accAt`, and — on a sweep's last tile — the result window the per-user losses `epi (accAt …)`. Under the index
  range the sums do not depend on what the machine left past the array's end (`step_indep`), which is what lets the
  data name them. The body obligation is stated up to the unmoved part of the score window's buffer.
 -/
import proofs.«401552_j2439541424724_1_alg».proof.Proof.K.RunAcc
import proofs.«401552_j2439541424724_1_alg».proof.Proof.K.RunLast
import proofs.«401552_j2439541424724_1_alg».proof.Proof.K.Indep
import Idealize.ShloMosaic.Lib.Pipeline.FrameBody
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Kernel Cert.Kernel.Gen

variable {F : FTy → Type} [FloatOps F]

local notation "𝕄" => MT nD τ sig Unit (Elt F) ℕ (UR sig nD τ) ℕ

set_option maxRecDepth 16384

variable (m : (ℓ : Loc nD τ sig) → Buf (Elt F) ℓ) (ρ : Dev nD → PrngReg)

/-- The region's invariant before position `n`: before the first point the sums' buffer at anything; afterwards at the
    running sums the position before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => epi (accAt m c t.val t.isLt) (iblk m c 2 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = xfill m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = epi (accAt m c t.val t.isLt) (iblk m c 2 t) := by dsimp only [dats]

/-- The score window is fetched at every point: its buffer holds the array's block where the fetch moved it, and
    whatever the machine left elsewhere. -/
theorem before0 (c : Dev nD) (t : Fin cfg0.N) (d) : (dats m 0 c).before 0 t d = xwith m c t d := by
  unfold Dat.before; rw [if_pos (fetch0_0 t)]
  unfold Dat.fetched Dat.blockOf xwith iblk; rw [A_eq]
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Refilling the named contents' moved part with `d` gives the buffer with `d` past the array's end. -/
theorem fill_cut_xfill (c : Dev nD) (t : Fin cfg0.N) (d : Vec F S8x100x1280 .f32) :
    (cfg0.win 0).fill (cfg0.grid.coords t) d ((cfg0.win 0).cut (cfg0.grid.coords t) (xfill m c t)) = xwith m c t d := by
  unfold xfill xwith; rw [Pipeline.Window.cut_fill]

theorem leaves0 (c : Dev nD) (t : Fin cfg0.N) :
    (dats m 0 c).leaves 0 t = iprop(∃ d, owns (c : Thread nD τ) (ms0 t) fullShare ((cfg0.win 0).fill (cfg0.grid.coords t) d ((cfg0.win 0).cut (cfg0.grid.coords t) ((dats m 0 c).after 0 t)))) := by
  unfold Dat.leaves; rw [live0 t]; rfl
theorem leaves1 (c : Dev nD) (t : Fin cfg0.N) :
    (dats m 0 c).leaves 1 t = owns (c : Thread nD τ) (ms1 t) fullShare ((dats m 0 c).after 1 t) := by
  unfold Dat.leaves; rw [live1 t]
theorem leaves2 (c : Dev nD) (t : Fin cfg0.N) :
    (dats m 0 c).leaves 2 t = owns (c : Thread nD τ) (ms2 t) fullShare ((dats m 0 c).after 2 t) := by
  unfold Dat.leaves; rw [live2 t]
theorem leaves3_last (c : Dev nD) (t : Fin cfg0.N) (h : t.val % 40 = 39) :
    (dats m 0 c).leaves 3 t = owns (c : Thread nD τ) (ms3 t) fullShare ((dats m 0 c).after 3 t) := by
  unfold Dat.leaves; rw [live3 t h]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4800000 in
theorem sound_body (hH : IdxOk m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, after0, after1, after2]
  have hN : t.val < 80 := lt_of_lt_of_eq t.isLt (show cfg0.N = 80 from N_0)
  by_cases h0 : t.val % 40 = 0
  · -- a sweep's first tile: the sums restart from zero
    have h1 : ¬t.val % 40 = 39 := by omega
    rw [Dat.leaves_idle (dats m 0 c) 3 t (idle3 t h1) (noFlush3 t h1)]
    rw [accAt_first m c t h0]
    by_cases hz : t.val = 0
    · rw [PhiS_castSucc m c t, PhiS_zero m c _ _ hz, PhiA_eq]
      iintro ⟨⟨⟨%s0, HS⟩, Hg⟩, Ho, ⟨%d0, H0⟩, ⟨%d1, H1⟩, ⟨%d2, H2⟩, H3⟩
      have hstep := step_indep m hH c t d0 (fun _ => (Scalar.ofBits .f32 0x00000000#32 : F .f32)) (acc0 (F := F))
      iapply (run_first c (grid0.coords t) (ms0 t) (hs0 t) (ms1 t) (hs1 t) (ms2 t) (hs2 t) (ms3 t) (hs3 t) scM (Memref.isWhole_whole _)
        ((hcondFirst t).mpr h0) (fun h => h1 ((hcondLast t).mp h)) (xwith m c t d0) (iblk m c 1 t) Set.univ _)
      isplitl [H0]; · iexact H0
      isplitl [H1]; · iexact H1
      isplitl [HS]; · iexists _; iexact HS
      iintro ⟨H0, H1, HS⟩
      rw [hstep]
      isplitl [HS Hg]
      · isplitl [HS]; · iexact HS
        iexact Hg
      isplitl [Ho]; · iexact Ho
      isplitl [H0]; · iexists d0; rw [fill_cut_xfill]; iexact H0
      isplitl [H1]; · iexact H1
      isplitl [H2]; · iexact H2
      iexact H3
    · rw [PhiS_castSucc m c t, PhiS_pos m c _ _ hz]
      iintro ⟨⟨HS, Hg⟩, Ho, ⟨%d0, H0⟩, ⟨%d1, H1⟩, ⟨%d2, H2⟩, H3⟩
      have hstep := step_indep m hH c t d0 (fun _ => (Scalar.ofBits .f32 0x00000000#32 : F .f32)) (acc0 (F := F))
      iapply (run_first c (grid0.coords t) (ms0 t) (hs0 t) (ms1 t) (hs1 t) (ms2 t) (hs2 t) (ms3 t) (hs3 t) scM (Memref.isWhole_whole _)
        ((hcondFirst t).mpr h0) (fun h => h1 ((hcondLast t).mp h)) (xwith m c t d0) (iblk m c 1 t) Set.univ _)
      isplitl [H0]; · iexact H0
      isplitl [H1]; · iexact H1
      isplitl [HS]; · iexists _; iexact HS
      iintro ⟨H0, H1, HS⟩
      rw [hstep]
      isplitl [HS Hg]
      · isplitl [HS]; · iexact HS
        iexact Hg
      isplitl [Ho]; · iexact Ho
      isplitl [H0]; · iexists d0; rw [fill_cut_xfill]; iexact H0
      isplitl [H1]; · iexact H1
      isplitl [H2]; · iexact H2
      iexact H3
  · have hz : t.val ≠ 0 := fun h => h0 (by rw [h])
    rw [accAt_next m c t h0]
    rw [PhiS_castSucc m c t, PhiS_pos m c _ _ hz]
    by_cases h1 : t.val % 40 = 39
    · -- a sweep's last tile: the sums are finished and the result block stored
      rw [leaves3_last m c t h1, after3, accAt_next m c t h0]
      iintro ⟨⟨HS, Hg⟩, Ho, ⟨%d0, H0⟩, ⟨%d1, H1⟩, ⟨%d2, H2⟩, ⟨%d3, H3⟩⟩
      have hstep := step_indep m hH c t d0 (fun _ => (Scalar.ofBits .f32 0x00000000#32 : F .f32)) (accAt m c (t.val - 1) (Nat.lt_of_le_of_lt (Nat.sub_le _ _) t.isLt))
      iapply (run_last c (grid0.coords t) (ms0 t) (hs0 t) (ms1 t) (hs1 t) (ms2 t) (hs2 t) (ms3 t) (hs3 t) scM (Memref.isWhole_whole _)
        (fun h => h0 ((hcondFirst t).mp h)) ((hcondLast t).mpr h1) (xwith m c t d0) (iblk m c 1 t) (iblk m c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      rw [hstep]
      isplitl [HS Hg]
      · isplitl [HS]; · iexact HS
        iexact Hg
      isplitl [Ho]; · iexact Ho
      isplitl [H0]; · iexists d0; rw [fill_cut_xfill]; iexact H0
      isplitl [H1]; · iexact H1
      isplitl [H2]; · iexact H2
      iexact H3
    · -- a tile in the middle of a sweep
      rw [Dat.leaves_idle (dats m 0 c) 3 t (idle3 t h1) (noFlush3 t h1)]
      iintro ⟨⟨HS, Hg⟩, Ho, ⟨%d0, H0⟩, ⟨%d1, H1⟩, ⟨%d2, H2⟩, H3⟩
      have hstep := step_indep m hH c t d0 (fun _ => (Scalar.ofBits .f32 0x00000000#32 : F .f32)) (accAt m c (t.val - 1) (Nat.lt_of_le_of_lt (Nat.sub_le _ _) t.isLt))
      iapply (run_mid c (grid0.coords t) (ms0 t) (hs0 t) (ms1 t) (hs1 t) (ms2 t) (hs2 t) (ms3 t) (hs3 t) scM (Memref.isWhole_whole _)
        (fun h => h0 ((hcondFirst t).mp h)) (fun h => h1 ((hcondLast t).mp h)) (xwith m c t d0) (iblk m c 1 t) _ Set.univ _)
      isplitl [H0]; · iexact H0
      isplitl [H1]; · iexact H1
      isplitl [HS]; · iexact HS
      iintro ⟨H0, H1, HS⟩
      rw [hstep]
      isplitl [HS Hg]
      · isplitl [HS]; · iexact HS
        iexact Hg
      isplitl [Ho]; · iexact Ho
      isplitl [H0]; · iexists d0; rw [fill_cut_xfill]; iexact H0
      isplitl [H1]; · iexact H1
      isplitl [H2]; · iexact H2
      iexact H3

/-- The library's body obligation (up to the unmoved part of the score window's buffer), at every point. -/
theorem body_obligation (hH : IdxOk m) (c : Dev nD) :
    BodyObligationLoose (dats (F := F) m 0 c) (defs₀ (F := F)) Variants.none () Set.univ := fun t => by
  rw [bigSep_W0, bigSep_W0]
  exact sound_body m hH c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the sums' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 80 := N_0; omega)

set_option backward.isDefEq.respectTransparency.types false in
/-- Under the index range every weakly fair execution of @main terminates, every array of the pipeline ending at what the
    library computes from the proof data and every other unscoped buffer as the lines after the region leave it. -/
theorem run_main (hH : IdxOk m) :
    θ_run defs (onTc (τ := τ) (main (F := F))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m hH c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, under the index range: the program runs to the end, faults nowhere, and its argument arrays end unchanged. -/
theorem frame (hH : IdxOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ hH)

end Cert.Kernel.Hand

end
-- ==== Proof.PreRead.lean ====
/-
  Reading the index ranges out of the printed precondition.

  The precondition is the conjunction (an `and` of one-bit words) of five "all elements satisfy …" tests, each a
  reduction by `and` of a one-bit array over every axis.  When the conjunction is 1, each reduction is 1, hence each
  element of each tested array is 1.  For the label array and the negative-sample array the tested bits are the signed
  comparisons `0 ≤ x` and `x < 50000` of a 32-bit word `x` against constants.  A word that is signed-nonnegative has
  its sign bit clear, so its signed and unsigned readings agree; the signed bound `x < 50000` is then a bound on the
  unsigned value.
-/
import proofs.«401552_j2439541424724_1_alg».proof.Pre_finite_inputs
import Idealize.ShloMosaic.Lib.ReduceAll
import Idealize.ShloMosaic.Lib.Affine

namespace Cert.PreRead

open Idealize.ShloMosaic
open Cert.Pre_finite_inputs

/-- The rank-0 shape has exactly one index (the empty tuple). -/
instance subsingleton_scalar_idx : Subsingleton S_.Idx := ⟨fun a b => funext fun d => d.elim0⟩

/-- A 32-bit word `x` with `0 ≤ x` and `x < 50000` in the SIGNED reading has UNSIGNED value below 50000:
    `0 ≤ x.toInt` forces the sign bit clear (`2 * x.toNat < 2 ^ 32`), where `x.toInt = x.toNat`. -/
theorem toNat_lt_of_signed (x : BitVec 32) (h0 : (0#32 : BitVec 32).toInt ≤ x.toInt)
    (h1 : x.toInt < (50000#32 : BitVec 32).toInt) : x.toNat < 50000 := by
  have e0 : (0#32 : BitVec 32).toInt = 0 := by decide
  have e1 : (50000#32 : BitVec 32).toInt = 50000 := by decide
  rw [e0] at h0
  rw [e1] at h1
  rw [BitVec.toInt_eq_toNat_cond] at h0 h1
  have hx := x.isLt
  split at h0 <;> split at h1 <;> omega

/-- One element: the two comparison bits of a word against the broadcast constants give the unsigned bound. -/
theorem word_lt {x : BitVec 32} (hge : IntOp.cmpi .sge x 0#32 = 1#1) (hlt : IntOp.cmpi .slt x 50000#32 = 1#1) :
    x.toNat < 50000 :=
  toNat_lt_of_signed x (IntOp.cmpi_sge.1 hge) (IntOp.cmpi_slt.1 hlt)

section
variable {F : FTy → Type} [FloatOps F] [Cert.Pre_finite_inputs.Facts]

/-- The precondition's five conjuncts, read at the single rank-0 index: the four integer reductions are each 1.
    (The first conjunct, the finiteness test of the float array, is not needed and is dropped.) -/
theorem conjuncts (a0 : FVec F Cert.Pre_finite_inputs.S16x100x50000 .f32) (a1 : IVec Cert.Pre_finite_inputs.S16x100 32)
    (a2 a3 : IVec Cert.Pre_finite_inputs.S16 32) (a4 : IVec Cert.Pre_finite_inputs.S16x100x4 32)
    (h : Cert.Pre_finite_inputs.fn (F := F) a0 a1 a2 a3 a4 = fun _ => 1#1) :
    (∀ i, IntOp.cmpi .sge (a1 i) 0#32 = 1#1) ∧ (∀ i, IntOp.cmpi .slt (a1 i) 50000#32 = 1#1) ∧
      (∀ i, IntOp.cmpi .sge (a4 i) 0#32 = 1#1) ∧ (∀ i, IntOp.cmpi .slt (a4 i) 50000#32 = 1#1) := by
  have h0 := congrFun h (fun d => d.elim0)
  dsimp only [fn, fn_part1, andi] at h0
  -- the conjunction of five one-bit words is 1 exactly when each is
  obtain ⟨h1234, h5⟩ := IntOp.andi_eq_one.1 h0
  obtain ⟨h123, h4⟩ := IntOp.andi_eq_one.1 h1234
  obtain ⟨h12, h3⟩ := IntOp.andi_eq_one.1 h123
  obtain ⟨_, h2⟩ := IntOp.andi_eq_one.1 h12
  -- a full reduction by `and` that is 1 met a 1 at every element; an element of a comparison against a
  -- broadcast scalar constant is the comparison of the word there against the constant
  exact ⟨fun i => Host.reduce_andi_all _ _ _ _ _ h2 i, fun i => Host.reduce_andi_all _ _ _ _ _ h3 i,
    fun i => Host.reduce_andi_all _ _ _ _ _ h4 i, fun i => Host.reduce_andi_all _ _ _ _ _ h5 i⟩

/-- Every label is an index into the 50000 classes. -/
theorem labels_lt (a0 : FVec F Cert.Pre_finite_inputs.S16x100x50000 .f32) (a1 : IVec Cert.Pre_finite_inputs.S16x100 32)
    (a2 a3 : IVec Cert.Pre_finite_inputs.S16 32) (a4 : IVec Cert.Pre_finite_inputs.S16x100x4 32)
    (h : Cert.Pre_finite_inputs.fn (F := F) a0 a1 a2 a3 a4 = fun _ => 1#1) : ∀ i, (a1 i).toNat < 50000 := by
  obtain ⟨hge, hlt, _, _⟩ := conjuncts a0 a1 a2 a3 a4 h
  exact fun i => word_lt (hge i) (hlt i)

/-- Every negative sample is an index into the 50000 classes. -/
theorem negs_lt (a0 : FVec F Cert.Pre_finite_inputs.S16x100x50000 .f32) (a1 : IVec Cert.Pre_finite_inputs.S16x100 32)
    (a2 a3 : IVec Cert.Pre_finite_inputs.S16 32) (a4 : IVec Cert.Pre_finite_inputs.S16x100x4 32)
    (h : Cert.Pre_finite_inputs.fn (F := F) a0 a1 a2 a3 a4 = fun _ => 1#1) : ∀ i, (a4 i).toNat < 50000 := by
  obtain ⟨_, _, hge, hlt⟩ := conjuncts a0 a1 a2 a3 a4 h
  exact fun i => word_lt (hge i) (hlt i)

end

end Cert.PreRead
-- ==== Proof.K.IdxOk.lean ====
/-
  The three arrays the host lines write before the region, read at an index.

  The 16 × 100 × 5 array of target items is the concatenation, along the last axis, of the 16 × 100 labels viewed as
  16 × 100 × 1 (a broadcast that only adds a unit axis) and of the 16 × 100 × 4 negatives: at target 0 it reads the
  label, at target j + 1 the negative j.  The 16 × 1 column of lengths is the 16 lengths reshaped: row b of the
  column is length b, since both sit at row-major position b.  Since every word of the target array is a label or a
  negative, and the precondition bounds both below 50000, every target item indexes the item axis.
-/
import proofs.«401552_j2439541424724_1_alg».proof.Proof.K.Step
import proofs.«401552_j2439541424724_1_alg».proof.Proof.PreRead
import Idealize.ShloMosaic.Lib.ValueIdx
import Idealize.ShloMosaic.Lib.StableHlo.Run
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.Kernel Cert.Kernel.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-- The target array as the host lines build it: the labels with a unit last axis, then the negatives. -/
theorem V_v1_eq (c : Dev nD) :
    (V m c main_v1 : IVec S16x100x5 32)
      = concatenate S16x100x5 2
          [⟨S16x100x1, broadcastInDim S16x100x1 ![0, 1] bcast_S16x100_S16x100x1_0_1
              (m ((c.tc : Thread nD τ).loc main_arg1) : IVec S16x100 32)⟩,
            ⟨S16x100x4, (m ((c.tc : Thread nD τ).loc main_arg4) : IVec S16x100x4 32)⟩]
          concatenates_S16x100x1_S16x100x4_S16x100x5_d2 := by
  show StableHlo.after hostOps0 (fun b => m (c, b)) (Proc.devRef .tc main_v1) = _
  after_results

/-- The column of lengths as the host lines build it: the lengths reshaped. -/
theorem V_v2_eq (c : Dev nD) :
    (V m c main_v2 : IVec S16x1 32)
      = shapeCast S16x1 (m ((c.tc : Thread nD τ).loc main_arg2) : IVec S16 32) shapeCasts_S16_S16x1 := by
  show StableHlo.after hostOps0 (fun b => m (c, b)) (Proc.devRef .tc main_v2) = _
  after_results
  rfl

/-- The label's word is target 0 of the array the region finds. -/
theorem V_idx_label (c : Dev nD) (b : Fin 16) (q : Fin 100) :
    (V m c main_v1 : IVec S16x100x5 32) (ix3 b q 0) = (m ((c.tc : Thread nD τ).loc main_arg1) : IVec S16x100 32) (ix2 b q) := by
  refine (congrFun (V_v1_eq m c) (ix3 b q 0)).trans ?_
  -- target 0 lies in the first piece (extent 1 along the last axis), at the same coordinates
  refine (concatenate_pair_apply_left (2 : Fin S16x100x5.rank) _ _ concatenates_S16x100x1_S16x100x4_S16x100x5_d2
    (ix3 b q 0) rfl (ix3 b q 0) (fun a => ?_)).trans ?_
  · match a with
    | ⟨0, _⟩ => rfl
    | ⟨1, _⟩ => rfl
    | ⟨2, _⟩ => rfl
  -- the first piece only adds a unit axis to the labels
  · refine broadcastInDim_apply _ _ _ (ix3 b q 0) (ix2 b q) (fun a => ?_)
    match a with
    | ⟨0, _⟩ => rfl
    | ⟨1, _⟩ => rfl

/-- Negative j's word is target j + 1. -/
theorem V_idx_neg (c : Dev nD) (b : Fin 16) (q : Fin 100) (j : Fin 4) :
    (V m c main_v1 : IVec S16x100x5 32) (ix3 b q j.succ) = (m ((c.tc : Thread nD τ).loc main_arg4) : IVec S16x100x4 32) (ix3 b q j) := by
  refine (congrFun (V_v1_eq m c) (ix3 b q j.succ)).trans ?_
  -- target j + 1 lies past the first piece's one column: the second piece, at column j
  refine concatenate_pair_apply_right (2 : Fin S16x100x5.rank) _ _ concatenates_S16x100x1_S16x100x4_S16x100x5_d2
    (ix3 b q j.succ) rfl rfl (ix3 b q j) (fun a ha => ?_) ?_
  · match a, ha with
    | ⟨0, _⟩, _ => rfl
    | ⟨1, _⟩, _ => rfl
    | ⟨2, _⟩, ha => exact absurd rfl ha
  · show j.val + 1 = j.succ.val
    rw [Fin.val_succ]

/-- The lengths the region finds, as a column. -/
theorem V_len (c : Dev nD) (b : Fin 16) :
    (V m c main_v2 : IVec S16x1 32) (ix2 b 0) = (m ((c.tc : Thread nD τ).loc main_arg2) : IVec S16 32) (ix1 b) := by
  refine (congrFun (V_v2_eq m c) (ix2 b 0)).trans ?_
  -- row b of the column and entry b of the vector share the row-major position b
  refine shapeCast_apply _ _ (ix2 b 0) (ix1 b) ?_
  rw [Shape.rowMajor_val_one, Shape.rowMajor_val_two]
  show b.val = b.val * 1 + 0
  omega

/-- The precondition gives the index range. -/
theorem idxOk_of_pre [Cert.Pre_finite_inputs.Facts]
    (h : ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1) :
    IdxOk m := by
  intro c j
  obtain ⟨b, q, k, rfl⟩ : ∃ (b : Fin 16) (q : Fin 100) (k : Fin 5), j = ix3 b q k := ⟨j 0, j 1, j 2, eq_ix3 j⟩
  -- a target is the label (target 0) or a negative (target k' + 1); the precondition bounds both
  refine Fin.cases ?_ (fun k' => ?_) k
  · rw [V_idx_label]
    exact Cert.PreRead.labels_lt _ _ _ _ _ (h c) _
  · rw [V_idx_neg]
    exact Cert.PreRead.negs_lt _ _ _ _ _ (h c) _

end Cert.Kernel.Hand

end
-- ==== Proof.KI.Step.lean ====
/-
  One V-tile of the masked gather, and the epilogue, as pure functions of what the body loads.
  At a grid point (bt, vt) the body holds a block `x` of scores (8 users × 100 steps × 1280 items of tile vt),
  the block `ix` of the 8 × 100 × 5 target items (the label, then four negatives) and the running sums `acc`
  (8 × 100 × 5). `step` adds to `acc[b,t,j]` the sum over the tile's lanes l of `x[b,t,l]` where
  `ix[b,t,j] = vt·1280 + l` and of zero elsewhere; `acc0` is the all-zero start of a user tile's sweep;
  `epi` turns the finished sums into the per-user loss in lane 0 of an 8 × 128 block (zero in the other lanes).
  Beside them: which of the body's two branches a grid point takes (the sweep's first tile resets the sums,
  its last tile runs the epilogue), in closed form over the 2 × 40 grid, and where the result window is idle.
-/
import proofs.«401552_j2439541424724_1_alg».proof.Proof.Gen.KernelIdeal.Skeleton
import proofs.«401552_j2439541424724_1_alg».proof.Proof.Gen.KernelIdeal.Launch
import proofs.«401552_j2439541424724_1_alg».proof.Proof.Gen.KernelIdeal.Points
import proofs.«401552_j2439541424724_1_alg».proof.Proof.Gen.KernelIdeal.Frame

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-- The sums after one more tile: `acc` plus, per (user, step, target), the tile's lanes selected by the target. -/
def step (i : grid0.Coords) (x : Vec F S8x100x1280 .f32) (ix : Vec F S8x100x5 .i32) (acc : Vec F S8x100x5 .f32) :
    Vec F S8x100x5 .f32 :=
  k0_pay1 (k0_pay6 i) x (k0_pay8 i x ix) (k0_pay9 i x ix) (k0_pay10 i x ix) (k0_pay11 i x ix) (k0_pay12 ix) acc

/-- The sums a user tile's sweep starts from: zero everywhere. -/
def acc0 : Vec F S8x100x5 .f32 := k0_pay5

/-- The result block from the finished sums and the block of sequence lengths. -/
def epi (acc : Vec F S8x100x5 .f32) (xl : Vec F S8x1 .i32) : Vec F S8x128 .f32 :=
  k0_pay2 k0_pay3 (Scalar.ofBits .f32 0x00000000#32) (k0_pay4 acc xl)

/-! ## The two branches, over the grid -/

/-- The first tile of a sweep (the sums are reset). -/
abbrev condFirst (i : grid0.Coords) : Prop :=
  (Scalar.cmpi .ne (Scalar.extui (Scalar.cmpi .eq (BitVec.ofNat 32 (i 1).val) 0#32)) 0#32) = 1#1
theorem hcondFirst : ∀ t : Fin cfg0.N, condFirst (grid0.coords t) ↔ t.val % 40 = 0 :=
  (by decide +kernel : ∀ t : Fin grid0.N, condFirst (grid0.coords t) ↔ t.val % 40 = 0)

/-- The last tile of a sweep (the epilogue runs). -/
abbrev condLast (i : grid0.Coords) : Prop := k0_cond2 i = 1#1
theorem hcondLast : ∀ t : Fin cfg0.N, condLast (grid0.coords t) ↔ t.val % 40 = 39 :=
  (by decide +kernel : ∀ t : Fin grid0.N, condLast (grid0.coords t) ↔ t.val % 40 = 39)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Off a sweep's last tile the result window is idle and is not written back. -/
theorem idle3 : ∀ t : Fin cfg0.N, ¬t.val % 40 = 39 → cfg0.idle 3 (grid0.coords t) = true :=
  (by decide +kernel : ∀ t : Fin grid0.N, ¬t.val % 40 = 39 → cfg0.idle 3 (grid0.coords t) = true)
theorem noFlush3 : ∀ t : Fin cfg0.N, ¬t.val % 40 = 39 → (cfg0.win 3).flush t = false :=
  (by decide +kernel : ∀ t : Fin grid0.N, ¬t.val % 40 = 39 → win0_3.flush t = false)
/-- On it the body stores the result block. -/
theorem live3 : ∀ t : Fin cfg0.N, t.val % 40 = 39 → cfg0.idle 3 (grid0.coords t) = false :=
  (by decide +kernel : ∀ t : Fin grid0.N, t.val % 40 = 39 → cfg0.idle 3 (grid0.coords t) = false)

/-! ## The memrefs the body is called with -/

abbrev ms0 (t : Fin cfg0.N) : Memref sig .tc .vmem S8x100x1280 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8x100x5 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S8x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S8x128 .f32 := win0_3.stage (cfg0.slots t 3)
abbrev hs3 (t : Fin cfg0.N) : (ms3 t).IsWhole := hstage0_3 ((cfg0.slots t 3).cast nbuf0_3)
/-- The running sums' buffer: a whole scoped buffer of the kernel's own. -/
abbrev scM : Memref sig .tc .vmem S8x100x5 .f32 := Memref.whole cc0_scratch0

/-- What the region's invariant holds before the first point: the sums' buffer at anything, the generator register
    at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The index range, the staged score block, the running sums point by point -/

variable (m : (ℓ : Loc nD τ sig) → Buf (Elt F) ℓ)

/-- Every target item (label or negative) indexes the item axis: as the region finds the 16 × 100 × 5 array of
    targets, each word is below 50000. -/
def IdxOk : Prop := ∀ (c : Dev nD) (j : S16x100x5.Idx), ((V m c main_v1 : IVec S16x100x5 32) j).toNat < 50000

/-- What the score window's staging buffer holds at point `t` when the part past the array's end is `d`: the
    array's block on the part the fetch moves, `d` elsewhere (only the last tile of a sweep has such a part:
    50000 items in tiles of 1280 leave 80 in tile 39). -/
def xwith (c : Dev nD) (t : Fin cfg0.N) (d : Vec F S8x100x1280 .f32) : Vec F S8x100x1280 .f32 :=
  (cfg0.win 0).fill (cfg0.grid.coords t) d (iblk m c 0 t)

/-- The same with zeros past the array's end: the contents the proof names. -/
def xfill (c : Dev nD) (t : Fin cfg0.N) : Vec F S8x100x1280 .f32 :=
  xwith m c t (fun _ => (Scalar.ofBits .f32 0x00000000#32 : F .f32))

/-- THE RUNNING SUMS after the body at position `n`: a sweep's first tile (position ≡ 0 mod 40) starts from zero,
    every other tile from what the position before left. -/
def accAt (c : Dev nD) : (n : ℕ) → n < cfg0.N → Vec F S8x100x5 .f32
  | 0, hn => step (grid0.coords ⟨0, hn⟩) (xfill m c ⟨0, hn⟩) (iblk m c 1 ⟨0, hn⟩) acc0
  | n + 1, hn =>
    if (n + 1) % 40 = 0 then step (grid0.coords ⟨n + 1, hn⟩) (xfill m c ⟨n + 1, hn⟩) (iblk m c 1 ⟨n + 1, hn⟩) acc0
    else step (grid0.coords ⟨n + 1, hn⟩) (xfill m c ⟨n + 1, hn⟩) (iblk m c 1 ⟨n + 1, hn⟩) (accAt c n (Nat.lt_of_succ_lt hn))

theorem accAt_first (c : Dev nD) (t : Fin cfg0.N) (h : t.val % 40 = 0) :
    accAt m c t.val t.isLt = step (grid0.coords t) (xfill m c t) (iblk m c 1 t) acc0 := by
  obtain ⟨n, hn⟩ := t
  cases n with
  | zero => rfl
  | succ n => exact (if_pos h).trans rfl

theorem accAt_next (c : Dev nD) (t : Fin cfg0.N) (h : ¬t.val % 40 = 0) :
    accAt m c t.val t.isLt = step (grid0.coords t) (xfill m c t) (iblk m c 1 t)
      (accAt m c (t.val - 1) (Nat.lt_of_le_of_lt (Nat.sub_le _ _) t.isLt)) := by
  obtain ⟨n, hn⟩ := t
  cases n with
  | zero => exact absurd (Nat.zero_mod _) h
  | succ n => exact (if_neg h).trans rfl

end Cert.KernelIdeal.Hand

end
-- ==== Proof.KI.RunAcc.lean ====
/-
  The body at a grid point that is not a sweep's last tile, as a separation-logic triple with the buffers' final
  contents stated through the payload functions: holding the score block `x`, the target block `ix` and the sums'
  buffer, the body runs to a state holding `x` and `ix` as they were and the sums' buffer at `step i x ix acc`,
  where `acc` is what the buffer held (`run_mid`: neither branch taken) or the all-zero start `acc0` (`run_first`:
  the first branch taken, which stores `acc0` over whatever the buffer held before the sums are loaded back).
  Every store of the body stores the WHOLE 8 × 100 × 5 buffer, so after the run the buffer reads the last stored
  payload, and a load after the reset reads the reset's payload; the loads of `x`, `ix` and the sums are loads of
  the whole blocks. The result window and the block of lengths are not touched in these two cases.
-/
import proofs.«401552_j2439541424724_1_alg».proof.Proof.KI.Step
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-- After a run of stores whose LAST one stores the whole shape (a unit rectangle at offset zero of the shape's own
    extents, all lanes), the buffer reads that store's payload, whatever it held and whatever was stored before. -/
private theorem read_writes_whole_last {sig : RefSig} {κ : Kind} {sp : Space} {S : Shape} {e : EltTy} {Val : EltTy → Type}
    [∀ e, Nonempty (Val e)] (v : View sig κ sp S e) (f : v.ty.Contents Val) {off : Fin S.rank → Nat}
    (hz : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _
    (fun y => ⟨(⟨Rect.unit off S.size inb, w⟩ : View.Piece Val S e), List.mem_cons_self, View.mem_set_unit_zero hz inb y⟩)]
  exact View.canon_cons_unit_zero hz inb w L

/-- The zero offsets of the two rank-3 shapes. -/
private theorem hzA : (![0, 0, 0] : Fin S8x100x5.rank → Nat) = fun _ => 0 := funext fun a => by fin_cases a <;> rfl
private theorem hzX : (![0, 0, 0] : Fin S8x100x1280.rank → Nat) = fun _ => 0 := funext fun a => by fin_cases a <;> rfl

set_option maxHeartbeats 1000000 in
/-- Neither branch taken (a tile strictly inside a sweep): the sums' buffer goes from `s` to `step i x ix s`. -/
theorem run_mid (c : Dev nD) (i : grid0.Coords) (arg2 : Memref sig .tc .vmem S8x100x1280 .f32) (harg2 : arg2.IsWhole) (arg3 : Memref sig .tc .vmem S8x100x5 .i32) (harg3 : arg3.IsWhole) (arg4 : Memref sig .tc .vmem S8x1 .i32) (harg4 : arg4.IsWhole) (arg5 : Memref sig .tc .vmem S8x128 .f32) (harg5 : arg5.IsWhole) (arg6 : Memref sig .tc .vmem S8x100x5 .f32) (harg6 : arg6.IsWhole) (h1 : ¬condFirst i) (h2 : ¬condLast i) (x : Vec F S8x100x1280 .f32) (ix : Vec F S8x100x5 .i32) (s : Vec F S8x100x5 .f32) (E : Set ℕ) (K : PUnit → sProp 𝕄) :
    iprop(owns (c : Thread nD τ) arg2 fullShare x ∗ owns (c : Thread nD τ) arg3 fullShare ix ∗ owns (c : Thread nD τ) arg6 fullShare s
        ∗ (iprop(owns (c : Thread nD τ) arg2 fullShare x ∗ owns (c : Thread nD τ) arg3 fullShare ix ∗ owns (c : Thread nD τ) arg6 fullShare (step i x ix s)) -∗ K ⟨⟩))
      ⊢ wp frame (wpE (defs₀ (F := F)) Variants.none c none) E (cc0__bpr_kernel i arg2 harg2 arg3 harg3 arg4 harg4 arg5 harg5 arg6 harg6) K := by
  simp only [cc0__bpr_kernel_eq_skeleton]; unfold cc0__bpr_kernel_skel
  unfold owns
  iintro ⟨⟨%f0, %hf0, H0⟩, ⟨%f1, %hf1, H1⟩, ⟨%fs0, %hfs0, HS0⟩, Hk⟩
  obtain rfl := harg2.eq_unread hf0; obtain rfl := harg3.eq_unread hf1; obtain rfl := harg6.eq_unread hfs0
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  on_goal 2 => iexact HS0
  ipureintro
  refine (read_writes_whole_last _ _ hzA _ _ _).trans ?_
  sl_unfold_words
  simp only [View.readAt_eq_ld, harg2.read_unread, harg3.read_unread, harg6.read_unread, View.ld_unit_zero (S := S8x100x1280) hzX, View.ld_unit_zero (S := S8x100x5) hzA]
  rfl

set_option maxHeartbeats 1000000 in
/-- The first branch taken, the second not (a sweep's first tile): whatever the sums' buffer held, it is reset to
    `acc0`, read back, and left at `step i x ix acc0`. -/
theorem run_first (c : Dev nD) (i : grid0.Coords) (arg2 : Memref sig .tc .vmem S8x100x1280 .f32) (harg2 : arg2.IsWhole) (arg3 : Memref sig .tc .vmem S8x100x5 .i32) (harg3 : arg3.IsWhole) (arg4 : Memref sig .tc .vmem S8x1 .i32) (harg4 : arg4.IsWhole) (arg5 : Memref sig .tc .vmem S8x128 .f32) (harg5 : arg5.IsWhole) (arg6 : Memref sig .tc .vmem S8x100x5 .f32) (harg6 : arg6.IsWhole) (h1 : condFirst i) (h2 : ¬condLast i) (x : Vec F S8x100x1280 .f32) (ix : Vec F S8x100x5 .i32) (E : Set ℕ) (K : PUnit → sProp 𝕄) :
    iprop(owns (c : Thread nD τ) arg2 fullShare x ∗ owns (c : Thread nD τ) arg3 fullShare ix ∗ (∃ s, owns (c : Thread nD τ) arg6 fullShare s)
        ∗ (iprop(owns (c : Thread nD τ) arg2 fullShare x ∗ owns (c : Thread nD τ) arg3 fullShare ix ∗ owns (c : Thread nD τ) arg6 fullShare (step i x ix acc0)) -∗ K ⟨⟩))
      ⊢ wp frame (wpE (defs₀ (F := F)) Variants.none c none) E (cc0__bpr_kernel i arg2 harg2 arg3 harg3 arg4 harg4 arg5 harg5 arg6 harg6) K := by
  simp only [cc0__bpr_kernel_eq_skeleton]; unfold cc0__bpr_kernel_skel
  unfold owns
  iintro ⟨⟨%f0, %hf0, H0⟩, ⟨%f1, %hf1, H1⟩, ⟨%s0, %fs0, -, HS0⟩, Hk⟩
  obtain rfl := harg2.eq_unread hf0; obtain rfl := harg3.eq_unread hf1
  sl_exec (disch := first | exact h1 | exact h2)
  sl_step
  iapply Hk
  isplitl [H0]
  · iexists _; isplitr; · ipureintro; exact harg2.read_unread _
    iexact H0
  isplitl [H1]
  · iexists _; isplitr; · ipureintro; exact harg3.read_unread _
    iexact H1
  iexists _; isplitr
  on_goal 2 => iexact HS0
  ipureintro
  refine (read_writes_whole_last _ _ hzA _ _ _).trans ?_
  sl_unfold_words
  simp only [View.readAt_eq_ld, harg2.read_unread, harg3.read_unread, View.ld_unit_zero (S := S8x100x1280) hzX, View.ld_unit_zero (S := S8x100x5) hzA, View.readCov_unit_zero (S := S8x100x5) _ hzA]
  rfl

end Cert.KernelIdeal.Hand

end
-- ==== Proof.KI.RunLast.lean ====
/-
  The body at a sweep's LAST tile, as a separation-logic triple with the buffers' final contents stated through
  the payload functions. Holding the score block `x`, the target block `ix`, the block of sequence lengths `xl`,
  the result block at anything and the sums' buffer at `s`, the body runs to a state holding `x`, `ix` and `xl`
  as they were, the sums' buffer at `step i x ix s` and the result block at `epi (step i x ix s) xl`.
  The first branch is not taken (no reset); the accumulating store writes `step i x ix s` over the whole
  8 × 100 × 5 buffer; the second branch is taken: the epilogue loads the sums back AFTER that store, so it reads
  the stored payload, loads the lengths, and stores the whole 8 × 128 result block. Every store covers its whole
  buffer (a unit rectangle at offset zero of the buffer's own extents, all lanes), so each buffer afterwards reads
  the last payload stored into it, whatever it held before; every load is a load of a whole block.
-/
import proofs.«401552_j2439541424724_1_alg».proof.Proof.KI.Step
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

/-- A buffer whose most recent store was of the whole shape (a unit rectangle at offset zero of the shape's own
    extents) reads that store's payload at every index: the rectangle holds every index, so neither the earlier
    stores nor the prior contents show through. -/
private theorem read_of_last_store_whole {sig : RefSig} {κ : Kind} {sp : Space} {S : Shape} {e : EltTy}
    {Val : EltTy → Type} [∀ e, Nonempty (Val e)] (v : View sig κ sp S e) (f : v.ty.Contents Val)
    {off : Fin S.rank → Nat} (hz : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w :=
  (View.read_writes_eq_canon v f _ fun y =>
      ⟨(⟨Rect.unit off S.size inb, w⟩ : View.Piece Val S e), List.mem_cons_self, View.mem_set_unit_zero hz inb y⟩).trans
    (View.canon_cons_unit_zero hz inb w L)

/-- The printed zero offsets are the constant zero, shape by shape. -/
private theorem zeroOff_res : (![0, 0] : Fin S8x128.rank → Nat) = fun _ => 0 := funext fun a => by fin_cases a <;> rfl
private theorem zeroOff_len : (![0, 0] : Fin S8x1.rank → Nat) = fun _ => 0 := funext fun a => by fin_cases a <;> rfl
private theorem zeroOff_sum : (![0, 0, 0] : Fin S8x100x5.rank → Nat) = fun _ => 0 := funext fun a => by fin_cases a <;> rfl
private theorem zeroOff_x : (![0, 0, 0] : Fin S8x100x1280.rank → Nat) = fun _ => 0 := funext fun a => by fin_cases a <;> rfl

set_option maxHeartbeats 1000000 in
/-- The first branch not taken, the second taken (a sweep's last tile): the sums' buffer goes from `s` to
    `step i x ix s`, and the result block, whatever it held, is left at `epi (step i x ix s) xl`. -/
theorem run_last (c : Dev nD) (i : grid0.Coords) (arg2 : Memref sig .tc .vmem S8x100x1280 .f32) (harg2 : arg2.IsWhole) (arg3 : Memref sig .tc .vmem S8x100x5 .i32) (harg3 : arg3.IsWhole) (arg4 : Memref sig .tc .vmem S8x1 .i32) (harg4 : arg4.IsWhole) (arg5 : Memref sig .tc .vmem S8x128 .f32) (harg5 : arg5.IsWhole) (arg6 : Memref sig .tc .vmem S8x100x5 .f32) (harg6 : arg6.IsWhole) (h1 : ¬condFirst i) (h2 : condLast i) (x : Vec F S8x100x1280 .f32) (ix : Vec F S8x100x5 .i32) (xl : Vec F S8x1 .i32) (s : Vec F S8x100x5 .f32) (E : Set ℕ) (K : PUnit → sProp 𝕄) :
    iprop(owns (c : Thread nD τ) arg2 fullShare x ∗ owns (c : Thread nD τ) arg3 fullShare ix ∗ owns (c : Thread nD τ) arg4 fullShare xl ∗ (∃ d, owns (c : Thread nD τ) arg5 fullShare d) ∗ owns (c : Thread nD τ) arg6 fullShare s
        ∗ (iprop(owns (c : Thread nD τ) arg2 fullShare x ∗ owns (c : Thread nD τ) arg3 fullShare ix ∗ owns (c : Thread nD τ) arg4 fullShare xl ∗ owns (c : Thread nD τ) arg5 fullShare (epi (step i x ix s) xl) ∗ owns (c : Thread nD τ) arg6 fullShare (step i x ix s)) -∗ K ⟨⟩))
      ⊢ wp frame (wpE (defs₀ (F := F)) Variants.none c none) E (cc0__bpr_kernel i arg2 harg2 arg3 harg3 arg4 harg4 arg5 harg5 arg6 harg6) K := by
  simp only [cc0__bpr_kernel_eq_skeleton]; unfold cc0__bpr_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  obtain rfl := harg2.eq_unread hf2; obtain rfl := harg3.eq_unread hf3
  obtain rfl := harg4.eq_unread hf4; obtain rfl := harg6.eq_unread hf6
  sl_exec (disch := first | exact h1 | exact h2)
  sl_step
  iapply Hk
  -- the three inputs are held as they were
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  -- the result block: one whole store of the epilogue's payload, whose sums are the accumulating store read back
  · iexists _; isplitr
    on_goal 2 => iexact H5
    ipureintro
    sl_unfold_words
    refine (read_of_last_store_whole _ _ zeroOff_res _ _ _).trans ?_
    simp only [View.readCov_unit_zero (S := S8x100x5) _ zeroOff_sum, View.readAt_eq_ld, harg2.read_unread,
      harg3.read_unread, harg4.read_unread, harg6.read_unread, View.ld_unit_zero (S := S8x100x5) zeroOff_sum,
      View.ld_unit_zero (S := S8x100x1280) zeroOff_x, View.ld_unit_zero (S := S8x1) zeroOff_len]
    rfl
  -- the sums' buffer: one whole store of the accumulating payload over the loaded blocks
  · iexists _; isplitr
    on_goal 2 => iexact H6
    ipureintro
    sl_unfold_words
    refine (read_of_last_store_whole _ _ zeroOff_sum _ _ _).trans ?_
    simp only [View.readAt_eq_ld, harg2.read_unread, harg3.read_unread, harg6.read_unread,
      View.ld_unit_zero (S := S8x100x5) zeroOff_sum, View.ld_unit_zero (S := S8x100x1280) zeroOff_x]
    rfl

end Cert.KernelIdeal.Hand

end
-- ==== Proof.KI.Indep.lean ====
/-
  One tile's step does not see what the score buffer holds past the array's end.
  The score array has 50000 items on its last axis and is staged in tiles of 1280 lanes: 50000 = 39·1280 + 80, so
  the tile with second grid coordinate 39 overhangs the array and its fetch moves only the lanes l < 80; the other
  lanes of the staging buffer keep whatever they held. `step` reads the score block only inside five terms
  `select msk_j x 0` (j = 0 … 4), where `msk_j` at (b, s, l) says that the target word `ix[b, s, j]` equals the
  lane's item number vt·1280 + l as 32-bit words. On a lane the fetch does not move, vt·1280 + l ≥ 50000 (and at most
  51199: no wrap-around), while every target word is below 50000 by the index range: the mask is clear there, so the
  select yields zero whatever the buffer holds. On a moved lane the buffer holds the array's element in both cases.
  Hence the five selects agree as vectors, and with them the two steps.
-/
import proofs.«401552_j2439541424724_1_alg».proof.Proof.KI.Step
import Idealize.ShloMosaic.Lib.ValueIdx
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Idealize.ShloMosaic.ValueIdx
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The cut of the score window, over the grid -/

/-- At every grid point the fetch of the score block moves all 8 users and all 100 steps, and on the lane axis either
    all 1280 lanes or exactly the lanes up to the array's end (tile start + moved lanes = 50000); the tile number
    is below 40. -/
theorem indep_cut0 : ∀ t : Fin cfg0.N,
    win0_0.xsize (grid0.coords t) 0 = 8 ∧ win0_0.xsize (grid0.coords t) 1 = 100 ∧
    (win0_0.xsize (grid0.coords t) 2 = 1280 ∨ (grid0.coords t 1).val * 1280 + win0_0.xsize (grid0.coords t) 2 = 50000) ∧
    (grid0.coords t 1).val < 40 :=
  (by decide +kernel : ∀ t : Fin grid0.N,
    win0_0.xsize (grid0.coords t) 0 = 8 ∧ win0_0.xsize (grid0.coords t) 1 = 100 ∧
    (win0_0.xsize (grid0.coords t) 2 = 1280 ∨ (grid0.coords t 1).val * 1280 + win0_0.xsize (grid0.coords t) 2 = 50000) ∧
    (grid0.coords t 1).val < 40)

/-! ## The words the mask compares -/

/-- Every word of the staged target block is a word of the target array, hence below 50000 under the index range. -/
theorem indep_tgt_lt (hH : IdxOk m) (c : Dev nD) (t : Fin cfg0.N) (y : S8x100x5.Idx) :
    ((iblk m c 1 t y : BitVec 32)).toNat < 50000 :=
  hH c (((cfg0.win 1).blk t).view.emb y)

/-- The item number of lane `l` of the tile with second grid coordinate `i 1`, as the body computes it: the lane's
    number plus 1280 times the tile's, in 32-bit words. -/
theorem indep_item_apply (i : grid0.Coords) (hb : S1x1x1280.Broadcasts S8x100x1280) (p : Fin 8) (q : Fin 100) (l : Fin 1280) :
    broadcastTo S8x100x1280 (k0_pay6 i) hb (ix3 p q l)
      = BitVec.ofNat 32 l.val + BitVec.ofNat 32 (i 1).val * 1280#32 := by
  refine (broadcastTo_apply _ hb (ix3 p q l) (ix3 0 0 l) ?_).trans ?_
  · intro a; match a with | ⟨0, _⟩ => rfl | ⟨1, _⟩ => rfl | ⟨2, _⟩ => rfl
  · show BitVec.ofNat 32 (0 * 1280 + l.val) + BitVec.ofNat 32 (i 1).val * 1280#32 = _
    rw [Nat.zero_mul, Nat.zero_add]

/-- Column `o` of the target block broadcast along the lanes, read at a lane: the target word `ix[p, q, o]`. -/
theorem indep_tgt_apply (ix : Vec F S8x100x5 .i32) (o : Nat) (ho : o < 5) (hs : S8x100x5.Slices ![0, 0, o] S8x100x1)
    (hb : S8x100x1.Broadcasts S8x100x1280) (p : Fin 8) (q : Fin 100) (l : Fin 1280) :
    broadcastTo S8x100x1280 (extractStridedSlice S8x100x1 ![0, 0, o] (k0_pay7 ix) hs) hb (ix3 p q l)
      = ix (ix3 p q ⟨o, ho⟩) := by
  refine (broadcastTo_apply _ hb (ix3 p q l) (ix3 p q 0) ?_).trans ?_
  · intro a; match a with | ⟨0, _⟩ => rfl | ⟨1, _⟩ => rfl | ⟨2, _⟩ => rfl
  refine (extractStridedSlice_apply _ _ hs (ix3 p q 0) (ix3 p q ⟨o, ho⟩) ?_).trans ?_
  · intro a; match a with | ⟨0, _⟩ => simp | ⟨1, _⟩ => simp | ⟨2, _⟩ => simp
  · unfold k0_pay7; rw [shapeCast_self]

/-- Two different words compare unequal: the equality mask bit is clear. -/
theorem indep_cmpi_eq_of_ne (x y : BitVec 32) (h : x ≠ y) : IntOp.cmpi .eq x y = 0#1 := by
  show BitVec.ofBool (x == y) = 0#1
  rw [beq_eq_false_iff_ne.mpr h]; rfl

/-! ## One masked select -/

/-- ONE MASKED SELECT. Where the fetch moves a lane both buffers hold the array's element; a lane it does not move
    has an item number at or past 50000, which no target word equals, so the mask is clear there and the select
    yields its third operand. -/
theorem indep_sel (hH : IdxOk m) (c : Dev nD) (t : Fin cfg0.N) (d d' z : Vec F S8x100x1280 .f32)
    (o : Nat) (ho : o < 5) (hs : S8x100x5.Slices ![0, 0, o] S8x100x1)
    (hb : S8x100x1.Broadcasts S8x100x1280) (hb' : S1x1x1280.Broadcasts S8x100x1280) :
    select (cmpi .eq (broadcastTo S8x100x1280 (extractStridedSlice S8x100x1 ![0, 0, o] (k0_pay7 (iblk m c 1 t)) hs) hb)
        (broadcastTo S8x100x1280 (k0_pay6 (grid0.coords t)) hb')) (xwith m c t d) z
    = select (cmpi .eq (broadcastTo S8x100x1280 (extractStridedSlice S8x100x1 ![0, 0, o] (k0_pay7 (iblk m c 1 t)) hs) hb)
        (broadcastTo S8x100x1280 (k0_pay6 (grid0.coords t)) hb')) (xwith m c t d') z := by
  funext y
  obtain ⟨p, q, l, rfl⟩ : ∃ (p : Fin 8) (q : Fin 100) (l : Fin 1280), y = ix3 p q l := ⟨y 0, y 1, y 2, eq_ix3 y⟩
  show Scalar.select (IntOp.cmpi .eq
        (broadcastTo S8x100x1280 (extractStridedSlice S8x100x1 ![0, 0, o] (k0_pay7 (iblk m c 1 t)) hs) hb (ix3 p q l))
        (broadcastTo S8x100x1280 (k0_pay6 (grid0.coords t)) hb' (ix3 p q l))) (xwith m c t d (ix3 p q l)) (z (ix3 p q l))
     = Scalar.select (IntOp.cmpi .eq
        (broadcastTo S8x100x1280 (extractStridedSlice S8x100x1 ![0, 0, o] (k0_pay7 (iblk m c 1 t)) hs) hb (ix3 p q l))
        (broadcastTo S8x100x1280 (k0_pay6 (grid0.coords t)) hb' (ix3 p q l))) (xwith m c t d' (ix3 p q l)) (z (ix3 p q l))
  rw [indep_tgt_apply (iblk m c 1 t) o ho hs hb p q l, indep_item_apply (grid0.coords t) hb' p q l]
  by_cases hm : win0_0.moved (grid0.coords t) (ix3 p q l) = true
  · -- a moved lane: the array's element, whatever the buffer held
    have e : ∀ d₀ : Vec F S8x100x1280 .f32, xwith m c t d₀ (ix3 p q l)
        = iblk m c 0 t (fun a => ⟨((ix3 p q l : S8x100x1280.Idx) a).val, (win0_0.moved_iff (grid0.coords t) (ix3 p q l)).mp hm a⟩) :=
      fun d₀ => dif_pos hm
    rw [e d, e d']
  · -- a lane past the array's end: its item number is at least 50000, so the mask is clear
    obtain ⟨h0, h1, h2, hv⟩ := indep_cut0 t
    have hge : 50000 ≤ (grid0.coords t 1).val * 1280 + l.val := by
      by_contra hcon
      refine hm ((win0_0.moved_iff (grid0.coords t) (ix3 p q l)).mpr fun a => ?_)
      match a with
      | ⟨0, _⟩ => show p.val < win0_0.xsize (grid0.coords t) 0; rw [h0]; exact p.isLt
      | ⟨1, _⟩ => show q.val < win0_0.xsize (grid0.coords t) 1; rw [h1]; exact q.isLt
      | ⟨2, _⟩ =>
        show l.val < win0_0.xsize (grid0.coords t) 2
        have hl := l.isLt
        generalize win0_0.xsize (grid0.coords t) 2 = X at h2 ⊢
        omega
    have hclear : IntOp.cmpi .eq (iblk m c 1 t (ix3 p q ⟨o, ho⟩))
        (BitVec.ofNat 32 l.val + BitVec.ofNat 32 (grid0.coords t 1).val * 1280#32) = 0#1 := by
      apply indep_cmpi_eq_of_ne
      intro he
      have hlt := indep_tgt_lt m hH c t (ix3 p q ⟨o, ho⟩)
      rw [he] at hlt
      simp only [BitVec.toNat_add, BitVec.toNat_mul, BitVec.toNat_ofNat] at hlt
      have hl := l.isLt
      omega
    rw [hclear, select_zero, select_zero]

/-! ## The step -/

/-- Under the index range, one tile's step does not depend on what the score buffer holds past the array's end. -/
theorem step_indep (hH : IdxOk m) (c : Dev nD) (t : Fin cfg0.N) (d d' : Vec F S8x100x1280 .f32) (s : Vec F S8x100x5 .f32) :
    step (grid0.coords t) (xwith m c t d) (iblk m c 1 t) s = step (grid0.coords t) (xwith m c t d') (iblk m c 1 t) s := by
  unfold step k0_pay1 k0_pay8 k0_pay9 k0_pay10 k0_pay11 k0_pay12
  dsimp only
  rw [indep_sel m hH c t d d' _ 0 (by decide), indep_sel m hH c t d d' _ 1 (by decide),
    indep_sel m hH c t d d' _ 2 (by decide), indep_sel m hH c t d d' _ 3 (by decide),
    indep_sel m hH c t d d' _ 4 (by decide)]

end Cert.KernelIdeal.Hand

end
-- ==== Proof.KI.Data.lean ====
/-
  The proof data of the one pipeline, and the frame.
  After the body at point t: the score window's buffer holds the array's block (zeros named past the array's end,
  where only a sweep's last tile has lanes), the target and length windows their blocks, the sums' buffer the running
  sums `accAt`, and — on a sweep's last tile — the result window the per-user losses `epi (accAt …)`. Under the index
  range the sums do not depend on what the machine left past the array's end (`step_indep`), which is what lets the
  data name them. The body obligation is stated up to the unmoved part of the score window's buffer.
 -/
import proofs.«401552_j2439541424724_1_alg».proof.Proof.KI.RunAcc
import proofs.«401552_j2439541424724_1_alg».proof.Proof.KI.RunLast
import proofs.«401552_j2439541424724_1_alg».proof.Proof.KI.Indep
import Idealize.ShloMosaic.Lib.Pipeline.FrameBody
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

set_option maxRecDepth 16384

variable (m : (ℓ : Loc nD τ sig) → Buf (Elt F) ℓ) (ρ : Dev nD → PrngReg)

/-- The region's invariant before position `n`: before the first point the sums' buffer at anything; afterwards at the
    running sums the position before left. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => xfill m c t
    | ⟨1, _⟩ => iblk m c 1 t
    | ⟨2, _⟩ => iblk m c 2 t
    | ⟨3, _⟩ => epi (accAt m c t.val t.isLt) (iblk m c 2 t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = xfill m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) :
    (dats m 0 c).after 3 t = epi (accAt m c t.val t.isLt) (iblk m c 2 t) := by dsimp only [dats]

/-- The score window is fetched at every point: its buffer holds the array's block where the fetch moved it, and
    whatever the machine left elsewhere. -/
theorem before0 (c : Dev nD) (t : Fin cfg0.N) (d) : (dats m 0 c).before 0 t d = xwith m c t d := by
  unfold Dat.before; rw [if_pos (fetch0_0 t)]
  unfold Dat.fetched Dat.blockOf xwith iblk; rw [A_eq]
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Refilling the named contents' moved part with `d` gives the buffer with `d` past the array's end. -/
theorem fill_cut_xfill (c : Dev nD) (t : Fin cfg0.N) (d : Vec F S8x100x1280 .f32) :
    (cfg0.win 0).fill (cfg0.grid.coords t) d ((cfg0.win 0).cut (cfg0.grid.coords t) (xfill m c t)) = xwith m c t d := by
  unfold xfill xwith; rw [Pipeline.Window.cut_fill]

theorem leaves0 (c : Dev nD) (t : Fin cfg0.N) :
    (dats m 0 c).leaves 0 t = iprop(∃ d, owns (c : Thread nD τ) (ms0 t) fullShare ((cfg0.win 0).fill (cfg0.grid.coords t) d ((cfg0.win 0).cut (cfg0.grid.coords t) ((dats m 0 c).after 0 t)))) := by
  unfold Dat.leaves; rw [live0 t]; rfl
theorem leaves1 (c : Dev nD) (t : Fin cfg0.N) :
    (dats m 0 c).leaves 1 t = owns (c : Thread nD τ) (ms1 t) fullShare ((dats m 0 c).after 1 t) := by
  unfold Dat.leaves; rw [live1 t]
theorem leaves2 (c : Dev nD) (t : Fin cfg0.N) :
    (dats m 0 c).leaves 2 t = owns (c : Thread nD τ) (ms2 t) fullShare ((dats m 0 c).after 2 t) := by
  unfold Dat.leaves; rw [live2 t]
theorem leaves3_last (c : Dev nD) (t : Fin cfg0.N) (h : t.val % 40 = 39) :
    (dats m 0 c).leaves 3 t = owns (c : Thread nD τ) (ms3 t) fullShare ((dats m 0 c).after 3 t) := by
  unfold Dat.leaves; rw [live3 t h]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t)

set_option maxHeartbeats 4800000 in
theorem sound_body (hH : IdxOk m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, after0, after1, after2]
  have hN : t.val < 80 := lt_of_lt_of_eq t.isLt (show cfg0.N = 80 from N_0)
  by_cases h0 : t.val % 40 = 0
  · -- a sweep's first tile: the sums restart from zero
    have h1 : ¬t.val % 40 = 39 := by omega
    rw [Dat.leaves_idle (dats m 0 c) 3 t (idle3 t h1) (noFlush3 t h1)]
    rw [accAt_first m c t h0]
    by_cases hz : t.val = 0
    · rw [PhiS_castSucc m c t, PhiS_zero m c _ _ hz, PhiA_eq]
      iintro ⟨⟨⟨%s0, HS⟩, Hg⟩, Ho, ⟨%d0, H0⟩, ⟨%d1, H1⟩, ⟨%d2, H2⟩, H3⟩
      have hstep := step_indep m hH c t d0 (fun _ => (Scalar.ofBits .f32 0x00000000#32 : F .f32)) (acc0 (F := F))
      iapply (run_first c (grid0.coords t) (ms0 t) (hs0 t) (ms1 t) (hs1 t) (ms2 t) (hs2 t) (ms3 t) (hs3 t) scM (Memref.isWhole_whole _)
        ((hcondFirst t).mpr h0) (fun h => h1 ((hcondLast t).mp h)) (xwith m c t d0) (iblk m c 1 t) Set.univ _)
      isplitl [H0]; · iexact H0
      isplitl [H1]; · iexact H1
      isplitl [HS]; · iexists _; iexact HS
      iintro ⟨H0, H1, HS⟩
      rw [hstep]
      isplitl [HS Hg]
      · isplitl [HS]; · iexact HS
        iexact Hg
      isplitl [Ho]; · iexact Ho
      isplitl [H0]; · iexists d0; rw [fill_cut_xfill]; iexact H0
      isplitl [H1]; · iexact H1
      isplitl [H2]; · iexact H2
      iexact H3
    · rw [PhiS_castSucc m c t, PhiS_pos m c _ _ hz]
      iintro ⟨⟨HS, Hg⟩, Ho, ⟨%d0, H0⟩, ⟨%d1, H1⟩, ⟨%d2, H2⟩, H3⟩
      have hstep := step_indep m hH c t d0 (fun _ => (Scalar.ofBits .f32 0x00000000#32 : F .f32)) (acc0 (F := F))
      iapply (run_first c (grid0.coords t) (ms0 t) (hs0 t) (ms1 t) (hs1 t) (ms2 t) (hs2 t) (ms3 t) (hs3 t) scM (Memref.isWhole_whole _)
        ((hcondFirst t).mpr h0) (fun h => h1 ((hcondLast t).mp h)) (xwith m c t d0) (iblk m c 1 t) Set.univ _)
      isplitl [H0]; · iexact H0
      isplitl [H1]; · iexact H1
      isplitl [HS]; · iexists _; iexact HS
      iintro ⟨H0, H1, HS⟩
      rw [hstep]
      isplitl [HS Hg]
      · isplitl [HS]; · iexact HS
        iexact Hg
      isplitl [Ho]; · iexact Ho
      isplitl [H0]; · iexists d0; rw [fill_cut_xfill]; iexact H0
      isplitl [H1]; · iexact H1
      isplitl [H2]; · iexact H2
      iexact H3
  · have hz : t.val ≠ 0 := fun h => h0 (by rw [h])
    rw [accAt_next m c t h0]
    rw [PhiS_castSucc m c t, PhiS_pos m c _ _ hz]
    by_cases h1 : t.val % 40 = 39
    · -- a sweep's last tile: the sums are finished and the result block stored
      rw [leaves3_last m c t h1, after3, accAt_next m c t h0]
      iintro ⟨⟨HS, Hg⟩, Ho, ⟨%d0, H0⟩, ⟨%d1, H1⟩, ⟨%d2, H2⟩, ⟨%d3, H3⟩⟩
      have hstep := step_indep m hH c t d0 (fun _ => (Scalar.ofBits .f32 0x00000000#32 : F .f32)) (accAt m c (t.val - 1) (Nat.lt_of_le_of_lt (Nat.sub_le _ _) t.isLt))
      iapply (run_last c (grid0.coords t) (ms0 t) (hs0 t) (ms1 t) (hs1 t) (ms2 t) (hs2 t) (ms3 t) (hs3 t) scM (Memref.isWhole_whole _)
        (fun h => h0 ((hcondFirst t).mp h)) ((hcondLast t).mpr h1) (xwith m c t d0) (iblk m c 1 t) (iblk m c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      rw [hstep]
      isplitl [HS Hg]
      · isplitl [HS]; · iexact HS
        iexact Hg
      isplitl [Ho]; · iexact Ho
      isplitl [H0]; · iexists d0; rw [fill_cut_xfill]; iexact H0
      isplitl [H1]; · iexact H1
      isplitl [H2]; · iexact H2
      iexact H3
    · -- a tile in the middle of a sweep
      rw [Dat.leaves_idle (dats m 0 c) 3 t (idle3 t h1) (noFlush3 t h1)]
      iintro ⟨⟨HS, Hg⟩, Ho, ⟨%d0, H0⟩, ⟨%d1, H1⟩, ⟨%d2, H2⟩, H3⟩
      have hstep := step_indep m hH c t d0 (fun _ => (Scalar.ofBits .f32 0x00000000#32 : F .f32)) (accAt m c (t.val - 1) (Nat.lt_of_le_of_lt (Nat.sub_le _ _) t.isLt))
      iapply (run_mid c (grid0.coords t) (ms0 t) (hs0 t) (ms1 t) (hs1 t) (ms2 t) (hs2 t) (ms3 t) (hs3 t) scM (Memref.isWhole_whole _)
        (fun h => h0 ((hcondFirst t).mp h)) (fun h => h1 ((hcondLast t).mp h)) (xwith m c t d0) (iblk m c 1 t) _ Set.univ _)
      isplitl [H0]; · iexact H0
      isplitl [H1]; · iexact H1
      isplitl [HS]; · iexact HS
      iintro ⟨H0, H1, HS⟩
      rw [hstep]
      isplitl [HS Hg]
      · isplitl [HS]; · iexact HS
        iexact Hg
      isplitl [Ho]; · iexact Ho
      isplitl [H0]; · iexists d0; rw [fill_cut_xfill]; iexact H0
      isplitl [H1]; · iexact H1
      isplitl [H2]; · iexact H2
      iexact H3

/-- The library's body obligation (up to the unmoved part of the score window's buffer), at every point. -/
theorem body_obligation (hH : IdxOk m) (c : Dev nD) :
    BodyObligationLoose (dats (F := F) m 0 c) (defs₀ (F := F)) Variants.none () Set.univ := fun t => by
  rw [bigSep_W0, bigSep_W0]
  exact sound_body m hH c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives it back: the sums' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 80 := N_0; omega)

set_option backward.isDefEq.respectTransparency.types false in
/-- Under the index range every weakly fair execution of @main terminates, every array of the pipeline ending at what the
    library computes from the proof data and every other unscoped buffer as the lines after the region leave it. -/
theorem run_main (hH : IdxOk m) :
    θ_run defs (onTc (τ := τ) (main (F := F))) (s₀ m ρ)
      (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m hH c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- THE FRAME, under the index range: the program runs to the end, faults nowhere, and its argument arrays end unchanged. -/
theorem frame (hH : IdxOk m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ hH)

end Cert.KernelIdeal.Hand

end
-- ==== Proof.KI.IdxOk.lean ====
/-
  The three arrays the host lines write before the region, read at an index.

  The 16 × 100 × 5 array of target items is the concatenation, along the last axis, of the 16 × 100 labels viewed as
  16 × 100 × 1 (a broadcast that only adds a unit axis) and of the 16 × 100 × 4 negatives: at target 0 it reads the
  label, at target j + 1 the negative j.  The 16 × 1 column of lengths is the 16 lengths reshaped: row b of the
  column is length b, since both sit at row-major position b.  Since every word of the target array is a label or a
  negative, and the precondition bounds both below 50000, every target item indexes the item axis.
-/
import proofs.«401552_j2439541424724_1_alg».proof.Proof.KI.Step
import proofs.«401552_j2439541424724_1_alg».proof.Proof.PreRead
import Idealize.ShloMosaic.Lib.ValueIdx
import Idealize.ShloMosaic.Lib.StableHlo.Run
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-- The target array as the host lines build it: the labels with a unit last axis, then the negatives. -/
theorem V_v1_eq (c : Dev nD) :
    (V m c main_v1 : IVec S16x100x5 32)
      = concatenate S16x100x5 2
          [⟨S16x100x1, broadcastInDim S16x100x1 ![0, 1] bcast_S16x100_S16x100x1_0_1
              (m ((c.tc : Thread nD τ).loc main_arg1) : IVec S16x100 32)⟩,
            ⟨S16x100x4, (m ((c.tc : Thread nD τ).loc main_arg4) : IVec S16x100x4 32)⟩]
          concatenates_S16x100x1_S16x100x4_S16x100x5_d2 := by
  show StableHlo.after hostOps0 (fun b => m (c, b)) (Proc.devRef .tc main_v1) = _
  after_results

/-- The column of lengths as the host lines build it: the lengths reshaped. -/
theorem V_v2_eq (c : Dev nD) :
    (V m c main_v2 : IVec S16x1 32)
      = shapeCast S16x1 (m ((c.tc : Thread nD τ).loc main_arg2) : IVec S16 32) shapeCasts_S16_S16x1 := by
  show StableHlo.after hostOps0 (fun b => m (c, b)) (Proc.devRef .tc main_v2) = _
  after_results
  rfl

/-- The label's word is target 0 of the array the region finds. -/
theorem V_idx_label (c : Dev nD) (b : Fin 16) (q : Fin 100) :
    (V m c main_v1 : IVec S16x100x5 32) (ix3 b q 0) = (m ((c.tc : Thread nD τ).loc main_arg1) : IVec S16x100 32) (ix2 b q) := by
  refine (congrFun (V_v1_eq m c) (ix3 b q 0)).trans ?_
  -- target 0 lies in the first piece (extent 1 along the last axis), at the same coordinates
  refine (concatenate_pair_apply_left (2 : Fin S16x100x5.rank) _ _ concatenates_S16x100x1_S16x100x4_S16x100x5_d2
    (ix3 b q 0) rfl (ix3 b q 0) (fun a => ?_)).trans ?_
  · match a with
    | ⟨0, _⟩ => rfl
    | ⟨1, _⟩ => rfl
    | ⟨2, _⟩ => rfl
  -- the first piece only adds a unit axis to the labels
  · refine broadcastInDim_apply _ _ _ (ix3 b q 0) (ix2 b q) (fun a => ?_)
    match a with
    | ⟨0, _⟩ => rfl
    | ⟨1, _⟩ => rfl

/-- Negative j's word is target j + 1. -/
theorem V_idx_neg (c : Dev nD) (b : Fin 16) (q : Fin 100) (j : Fin 4) :
    (V m c main_v1 : IVec S16x100x5 32) (ix3 b q j.succ) = (m ((c.tc : Thread nD τ).loc main_arg4) : IVec S16x100x4 32) (ix3 b q j) := by
  refine (congrFun (V_v1_eq m c) (ix3 b q j.succ)).trans ?_
  -- target j + 1 lies past the first piece's one column: the second piece, at column j
  refine concatenate_pair_apply_right (2 : Fin S16x100x5.rank) _ _ concatenates_S16x100x1_S16x100x4_S16x100x5_d2
    (ix3 b q j.succ) rfl rfl (ix3 b q j) (fun a ha => ?_) ?_
  · match a, ha with
    | ⟨0, _⟩, _ => rfl
    | ⟨1, _⟩, _ => rfl
    | ⟨2, _⟩, ha => exact absurd rfl ha
  · show j.val + 1 = j.succ.val
    rw [Fin.val_succ]

/-- The lengths the region finds, as a column. -/
theorem V_len (c : Dev nD) (b : Fin 16) :
    (V m c main_v2 : IVec S16x1 32) (ix2 b 0) = (m ((c.tc : Thread nD τ).loc main_arg2) : IVec S16 32) (ix1 b) := by
  refine (congrFun (V_v2_eq m c) (ix2 b 0)).trans ?_
  -- row b of the column and entry b of the vector share the row-major position b
  refine shapeCast_apply _ _ (ix2 b 0) (ix1 b) ?_
  rw [Shape.rowMajor_val_one, Shape.rowMajor_val_two]
  show b.val = b.val * 1 + 0
  omega

/-- The precondition gives the index range. -/
theorem idxOk_of_pre [Cert.Pre_finite_inputs.Facts]
    (h : ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = fun _ => 1#1) :
    IdxOk m := by
  intro c j
  obtain ⟨b, q, k, rfl⟩ : ∃ (b : Fin 16) (q : Fin 100) (k : Fin 5), j = ix3 b q k := ⟨j 0, j 1, j 2, eq_ix3 j⟩
  -- a target is the label (target 0) or a negative (target k' + 1); the precondition bounds both
  refine Fin.cases ?_ (fun k' => ?_) k
  · rw [V_idx_label]
    exact Cert.PreRead.labels_lt _ _ _ _ _ (h c) _
  · rw [V_idx_neg]
    exact Cert.PreRead.negs_lt _ _ _ _ _ (h c) _

end Cert.KernelIdeal.Hand

end
-- ==== Proof.Spec.lean ====
/-
  What both programs compute, as one function of the argument arrays over the extended reals.
  For user b and step q, the score array (16 × 100 × 50000) is read at the label's item and at each of four
  negative items; log σ(pos − neg) is summed over the four negatives, steps past the user's sequence length are
  zeroed, the steps are summed, negated and divided by the length; the sixteen per-user losses are summed and divided
  by sixteen. log σ(d) is computed by both programs as −(max(−d, 0) + log(1 + e^{−|d|})), |d| = max(d, −d).
-/
import Idealize.ShloMosaic.PureOps.Ideal
import Idealize.ShloMosaic.Lib.ValueIdx

noncomputable section

namespace Cert.Spec

open Idealize.ShloMosaic Idealize.ShloMosaic.ValueIdx

abbrev S16x100x50000 : Shape := ⟨3, ![16, 100, 50000]⟩
abbrev S16x100 : Shape := ⟨2, ![16, 100]⟩
abbrev S16 : Shape := ⟨1, ![16]⟩
abbrev S16x100x4 : Shape := ⟨3, ![16, 100, 4]⟩
abbrev S1 : Shape := ⟨1, ![1]⟩

/-- User b's score at step q for the item a 32-bit word names (zero for a word outside the item range, which the
    certificate's precondition excludes). -/
def score (a0 : FVec Ideal S16x100x50000 .f32) (b : Fin 16) (q : Fin 100) (w : BitVec 32) : EReal :=
  if h : w.toNat < 50000 then a0 (ix3 b q ⟨w.toNat, h⟩) else 0

/-- log σ(d) = −(max(−d, 0) + log(1 + e^{−|d|})). -/
def lsig (d : EReal) : EReal := -(max (-d) 0 + Ideal.log1p (Ideal.exp (-(max d (-d)))))

/-- The loss of user b at step q: log σ(pos − neg) summed over the four negatives. -/
def stepLoss (a0 : FVec Ideal S16x100x50000 .f32) (a1 : IVec S16x100 32) (a4 : IVec S16x100x4 32) (b : Fin 16) (q : Fin 100) : EReal :=
  ∑ j : Fin 4, lsig (score a0 b q (a1 (ix2 b q)) - score a0 b q (a4 (ix3 b q j)))

/-- 1 on the steps inside user b's sequence (step number below the length, as signed words), 0 past it. -/
def valid (a2 : IVec S16 32) (b : Fin 16) (q : Fin 100) : EReal :=
  if (BitVec.ofNat 32 q.val).slt (a2 (ix1 b)) then 1 else 0

/-- User b's loss: minus the sum of the valid steps' losses, over the length. -/
def userLoss (a0 : FVec Ideal S16x100x50000 .f32) (a1 : IVec S16x100 32) (a2 : IVec S16 32) (a4 : IVec S16x100x4 32) (b : Fin 16) : EReal :=
  Ideal.div (-(∑ q : Fin 100, stepLoss a0 a1 a4 b q * valid a2 b q)) ((((a2 (ix1 b)).toInt : ℝ)) : EReal)

/-- THE RESULT: the mean of the sixteen users' losses (the divisor is the f32 word of 16, the same literal in both
    programs, kept as its pattern). -/
def G (a0 : FVec Ideal S16x100x50000 .f32) (a1 : IVec S16x100 32) (a2 : IVec S16 32) (a4 : IVec S16x100x4 32) : FVec Ideal S1 .f32 :=
  fun _ => Ideal.div (∑ b : Fin 16, userLoss a0 a1 a2 a4 b) (Ideal.ofBits .f32 0x41800000#32)

end Cert.Spec

end
-- ==== Proof.KI.ValueAcc.lean ====
/-
  The running sums of a sweep, index by index, at the ideal instance.
  (1) One tile: `step` adds to the sum at (user p, step q, target j) the sum over the tile's 1280 lanes of the staged
  score where the target word equals the lane's item number vt·1280 + l (as 32-bit words; nothing wraps, vt < 40 and
  l < 1280) and of zero elsewhere: five lane sums, one per target column, stood up as columns and laid side by side.
  (2) The staged blocks: at grid point t = 40·bt + vt the score buffer (zeros named past the array's end) holds, on
  lane l of (p, q), the array's score of user 8·bt + p at step q for item vt·1280 + l when that item exists, else zero;
  the target buffer holds user tile bt of the target array.
  (3) A sweep: a target item w < 50000 lies in exactly one tile vt = w / 1280 and one lane, so after tile vt the sum is
  w's score if w < 1280·(vt + 1) and zero otherwise, by induction over the sweep's tiles; after the last tile
  (1280·40 = 51200 > w) it is the score.
-/
import proofs.«401552_j2439541424724_1_alg».proof.Proof.KI.Data
import proofs.«401552_j2439541424724_1_alg».proof.Proof.Spec
import Idealize.ShloMosaic.Lib.ValueIdx
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ)

/-- Row p of user tile bt. -/
abbrev urow (bt : Fin 2) (p : Fin 8) : Fin 16 := ⟨8 * bt.val + p.val, by omega⟩
/-- The last point of user tile bt's sweep. -/
abbrev lastPt (bt : Fin 2) : Fin cfg0.N := ⟨40 * bt.val + 39, by rw [show cfg0.N = 80 from N_0]; omega⟩

/-! ## One tile at an index -/

/-- The lane's item number as the body computes it in 32-bit words is the word of the number itself: tile number
    below 40 and lane below 1280, so nothing wraps. -/
theorem acc_item_word (v l : ℕ) :
    BitVec.ofNat 32 l + BitVec.ofNat 32 v * 1280#32 = BitVec.ofNat 32 (v * 1280 + l) := by
  apply BitVec.eq_of_toNat_eq
  simp only [BitVec.toNat_add, BitVec.toNat_mul, BitVec.toNat_ofNat]
  omega

/-- A 32-bit word is the word of a number below 2³² exactly when its value is that number. -/
theorem acc_word_eq_ofNat_iff (w : BitVec 32) (n : ℕ) (hn : n < 2 ^ 32) : w = BitVec.ofNat 32 n ↔ w.toNat = n := by
  constructor
  · intro h; rw [h, BitVec.toNat_ofNat, Nat.mod_eq_of_lt hn]
  · intro h; apply BitVec.eq_of_toNat_eq; rw [h, BitVec.toNat_ofNat, Nat.mod_eq_of_lt hn]

/-- A select on the equality bit of two words is the `if` on their equality. -/
theorem acc_select_cmpi_eq {α : Type} (a b : BitVec 32) (X Y : α) :
    Scalar.select (IntOp.cmpi .eq a b) X Y = if a = b then X else Y := by
  show Scalar.select (BitVec.ofBool (a == b)) X Y = _
  by_cases h : a = b
  · rw [if_pos h, beq_iff_eq.mpr h]; exact select_one X Y
  · rw [if_neg h, beq_eq_false_iff_ne.mpr h]; exact select_zero X Y

/-- ONE TARGET'S LANE SUM: for target column o, the tile's scores selected where the target word is the lane's item
    number and summed along the lanes, at (user p, step q): the sum over the lanes of the score on the matching lane and
    of zero elsewhere. -/
theorem tileSum_apply (i : grid0.Coords) (x : Vec Ideal S8x100x1280 .f32) (ix : Vec Ideal S8x100x5 .i32)
    (o : Nat) (ho : o < 5) (hs : S8x100x5.Slices ![0, 0, o] S8x100x1)
    (hb : S8x100x1.Broadcasts S8x100x1280) (hb' : S1x1x1280.Broadcasts S8x100x1280)
    (hr : S8x100x1280.Reduces [2] S8x100) (hφ : FKind.Formats .f32)
    (hacc : (0x00000000#32 : BitVec 32) = FKind.add.neutral .f32 hφ) (p : Fin 8) (q : Fin 100) :
    multiReduction (F := Ideal) .add [2] S8x100
      (select (cmpi .eq (broadcastTo S8x100x1280 (extractStridedSlice S8x100x1 ![0, 0, o] (k0_pay7 ix) hs) hb)
          (broadcastTo S8x100x1280 (k0_pay6 i) hb')) x (broadcast S8x100x1280 (Scalar.ofBits .f32 0x00000000#32)))
      0x00000000#32 hr hφ hacc (ix2 p q)
    = ∑ l : Fin 1280, if ix (ix3 p q ⟨o, ho⟩) = BitVec.ofNat 32 ((i 1).val * 1280 + l.val) then x (ix3 p q l) else 0 := by
  refine (Ideal.multiReduction_add_single _ 0x00000000#32 hr hφ hacc (ix2 p q)).trans ?_
  refine Finset.sum_congr rfl fun l _ => ?_
  have hl : hr.lift (ix2 p q) l = ix3 p q l := by
    funext a; apply Fin.ext; match a with | ⟨0, _⟩ => rfl | ⟨1, _⟩ => rfl | ⟨2, _⟩ => rfl
  rw [hl]
  show Scalar.select (IntOp.cmpi .eq
      (broadcastTo S8x100x1280 (extractStridedSlice S8x100x1 ![0, 0, o] (k0_pay7 ix) hs) hb (ix3 p q l))
      (broadcastTo S8x100x1280 (k0_pay6 i) hb' (ix3 p q l))) (x (ix3 p q l)) (Ideal.ofBits .f32 0x00000000#32) = _
  rw [indep_tgt_apply ix o ho hs hb p q l, indep_item_apply i hb' p q l, acc_item_word, Ideal.ofBits_zero_f32, acc_select_cmpi_eq]

/-- A column of sums (8 × 100) stood up as an 8 × 100 × 1 block reads, at (p, q, 0), the sum at (p, q). -/
theorem acc_col_apply {α : Type} (v : S8x100.Idx → α) (hc : S8x100.ShapeCasts S8x100x1) (p : Fin 8) (q : Fin 100) :
    shapeCast S8x100x1 v hc (ix3 p q (0 : Fin 1)) = v (ix2 p q) := by
  refine shapeCast_apply v hc (ix3 p q (0 : Fin 1)) (ix2 p q) ?_
  rw [Shape.rowMajor_val_two, Shape.rowMajor_val_three]
  show p.val * 100 + q.val = (p.val * 100 + q.val) * 1 + 0
  omega

/-- FIVE COLUMNS SIDE BY SIDE: the concatenation along the last axis of five 8 × 100 × 1 columns reads, at (p, q, j),
    column j at (p, q) — stated as: whatever value `r` column j has at (p, q), for each of the five j. -/
theorem acc_conc5_eq {α : Type} (v0 v1 v2 v3 v4 : S8x100.Idx → α) (hc : S8x100.ShapeCasts S8x100x1)
    (h : Shape.Concatenates [S8x100x1, S8x100x1, S8x100x1, S8x100x1, S8x100x1] S8x100x5 2)
    (p : Fin 8) (q : Fin 100) (j : Fin 5) (r : α)
    (h0 : j.val = 0 → v0 (ix2 p q) = r) (h1 : j.val = 1 → v1 (ix2 p q) = r) (h2 : j.val = 2 → v2 (ix2 p q) = r)
    (h3 : j.val = 3 → v3 (ix2 p q) = r) (h4 : j.val = 4 → v4 (ix2 p q) = r) :
    concatenate S8x100x5 2 [⟨S8x100x1, shapeCast S8x100x1 v0 hc⟩, ⟨S8x100x1, shapeCast S8x100x1 v1 hc⟩,
        ⟨S8x100x1, shapeCast S8x100x1 v2 hc⟩, ⟨S8x100x1, shapeCast S8x100x1 v3 hc⟩, ⟨S8x100x1, shapeCast S8x100x1 v4 hc⟩] h (ix3 p q j)
      = r := by
  have hi : ∀ (k : Fin 5) (b : Fin S8x100x1.rank), b.cast (rfl : S8x100x1.rank = S8x100x5.rank) ≠ (2 : Fin S8x100x5.rank) →
      ((ix3 p q (0 : Fin 1) : S8x100x1.Idx) b).val = ((ix3 p q k : S8x100x5.Idx) (b.cast rfl)).val := by
    intro k b hb
    match b with
    | ⟨0, _⟩ => rfl
    | ⟨1, _⟩ => rfl
    | ⟨2, _⟩ => exact absurd rfl hb
  match j with
  | ⟨0, hj⟩ =>
    exact ((concatenate_apply_piece 2 [⟨S8x100x1, shapeCast S8x100x1 v0 hc⟩, ⟨S8x100x1, shapeCast S8x100x1 v1 hc⟩,
        ⟨S8x100x1, shapeCast S8x100x1 v2 hc⟩, ⟨S8x100x1, shapeCast S8x100x1 v3 hc⟩, ⟨S8x100x1, shapeCast S8x100x1 v4 hc⟩]
        h (ix3 p q ⟨0, hj⟩) 0 (by show (0 : ℕ) < 5; omega) S8x100x1 _ rfl rfl 0 rfl (ix3 p q 0) (hi _) rfl).trans
      (acc_col_apply v0 hc p q)).trans (h0 rfl)
  | ⟨1, hj⟩ =>
    exact ((concatenate_apply_piece 2 [⟨S8x100x1, shapeCast S8x100x1 v0 hc⟩, ⟨S8x100x1, shapeCast S8x100x1 v1 hc⟩,
        ⟨S8x100x1, shapeCast S8x100x1 v2 hc⟩, ⟨S8x100x1, shapeCast S8x100x1 v3 hc⟩, ⟨S8x100x1, shapeCast S8x100x1 v4 hc⟩]
        h (ix3 p q ⟨1, hj⟩) 1 (by show (1 : ℕ) < 5; omega) S8x100x1 _ rfl rfl 1 rfl (ix3 p q 0) (hi _) rfl).trans
      (acc_col_apply v1 hc p q)).trans (h1 rfl)
  | ⟨2, hj⟩ =>
    exact ((concatenate_apply_piece 2 [⟨S8x100x1, shapeCast S8x100x1 v0 hc⟩, ⟨S8x100x1, shapeCast S8x100x1 v1 hc⟩,
        ⟨S8x100x1, shapeCast S8x100x1 v2 hc⟩, ⟨S8x100x1, shapeCast S8x100x1 v3 hc⟩, ⟨S8x100x1, shapeCast S8x100x1 v4 hc⟩]
        h (ix3 p q ⟨2, hj⟩) 2 (by show (2 : ℕ) < 5; omega) S8x100x1 _ rfl rfl 2 rfl (ix3 p q 0) (hi _) rfl).trans
      (acc_col_apply v2 hc p q)).trans (h2 rfl)
  | ⟨3, hj⟩ =>
    exact ((concatenate_apply_piece 2 [⟨S8x100x1, shapeCast S8x100x1 v0 hc⟩, ⟨S8x100x1, shapeCast S8x100x1 v1 hc⟩,
        ⟨S8x100x1, shapeCast S8x100x1 v2 hc⟩, ⟨S8x100x1, shapeCast S8x100x1 v3 hc⟩, ⟨S8x100x1, shapeCast S8x100x1 v4 hc⟩]
        h (ix3 p q ⟨3, hj⟩) 3 (by show (3 : ℕ) < 5; omega) S8x100x1 _ rfl rfl 3 rfl (ix3 p q 0) (hi _) rfl).trans
      (acc_col_apply v3 hc p q)).trans (h3 rfl)
  | ⟨4, hj⟩ =>
    exact ((concatenate_apply_piece 2 [⟨S8x100x1, shapeCast S8x100x1 v0 hc⟩, ⟨S8x100x1, shapeCast S8x100x1 v1 hc⟩,
        ⟨S8x100x1, shapeCast S8x100x1 v2 hc⟩, ⟨S8x100x1, shapeCast S8x100x1 v3 hc⟩, ⟨S8x100x1, shapeCast S8x100x1 v4 hc⟩]
        h (ix3 p q ⟨4, hj⟩) 4 (by show (4 : ℕ) < 5; omega) S8x100x1 _ rfl rfl 4 rfl (ix3 p q 0) (hi _) rfl).trans
      (acc_col_apply v4 hc p q)).trans (h4 rfl)

/-- ONE TILE AT AN INDEX: the sums after the tile with second grid coordinate `i 1` are the sums before it plus, per
    (user p, step q, target j), the tile's score on the lane whose item number the target word is (a sum over the
    lanes with at most one nonzero term). -/
theorem step_apply (i : grid0.Coords) (x : Vec Ideal S8x100x1280 .f32) (ix : Vec Ideal S8x100x5 .i32)
    (acc : Vec Ideal S8x100x5 .f32) (p : Fin 8) (q : Fin 100) (j : Fin 5) :
    step i x ix acc (ix3 p q j) = acc (ix3 p q j)
      + ∑ l : Fin 1280, if ix (ix3 p q j) = BitVec.ofNat 32 ((i 1).val * 1280 + l.val) then x (ix3 p q l) else 0 := by
  unfold step k0_pay1 k0_pay8 k0_pay9 k0_pay10 k0_pay11 k0_pay12
  dsimp only
  refine (congrFun (shapeCast_self _ _) (ix3 p q j)).trans ?_
  refine (addf_apply acc _ (ix3 p q j)).trans ?_
  refine congrArg (fun z => acc (ix3 p q j) + z) ?_
  refine acc_conc5_eq _ _ _ _ _ _ _ p q j _ (fun hj => ?_) (fun hj => ?_) (fun hj => ?_) (fun hj => ?_) (fun hj => ?_)
  · have e : j = (⟨0, by decide⟩ : Fin 5) := Fin.ext hj
    rw [e]
    exact tileSum_apply i x ix 0 _ _ _ _ _ _ _ p q
  · have e : j = (⟨1, by decide⟩ : Fin 5) := Fin.ext hj
    rw [e]
    exact tileSum_apply i x ix 1 _ _ _ _ _ _ _ p q
  · have e : j = (⟨2, by decide⟩ : Fin 5) := Fin.ext hj
    rw [e]
    exact tileSum_apply i x ix 2 _ _ _ _ _ _ _ p q
  · have e : j = (⟨3, by decide⟩ : Fin 5) := Fin.ext hj
    rw [e]
    exact tileSum_apply i x ix 3 _ _ _ _ _ _ _ p q
  · have e : j = (⟨4, by decide⟩ : Fin 5) := Fin.ext hj
    rw [e]
    exact tileSum_apply i x ix 4 _ _ _ _ _ _ _ p q

/-! ## What the staged blocks hold -/

/-- The score array as the region finds it. -/
abbrev xarr (c : Dev nD) : FVec Ideal S16x100x50000 .f32 := V m c main_arg0
/-- The array of target items (per user and step the label, then the four negatives) as the region finds it. -/
abbrev tarr (c : Dev nD) : IVec S16x100x5 32 := V m c main_v1

/-- The score window over the 80 grid points, in closed form: point t = 40·bt + vt stages user tile bt, all steps,
    item tile vt; its fetch moves all 8 users and 100 steps, and 1280 lanes but on a sweep's last tile, where the
    array ends after 80; the body's second grid coordinate is vt. -/
theorem acc_win0_facts : ∀ t : Fin cfg0.N,
    win0_0.index t 0 = t.val / 40 ∧ win0_0.index t 1 = 0 ∧ win0_0.index t 2 = t.val % 40
    ∧ win0_0.xsize (grid0.coords t) 0 = 8 ∧ win0_0.xsize (grid0.coords t) 1 = 100
    ∧ win0_0.xsize (grid0.coords t) 2 = (if t.val % 40 = 39 then 80 else 1280)
    ∧ (grid0.coords t 1).val = t.val % 40 :=
  (by decide +kernel : ∀ t : Fin grid0.N,
    win0_0.index t 0 = t.val / 40 ∧ win0_0.index t 1 = 0 ∧ win0_0.index t 2 = t.val % 40
    ∧ win0_0.xsize (grid0.coords t) 0 = 8 ∧ win0_0.xsize (grid0.coords t) 1 = 100
    ∧ win0_0.xsize (grid0.coords t) 2 = (if t.val % 40 = 39 then 80 else 1280)
    ∧ (grid0.coords t 1).val = t.val % 40)

/-- The target window over the grid: point t = 40·bt + vt stages user tile bt, whole on the other two axes. -/
theorem acc_win1_facts : ∀ t : Fin cfg0.N,
    win0_1.index t 0 = t.val / 40 ∧ win0_1.index t 1 = 0 ∧ win0_1.index t 2 = 0 :=
  (by decide +kernel : ∀ t : Fin grid0.N,
    win0_1.index t 0 = t.val / 40 ∧ win0_1.index t 1 = 0 ∧ win0_1.index t 2 = 0)

/-- An element of the score block at point t is the array's element at block index × block size + the coordinate
    inside the block, axis by axis. -/
theorem iblk0_apply (c : Dev nD) (t : Fin cfg0.N) (y : ((cfg0.win 0).xblock (cfg0.grid.coords t)).Idx)
    (k : S16x100x50000.Idx) (hk : ∀ a : Fin 3, (k a).val = win0_0.index t a * S8x100x1280.size a + (y a).val) :
    iblk m c 0 t y = xarr m c k := by
  show xarr m c (((cfg0.win 0).blk t).view.emb y) = xarr m c k
  refine congrArg (xarr m c) (funext fun a => Fin.ext ?_)
  rw [hk a]
  show win0_0.index t a * S8x100x1280.size a + 1 * (y a).val = _
  omega

/-- The target block at point t = 40·bt + vt is user tile bt of the target array. -/
theorem iblk1_apply (c : Dev nD) (t : Fin cfg0.N) (bt : Fin 2) (hb : t.val / 40 = bt.val)
    (p : Fin 8) (q : Fin 100) (j : Fin 5) :
    (iblk m c 1 t (ix3 p q j) : BitVec 32) = tarr m c (ix3 (urow bt p) q j) := by
  obtain ⟨j0, j1, j2⟩ := acc_win1_facts t
  show tarr m c (((cfg0.win 1).blk t).view.emb (ix3 p q j)) = _
  refine congrArg (tarr m c) (funext fun a => Fin.ext ?_)
  match a with
  | ⟨0, _⟩ => show win0_1.index t 0 * 8 + 1 * p.val = 8 * bt.val + p.val; rw [j0, hb]; omega
  | ⟨1, _⟩ => show win0_1.index t 1 * 100 + 1 * q.val = q.val; rw [j1]; omega
  | ⟨2, _⟩ => show win0_1.index t 2 * 5 + 1 * j.val = j.val; rw [j2]; omega

/-- WHAT THE SCORE BUFFER HOLDS, with zeros named past the array's end: at point t = 40·bt + vt, lane l of (user p,
    step q) holds the array's score of user 8·bt + p at step q for item vt·1280 + l when that item exists, and zero
    otherwise (only on a sweep's last tile, from lane 80 on). -/
theorem xfill_apply (c : Dev nD) (t : Fin cfg0.N) (bt : Fin 2) (vt : ℕ) (hb : t.val / 40 = bt.val) (hv : t.val % 40 = vt)
    (p : Fin 8) (q : Fin 100) (l : Fin 1280) :
    xfill m c t (ix3 p q l)
      = if h : vt * 1280 + l.val < 50000 then xarr m c (ix3 (urow bt p) q ⟨vt * 1280 + l.val, h⟩) else 0 := by
  subst hv
  obtain ⟨i0, i1, i2, s0, s1, s2, _⟩ := acc_win0_facts t
  have hl := l.isLt
  have ht : t.val % 40 < 40 := Nat.mod_lt _ (by decide)
  have hmoved : win0_0.moved (grid0.coords t) (ix3 p q l) = true ↔ t.val % 40 * 1280 + l.val < 50000 := by
    rw [win0_0.moved_iff]
    constructor
    · intro h
      have h2 : l.val < win0_0.xsize (grid0.coords t) 2 := h 2
      rw [s2] at h2
      split at h2 <;> omega
    · intro h a
      match a with
      | ⟨0, _⟩ => show p.val < win0_0.xsize (grid0.coords t) 0; rw [s0]; exact p.isLt
      | ⟨1, _⟩ => show q.val < win0_0.xsize (grid0.coords t) 1; rw [s1]; exact q.isLt
      | ⟨2, _⟩ => show l.val < win0_0.xsize (grid0.coords t) 2; rw [s2]; split <;> omega
  by_cases h : t.val % 40 * 1280 + l.val < 50000
  · rw [dif_pos h]
    have hm := hmoved.mpr h
    refine (dif_pos hm : xfill m c t (ix3 p q l) = iblk m c 0 t (fun a => ⟨((ix3 p q l : S8x100x1280.Idx) a).val,
      (win0_0.moved_iff (grid0.coords t) (ix3 p q l)).mp hm a⟩)).trans ?_
    refine iblk0_apply m c t _ _ fun a => ?_
    match a with
    | ⟨0, _⟩ => show 8 * bt.val + p.val = win0_0.index t 0 * 8 + p.val; rw [i0, hb]; omega
    | ⟨1, _⟩ => show q.val = win0_0.index t 1 * 100 + q.val; rw [i1]; omega
    | ⟨2, _⟩ => show t.val % 40 * 1280 + l.val = win0_0.index t 2 * 1280 + l.val; rw [i2]
  · rw [dif_neg h]
    have hm : ¬win0_0.moved (grid0.coords t) (ix3 p q l) = true := fun hm => h (hmoved.mp hm)
    refine (dif_neg hm : xfill m c t (ix3 p q l) = (Scalar.ofBits .f32 0x00000000#32 : Ideal .f32)).trans ?_
    exact Ideal.ofBits_zero_f32

/-! ## A sweep -/

/-- The tile's selected lanes, summed: the target item w lies in tile vt exactly when 1280·vt ≤ w < 1280·(vt + 1), on
    the one lane l = w − 1280·vt, and then (w being an item of the array) the lane holds w's score; no lane matches
    otherwise. -/
theorem acc_tile_sum (a0 : FVec Ideal S16x100x50000 .f32) (b : Fin 16) (q : Fin 100) (w : BitVec 32) (hw : w.toNat < 50000)
    (vt : ℕ) (hvt : vt < 40) :
    (∑ l : Fin 1280, if w = BitVec.ofNat 32 (vt * 1280 + l.val) then
        (if h : vt * 1280 + l.val < 50000 then a0 (ix3 b q ⟨vt * 1280 + l.val, h⟩) else 0) else 0)
      = if 1280 * vt ≤ w.toNat ∧ w.toNat < 1280 * (vt + 1) then Cert.Spec.score a0 b q w else 0 := by
  have hsc : Cert.Spec.score a0 b q w = a0 (ix3 b q ⟨w.toNat, hw⟩) := by
    unfold Cert.Spec.score; rw [dif_pos hw]
  have hiff : ∀ l : Fin 1280, w = BitVec.ofNat 32 (vt * 1280 + l.val) ↔ w.toNat = vt * 1280 + l.val := fun l =>
    acc_word_eq_ofNat_iff w _ (by have := l.isLt; omega)
  by_cases hr : 1280 * vt ≤ w.toNat ∧ w.toNat < 1280 * (vt + 1)
  · rw [if_pos hr]
    have hl0 : w.toNat - 1280 * vt < 1280 := by omega
    have e : vt * 1280 + (w.toNat - 1280 * vt) = w.toNat := by omega
    rw [Finset.sum_eq_single (⟨w.toNat - 1280 * vt, hl0⟩ : Fin 1280)]
    · rw [if_pos ((hiff _).mpr e.symm), dif_pos (show vt * 1280 + (w.toNat - 1280 * vt) < 50000 by omega), hsc]
      exact congrArg a0 (congrArg (fun n : Fin 50000 => ix3 b q n) (Fin.ext e))
    · intro l _ hne
      rw [if_neg]
      intro h
      apply hne
      apply Fin.ext
      have := (hiff l).mp h
      show l.val = w.toNat - 1280 * vt
      omega
    · intro h; exact absurd (Finset.mem_univ _) h
  · rw [if_neg hr]
    refine Finset.sum_eq_zero fun l _ => ?_
    rw [if_neg]
    intro h
    have h1 := (hiff l).mp h
    have h2 := l.isLt
    exact hr ⟨by omega, by omega⟩

/-- Adding tile vt's contribution to what the tiles before it gave: "w below 1280·vt" and "w in tile vt" together are
    "w below 1280·(vt + 1)". -/
theorem acc_sweep_add (s : EReal) (n vt : ℕ) :
    (if n < 1280 * vt then s else 0) + (if 1280 * vt ≤ n ∧ n < 1280 * (vt + 1) then s else 0)
      = if n < 1280 * (vt + 1) then s else 0 := by
  by_cases h1 : n < 1280 * vt
  · rw [if_pos h1, if_neg (by omega), if_pos (by omega), add_zero]
  · by_cases h2 : n < 1280 * (vt + 1)
    · rw [if_neg h1, if_pos ⟨by omega, h2⟩, if_pos h2, zero_add]
    · rw [if_neg h1, if_neg (fun h => h2 h.2), if_neg h2, add_zero]

/-- The sums a sweep starts from are zero everywhere. -/
theorem acc0_apply (y : S8x100x5.Idx) : (acc0 (F := Ideal)) y = 0 := by
  unfold acc0 k0_pay5
  refine (congrFun (shapeCast_self _ _) y).trans ?_
  exact Ideal.ofBits_zero_f32

theorem accAt_congr (c : Dev nD) {n n' : ℕ} (e : n = n') (h : n < cfg0.N) (h' : n' < cfg0.N) :
    accAt m c n h = accAt m c n' h' := by subst e; rfl

/-- ONE TILE OF A SWEEP: at point t = 40·bt + vt the step adds, at (user p, step q, target j), the target item's score
    if the item lies in tile vt, and zero otherwise. -/
theorem step_pt (hH : IdxOk m) (c : Dev nD) (t : Fin cfg0.N) (bt : Fin 2) (vt : ℕ) (hb : t.val / 40 = bt.val)
    (hv : t.val % 40 = vt) (acc : Vec Ideal S8x100x5 .f32) (p : Fin 8) (q : Fin 100) (j : Fin 5) :
    step (grid0.coords t) (xfill m c t) (iblk m c 1 t) acc (ix3 p q j)
      = acc (ix3 p q j) + if 1280 * vt ≤ (tarr m c (ix3 (urow bt p) q j)).toNat
            ∧ (tarr m c (ix3 (urow bt p) q j)).toNat < 1280 * (vt + 1)
          then Cert.Spec.score (xarr m c) (urow bt p) q (tarr m c (ix3 (urow bt p) q j)) else 0 := by
  have hvt : vt < 40 := by rw [← hv]; exact Nat.mod_lt _ (by decide)
  have hc1 : (grid0.coords t 1).val = vt := (acc_win0_facts t).2.2.2.2.2.2.trans hv
  rw [step_apply]
  refine congrArg (fun z => acc (ix3 p q j) + z) ?_
  refine (Finset.sum_congr rfl fun l _ => ?_).trans
    (acc_tile_sum (xarr m c) (urow bt p) q (tarr m c (ix3 (urow bt p) q j)) (hH c _) vt hvt)
  rw [iblk1_apply m c t bt hb p q j, hc1, xfill_apply m c t bt vt hb hv p q l]

/-- THE SWEEP'S INVARIANT: after tile vt of user tile bt's sweep, the sum at (user p, step q, target j) is the target
    item's score if the item lies in one of the tiles 0 … vt, and still zero otherwise. -/
theorem accAt_sweep (hH : IdxOk m) (c : Dev nD) (bt : Fin 2) (p : Fin 8) (q : Fin 100) (j : Fin 5) :
    ∀ (vt : ℕ) (hvt : vt < 40) (hn : 40 * bt.val + vt < cfg0.N),
      accAt m c (40 * bt.val + vt) hn (ix3 p q j)
        = if (tarr m c (ix3 (urow bt p) q j)).toNat < 1280 * (vt + 1)
          then Cert.Spec.score (xarr m c) (urow bt p) q (tarr m c (ix3 (urow bt p) q j)) else 0
  | 0, hvt, hn => by
    have h0 : (⟨40 * bt.val + 0, hn⟩ : Fin cfg0.N).val % 40 = 0 := by show (40 * bt.val + 0) % 40 = 0; omega
    have hb : (⟨40 * bt.val + 0, hn⟩ : Fin cfg0.N).val / 40 = bt.val := by show (40 * bt.val + 0) / 40 = bt.val; omega
    refine (congrFun (accAt_first m c ⟨40 * bt.val + 0, hn⟩ h0) (ix3 p q j)).trans ?_
    rw [step_pt m hH c _ bt 0 hb h0, acc0_apply, zero_add]
    refine if_congr ?_ rfl rfl
    constructor
    · intro h; exact h.2
    · intro h; exact ⟨by omega, h⟩
  | vt + 1, hvt, hn => by
    have h0 : ¬(⟨40 * bt.val + (vt + 1), hn⟩ : Fin cfg0.N).val % 40 = 0 := by
      show ¬(40 * bt.val + (vt + 1)) % 40 = 0; omega
    have hv : (⟨40 * bt.val + (vt + 1), hn⟩ : Fin cfg0.N).val % 40 = vt + 1 := by
      show (40 * bt.val + (vt + 1)) % 40 = vt + 1; omega
    have hb : (⟨40 * bt.val + (vt + 1), hn⟩ : Fin cfg0.N).val / 40 = bt.val := by
      show (40 * bt.val + (vt + 1)) / 40 = bt.val; omega
    have hn' : 40 * bt.val + vt < cfg0.N := by omega
    refine (congrFun (accAt_next m c ⟨40 * bt.val + (vt + 1), hn⟩ h0) (ix3 p q j)).trans ?_
    rw [step_pt m hH c _ bt (vt + 1) hb hv,
      accAt_congr m c (show (⟨40 * bt.val + (vt + 1), hn⟩ : Fin cfg0.N).val - 1 = 40 * bt.val + vt by
        show 40 * bt.val + (vt + 1) - 1 = 40 * bt.val + vt; omega) _ hn',
      accAt_sweep hH c bt p q j vt (by omega) hn']
    exact acc_sweep_add _ _ (vt + 1)

/-- After a sweep's last tile the sums are the gathered scores: each target item lies in exactly one tile and lane. -/
theorem accAt_last (hH : IdxOk m) (c : Dev nD) (bt : Fin 2) (p : Fin 8) (q : Fin 100) (j : Fin 5) :
    accAt m c (lastPt bt).val (lastPt bt).isLt (ix3 p q j)
      = Cert.Spec.score (V m c main_arg0) (urow bt p) q ((V m c main_v1 : IVec S16x100x5 32) (ix3 (urow bt p) q j)) := by
  refine (accAt_sweep m hH c bt p q j 39 (by decide) (lastPt bt).isLt).trans ?_
  have hw : (tarr m c (ix3 (urow bt p) q j)).toNat < 50000 := hH c _
  exact if_pos (by omega)

end Cert.KernelIdeal.Hand

end
-- ==== Proof.KI.ValueEpi.lean ====
/-
  The epilogue as a function of the finished sums, read at an index of the 8 × 128 result block.
  Row p of the block: with pos = acc[p, q, 0] and neg_j = acc[p, q, 1 + j], the program forms d = pos − neg_j,
  then 0 − (max(0 − d, 0) + log1p(exp(0 − |0 − d|))), which is log σ(d); sums it over the four negatives;
  multiplies by 1 where the step number is below the row's length (as signed words) and by 0 elsewhere; sums over
  the 100 steps; negates; divides by the length read as a signed integer. Lane 0 of row p holds that quotient, the
  other 127 lanes hold zero. The payload is cut into three stages (the difference, the elementwise part, the row part),
  each read at an index by its own lemma; the layout steps between them (slices, the unit-axis reshapes, the spreads
  of a column over lanes) are read at indices given by their coordinates.
-/
import proofs.«401552_j2439541424724_1_alg».proof.Proof.KI.Step
import proofs.«401552_j2439541424724_1_alg».proof.Proof.Spec
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen
open Idealize.ShloMosaic.ValueIdx

variable {F : FTy → Type} [FloatOps F]

local notation "𝕄" => MT nD τ sig Unit (Elt F) ℕ (UR sig nD τ) ℕ

/-! ## The epilogue's payload in three stages -/

/-- pos − neg: the sums' column 0 (reshaped and spread over the four negatives) minus columns 1 to 4. -/
def diffVec (acc : Vec F S8x100x5 .f32) : FVec F S8x100x4 .f32 :=
  subf (broadcastTo S8x100x4 (shapeCast S8x100x1 (shapeCast S8x100
      (extractStridedSlice S8x100x1 ![0, 0, 0] acc slices_S8x100x5_o0_0_0_S8x100x1) shapeCasts_S8x100x1_S8x100)
      shapeCasts_S8x100_S8x100x1) broadcasts_S8x100x1_S8x100x4)
    (extractStridedSlice S8x100x4 ![0, 0, 1] acc slices_S8x100x5_o0_0_1_S8x100x4)

/-- The elementwise part: d ↦ 0 − (max(0 − d, 0) + log1p(exp(0 − |0 − d|))), written with the program's own
    operations (its guard "x ≠ x" included). -/
def lossVec (v65 : FVec F S8x100x4 .f32) : FVec F S8x100x4 .f32 :=
  have cst_25 : F .f32 := Scalar.ofBits .f32 0x00000000#32
  have v66 : FVec F S8x100x4 .f32 := broadcast S8x100x4 cst_25
  have v67 : FVec F S8x100x4 .f32 := subf v66 v65
  have cst_26 : F .f32 := Scalar.ofBits .f32 0x00000000#32
  have v68 : FVec F S8x100x4 .f32 := broadcast S8x100x4 cst_26
  have v69 : FVec F S8x100x4 .f32 := maximumf v67 v68
  have v70 : FVec F S8x100x4 .f32 := broadcast S8x100x4 cst_26
  have v71 : FVec F S8x100x4 .f32 := subf v67 v70
  have v72 : IVec S8x100x4 1 := cmpf .one v71 v71
  have v73 : FVec F S8x100x4 .f32 := broadcast S8x100x4 cst_26
  have v74 : FVec F S8x100x4 .f32 := addf v67 v73
  have v75 : FVec F S8x100x4 .f32 := absf v71
  have cst_27 : F .f32 := Scalar.ofBits .f32 0x00000000#32
  have v76 : FVec F S8x100x4 .f32 := broadcast S8x100x4 cst_27
  have v77 : FVec F S8x100x4 .f32 := subf v76 v75
  have v78 : FVec F S8x100x4 .f32 := exp v77
  have v79 : FVec F S8x100x4 .f32 := log1p v78
  have v80 : FVec F S8x100x4 .f32 := addf v69 v79
  have v81 : FVec F S8x100x4 .f32 := select v72 v74 v80
  have cst_28 : F .f32 := Scalar.ofBits .f32 0x00000000#32
  have v82 : FVec F S8x100x4 .f32 := broadcast S8x100x4 cst_28
  subf v82 v81

/-- The row part: the sum over the negatives, the validity mask, the sum over the steps, the sign and the
    division by the row's length. -/
def tailVec (v83 : FVec F S8x100x4 .f32) (v86 : Vec F S8x1 .i32) : FVec F S8x1 .f32 :=
  have v84 : FVec F S8x100 .f32 := multiReduction .add [2] S8x100 v83 0x00000000#32 reduces_S8x100x4_S8x100 (.inl rfl) rfl
  have v85 : IVec S1x100 32 := iota .tc S1x100 32 [1] iota_S1x100_d1_w32
  have v87 : IVec S8x1 32 := shapeCast S8x1 v86 shapeCasts_S8x1_S8x1
  have v88 : IVec S8x100 32 := broadcastTo S8x100 v85 broadcasts_S1x100_S8x100
  have v89 : IVec S8x100 32 := broadcastTo S8x100 v87 broadcasts_S8x1_S8x100
  have v90 : IVec S8x100 1 := cmpi .slt v88 v89
  have v91 : IVec S8x100 32 := extui 32 v90 natLt_1_32
  have v92 : FVec F S8x100 .f32 := sitofp .f32 v91
  have v93 : FVec F S8x100 .f32 := mulf v84 v92
  have v94 : FVec F S8 .f32 := multiReduction .add [1] S8 v93 0x00000000#32 reduces_S8x100_S8 (.inl rfl) rfl
  have cst_33 : F .f32 := Scalar.ofBits .f32 0x00000000#32
  have v95 : FVec F S8 .f32 := broadcast S8 cst_33
  have v96 : FVec F S8 .f32 := subf v95 v94
  have v97 : IVec S8 32 := shapeCast S8 v87 shapeCasts_S8x1_S8
  have v98 : FVec F S8 .f32 := sitofp .f32 v97
  have v99 : FVec F S8 .f32 := divf v96 v98
  have v103 : FVec F S8x1 .f32 := shapeCast S8x1 v99 shapeCasts_S8_S8x1
  shapeCast S8x1 v103 shapeCasts_S8x1_S8x1

/-- The payload is the three stages composed. -/
theorem k0_pay4_eq (acc : Vec F S8x100x5 .f32) (xl : Vec F S8x1 .i32) :
    k0_pay4 acc xl = tailVec (lossVec (diffVec acc)) xl := rfl

/-! ## Layout operations of these shapes, read at an index -/

section Layout
variable {α : Type}

/-- Column 0 of the 8 × 100 × 5 sums, as an 8 × 100 × 1 slice. -/
theorem slice_col0_apply (v : S8x100x5.Idx → α) (h : S8x100x5.Slices ![0, 0, 0] S8x100x1)
    (p : Fin 8) (q : Fin 100) (u : Fin 1) :
    extractStridedSlice S8x100x1 ![0, 0, 0] v h (ix3 p q u) = v (ix3 p q (0 : Fin 5)) :=
  extractStridedSlice_apply _ _ _ _ _ (fun ax => by
    match ax with
    | ⟨0, _⟩ => exact (Nat.zero_add _).symm
    | ⟨1, _⟩ => exact (Nat.zero_add _).symm
    | ⟨2, _⟩ => show (0 : ℕ) = 0 + u.val; omega)

/-- Columns 1 to 4: negative j is column j + 1. -/
theorem slice_cols_apply (v : S8x100x5.Idx → α) (h : S8x100x5.Slices ![0, 0, 1] S8x100x4)
    (p : Fin 8) (q : Fin 100) (j : Fin 4) :
    extractStridedSlice S8x100x4 ![0, 0, 1] v h (ix3 p q j) = v (ix3 p q j.succ) :=
  extractStridedSlice_apply _ _ _ _ _ (fun ax => by
    match ax with
    | ⟨0, _⟩ => exact (Nat.zero_add _).symm
    | ⟨1, _⟩ => exact (Nat.zero_add _).symm
    | ⟨2, _⟩ => show j.val + 1 = 1 + j.val; omega)

/-- A trailing unit axis dropped: [a, b, 1] → [a, b]. -/
theorem shapeCast_ab1_ab_apply {a b : ℕ} (v : (⟨3, ![a, b, 1]⟩ : Shape).Idx → α)
    (h : (⟨3, ![a, b, 1]⟩ : Shape).ShapeCasts ⟨2, ![a, b]⟩) (p : Fin a) (q : Fin b) :
    shapeCast ⟨2, ![a, b]⟩ v h (ix2 p q) = v (ix3 p q (0 : Fin 1)) :=
  shapeCast_apply v h _ _ (by
    rw [Shape.rowMajor_val_three, Shape.rowMajor_val_two]
    show (p.val * b + q.val) * 1 + 0 = p.val * b + q.val
    omega)

/-- A trailing unit axis added: [a, b] → [a, b, 1]. -/
theorem shapeCast_ab_ab1_apply {a b : ℕ} (v : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ v h (ix3 p q u) = v (ix2 p q) :=
  shapeCast_apply v h _ _ (by
    have hu : u.val = 0 := by omega
    rw [Shape.rowMajor_val_three, Shape.rowMajor_val_two]
    show p.val * b + q.val = (p.val * b + q.val) * 1 + u.val
    omega)

/-- A column vector read as a vector: [a, 1] → [a]. -/
theorem shapeCast_a1_a_apply {a : ℕ} (v : (⟨2, ![a, 1]⟩ : Shape).Idx → α)
    (h : (⟨2, ![a, 1]⟩ : Shape).ShapeCasts ⟨1, ![a]⟩) (p : Fin a) :
    shapeCast ⟨1, ![a]⟩ v h (ix1 p) = v (ix2 p (0 : Fin 1)) :=
  shapeCast_apply v h _ _ (by
    rw [Shape.rowMajor_val_two, Shape.rowMajor_val_one]
    show p.val * 1 + 0 = p.val
    omega)

/-- A vector read as a column vector: [a] → [a, 1]. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    omega)

/-- The one positive spread over the four negatives: [8, 100, 1] → [8, 100, 4]. -/
theorem broadcast_pos_apply (v : S8x100x1.Idx → α) (h : S8x100x1.Broadcasts S8x100x4)
    (p : Fin 8) (q : Fin 100) (j : Fin 4) :
    broadcastTo S8x100x4 v h (ix3 p q j) = v (ix3 p q (0 : Fin 1)) :=
  broadcastTo_apply v h _ _ (fun ax => by
    match ax with
    | ⟨0, _⟩ => rfl
    | ⟨1, _⟩ => rfl
    | ⟨2, _⟩ => rfl)

/-- A column spread over the lanes: [8, 1] → [8, n]. -/
theorem broadcast_col_apply {n : ℕ} (v : S8x1.Idx → α) (h : S8x1.Broadcasts ⟨2, ![8, n]⟩)
    (p : Fin 8) (l : Fin n) :
    broadcastTo ⟨2, ![8, n]⟩ v h (ix2 p l) = v (ix2 p (0 : Fin 1)) :=
  broadcastTo_apply v h _ _ (fun ax => by
    match ax with
    | ⟨0, _⟩ => rfl
    | ⟨1, _⟩ => rfl)

/-- The index over (p, q) with negative j inserted on the last axis. -/
theorem lift_neg (h : S8x100x4.Reduces [2] S8x100) (p : Fin 8) (q : Fin 100) (j : Fin 4) :
    h.lift (ix2 p q) j = ix3 p q j := by
  funext ax; refine Fin.ext ?_
  match ax with
  | ⟨0, _⟩ => rfl
  | ⟨1, _⟩ => rfl
  | ⟨2, _⟩ => rfl

/-- The index over p with step q inserted on the last axis. -/
theorem lift_step (h : S8x100.Reduces [1] S8) (p : Fin 8) (q : Fin 100) :
    h.lift (ix1 p) q = ix2 p q := by
  funext ax; refine Fin.ext ?_
  match ax with
  | ⟨0, _⟩ => rfl
  | ⟨1, _⟩ => rfl

end Layout

/-! ## The three stages at an index, over the extended reals -/

/-- pos − neg at (p, q, j): column 0 minus column j + 1. -/
theorem diffVec_apply (acc : Vec Ideal S8x100x5 .f32) (p : Fin 8) (q : Fin 100) (j : Fin 4) :
    diffVec acc (ix3 p q j) = acc (ix3 p q 0) - acc (ix3 p q j.succ) := by
  unfold diffVec
  rw [subf_apply]
  refine congrArg₂ (· - ·) ?_ (slice_cols_apply _ _ p q j)
  refine (broadcast_pos_apply _ _ p q j).trans ?_
  refine (shapeCast_ab_ab1_apply _ _ p q 0).trans ?_
  refine (shapeCast_ab1_ab_apply _ _ p q).trans ?_
  exact slice_col0_apply _ _ p q 0

/-- The zero word is the extended real 0. -/
theorem zero_word : (Scalar.ofBits .f32 0x00000000#32 : Ideal .f32) = (0 : EReal) := Ideal.ofBits_zero_f32

/-- "Ordered and different" is false of an extended real and itself. -/
theorem cmp_one_self (x : EReal) : Ideal.cmp .one x x = 0#1 := by
  unfold Ideal.cmp
  simp

/-- The elementwise part on one extended real d, z standing for the zero word: with x = z − d, the program's
    z − (if x − z ≠ x − z then x + z else max x z + log1p(exp(z − |x − z|))) is log σ(d). -/
theorem lsig_scalar (z d : EReal) (hz : z = 0) :
    z - Scalar.select (Ideal.cmp .one ((z - d) - z) ((z - d) - z)) ((z - d) + z)
        (max (z - d) z + Ideal.log1p (Ideal.exp (z - max ((z - d) - z) (-((z - d) - z))))) = Cert.Spec.lsig d := by
  subst hz
  rw [cmp_one_self, select_zero]
  simp only [zero_sub, sub_zero, neg_neg]
  unfold Cert.Spec.lsig
  rw [max_comm (-d) d]

/-- The elementwise stage at any index is log σ of the operand there. -/
theorem lossVec_apply (d : FVec Ideal S8x100x4 .f32) (i : S8x100x4.Idx) :
    lossVec d i = Cert.Spec.lsig (d i) :=
  lsig_scalar (Scalar.ofBits .f32 0x00000000#32 : Ideal .f32) (d i) zero_word

/-- The validity bit as a number: the one-bit signed comparison, widened and read as a signed integer, is 1 or 0. -/
theorem mask_scalar (x y : BitVec 32) :
    (FloatOps.sitofp (F := Ideal) .f32 ((IntOp.cmpi .slt x y).setWidth 32) : EReal) = if x.slt y then 1 else 0 := by
  show ((((IntOp.cmpi .slt x y).setWidth 32).toInt : ℝ) : EReal) = _
  unfold IntOp.cmpi
  cases x.slt y
  · have h : ((BitVec.ofBool false).setWidth 32).toInt = 0 := by decide
    simp [h]
  · have h : ((BitVec.ofBool true).setWidth 32).toInt = 1 := by decide
    simp [h]

/-- The validity mask at (p, q): 1 where step q is below row p's length as signed words, else 0. -/
theorem mask_apply (xl : IVec S8x1 32) (p : Fin 8) (q : Fin 100) :
    (sitofp .f32 (extui 32 (cmpi .slt
        (broadcastTo S8x100 (iota .tc S1x100 32 [1] iota_S1x100_d1_w32) broadcasts_S1x100_S8x100)
        (broadcastTo S8x100 xl broadcasts_S8x1_S8x100)) natLt_1_32) : FVec Ideal S8x100 .f32) (ix2 p q)
      = if (BitVec.ofNat 32 q.val).slt (xl (ix2 p 0)) then 1 else 0 := by
  rw [sitofp_apply, extui_apply]
  show FloatOps.sitofp (F := Ideal) .f32 ((IntOp.cmpi .slt
      (broadcastTo S8x100 (iota .tc S1x100 32 [1] iota_S1x100_d1_w32) broadcasts_S1x100_S8x100 (ix2 p q))
      (broadcastTo S8x100 xl broadcasts_S8x1_S8x100 (ix2 p q))).setWidth 32) = _
  rw [broadcastTo_1b_ab_apply, broadcast_col_apply, iota_single_apply]
  exact mask_scalar _ _

/-- The row stage at (p, ·): minus the masked sum over the steps of the sums over the negatives, over the length. -/
theorem tailVec_apply (v : FVec Ideal S8x100x4 .f32) (xl : Vec Ideal S8x1 .i32) (p : Fin 8) (u : Fin 1) :
    tailVec v xl (ix2 p u)
      = Ideal.div (-(∑ q : Fin 100, (∑ j : Fin 4, v (ix3 p q j))
            * (if (BitVec.ofNat 32 q.val).slt (xl (ix2 p 0) : BitVec 32) then 1 else 0)))
          ((((xl (ix2 p 0) : BitVec 32).toInt : ℝ)) : EReal) := by
  unfold tailVec
  simp only [shapeCast_self]
  refine (shapeCast_a_a1_apply _ _ p u).trans ?_
  rw [divf_apply, subf_apply, broadcast_apply]
  refine congrArg₂ Ideal.div ?_ ?_
  · rw [zero_word, zero_sub]
    refine congrArg Neg.neg ?_
    refine (Ideal.multiReduction_add_single _ _ _ _ _ (ix1 p)).trans ?_
    refine Finset.sum_congr rfl (fun q _ => ?_)
    refine (congrArg _ (lift_step _ p q)).trans ?_
    rw [mulf_apply]
    refine congrArg₂ (· * ·) ?_ (mask_apply xl p q)
    refine (Ideal.multiReduction_add_single _ _ _ _ _ (ix2 p q)).trans ?_
    exact Finset.sum_congr rfl (fun j _ => congrArg v (lift_neg _ p q j))
  · show ((((shapeCast S8 xl shapeCasts_S8x1_S8 (ix1 p) : BitVec 32).toInt : ℝ)) : EReal) = _
    rw [shapeCast_a1_a_apply]

/-- The lane test: the lane number's word equals the zero word exactly at lane 0. -/
theorem lane0 (l : Fin 128) : IntOp.cmpi .eq (BitVec.ofNat 32 l.val) 0#32 = if l.val = 0 then 1#1 else 0#1 := by
  revert l; decide

/-- The result block at an index: lane 0 of row p holds the user's loss computed from the row's sums, the other lanes zero. -/
theorem epi_apply (acc : Vec Ideal S8x100x5 .f32) (xl : Vec Ideal S8x1 .i32) (p : Fin 8) (l : Fin 128) :
    epi acc xl (ix2 p l) = if l.val = 0 then
        Ideal.div (-(∑ q : Fin 100, (∑ j : Fin 4, Cert.Spec.lsig (acc (ix3 p q 0) - acc (ix3 p q j.succ)))
            * (if (BitVec.ofNat 32 q.val).slt (xl (ix2 p 0) : BitVec 32) then 1 else 0)))
          ((((xl (ix2 p 0) : BitVec 32).toInt : ℝ)) : EReal)
      else 0 := by
  unfold epi k0_pay2 k0_pay3
  rw [k0_pay4_eq]
  show Scalar.select (IntOp.cmpi .eq (iota .tc S8x128 32 [1] iota_S8x128_d1_w32 (ix2 p l)) 0#32)
      (broadcastTo S8x128 (tailVec (lossVec (diffVec acc)) xl) broadcasts_S8x1_S8x128 (ix2 p l))
      (Scalar.ofBits .f32 0x00000000#32 : Ideal .f32) = _
  rw [iota_single_apply, broadcast_col_apply, tailVec_apply]
  simp only [lossVec_apply, diffVec_apply]
  rw [show ((ix2 p l : S8x128.Idx) (1 : Fin 2)).val = l.val from rfl, lane0]
  by_cases hl : l.val = 0
  · rw [if_pos hl, if_pos hl, select_one]
  · rw [if_neg hl, if_neg hl, select_zero, zero_word]

end Cert.KernelIdeal.Hand

end
-- ==== Proof.KI.ValueOut.lean ====
/-
  The program's result as the specification's function of the argument arrays.
  The region leaves a 16 × 128 array: rows 8·bt … 8·bt + 7 are written once, at the last point of user tile bt's sweep
  over the forty item tiles, and hold in lane 0 the row's loss computed from the finished sums and in every other lane
  zero. The seven lines after the region keep lane 0, sum the sixteen rows from zero and divide by the word of 16.
  Row 8·bt + p's finished sums are the gathered scores of that user (each target item lies in exactly one tile and lane),
  the targets are the label followed by the four negatives, and the lengths the region finds are the argument's; so
  lane 0 of row b is the specification's loss of user b, and the result the mean of the sixteen.
-/
import proofs.«401552_j2439541424724_1_alg».proof.Proof.KI.ValueAcc
import proofs.«401552_j2439541424724_1_alg».proof.Proof.KI.ValueEpi
import proofs.«401552_j2439541424724_1_alg».proof.Proof.KI.IdxOk
import Idealize.ShloMosaic.Lib.Pipeline.Value
import Idealize.ShloMosaic.Lib.StableHlo.Run
import Idealize.ShloMosaic.Lib.ValueIdxRank1

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt Ideal) ℓ) (ρ : Dev nD → PrngReg)

namespace Out

/-! ## The lines after the region, as one function of the 16 × 128 array -/

/-- Lane 0 of each row, the sixteen rows summed from zero, the sum over the word of 16, as a one-element array. -/
def tail (x : Vec Ideal S16x128 .f32) : Vec Ideal S1 .f32 :=
  shapeCast S1
    (Host.divf (F := Ideal)
      (Host.reduceAdd (F := Ideal)
        (shapeCast S16 (extractStridedSlice S16x1 ![0, 0] x (by decide : S16x128.Slices ![0, 0] S16x1)) (by decide : S16x1.ShapeCasts S16))
        (constant (F := Ideal) S_ .f32 0x00000000#32) (by decide : S16.ReducesTo [0] S_) (by decide : 0 < S_.numel))
      (constant (F := Ideal) S_ .f32 0x41800000#32))
    (by decide : S_.ShapeCasts S1)

/-- Lane 0 of row b, through the slice and the reshape to a vector of sixteen. -/
theorem lane0_apply (x : Vec Ideal S16x128 .f32) (hs : S16x128.Slices ![0, 0] S16x1) (hc : S16x1.ShapeCasts S16) (b : Fin 16) :
    shapeCast S16 (extractStridedSlice S16x1 ![0, 0] x hs) hc (ix1 b) = x (ix2 b 0) := by
  refine (shapeCast_apply _ hc (ix1 b) (ix2 b 0) ?_).trans ?_
  · rw [Shape.rowMajor_val_two, Shape.rowMajor_val_one]
    show b.val * 1 + 0 = b.val
    omega
  · refine extractStridedSlice_apply ![0, 0] x hs (ix2 b 0) (ix2 b 0) fun a => ?_
    match a with
    | ⟨0, _⟩ => show b.val = 0 + b.val; omega
    | ⟨1, _⟩ => show 0 = 0 + 0; rfl

/-- The one element of the result: the sum over the sixteen rows of lane 0, over the word of 16. -/
theorem tail_apply (x : Vec Ideal S16x128 .f32) (k : S1.Idx) :
    tail x k = Ideal.div (∑ b : Fin 16, x (ix2 b 0)) (Ideal.ofBits .f32 0x41800000#32) := by
  unfold tail
  refine (shapeCast_apply _ _ k ix0 ?_).trans ?_
  · have h0 : (S_.rowMajor ix0).val < 1 := Nat.lt_of_lt_of_eq (S_.rowMajor ix0).isLt (by decide : S_.numel = 1)
    have h1 : (S1.rowMajor k).val < 1 := Nat.lt_of_lt_of_eq (S1.rowMajor k).isLt (by decide : S1.numel = 1)
    exact (Nat.lt_one_iff.mp h0).trans (Nat.lt_one_iff.mp h1).symm
  · show Ideal.div (Ideal.hostReduceAdd _ _ (Ideal.ofBits .f32 0x00000000#32) ix0) (Ideal.ofBits .f32 0x41800000#32) = _
    rw [Ideal.hostReduceAdd_total _ (fun b => b.elim0), Ideal.ofBits_zero_f32, zero_add,
      ← Equiv.sum_comp (idxEquiv1 (n := 16)).symm]
    refine congrArg (fun s => Ideal.div s _) (Finset.sum_congr rfl fun b _ => ?_)
    exact lane0_apply x _ _ b

/-! ## The array the region leaves -/

/-- The lengths' block at a point, and the lengths as the region finds them, at their literal types. -/
abbrev lenBlk (c : Dev nD) (t : Fin cfg0.N) : Vec Ideal S8x1 .i32 := iblk m c 2 t
abbrev lenArr (c : Dev nD) : IVec S16x1 32 := V m c main_v2

/-- Row p of user tile bt at lane l: what the last point of the tile's sweep stores. -/
def rowVal (c : Dev nD) (bt : Fin 2) (p : Fin 8) (l : Fin 128) : EReal :=
  epi (accAt m c (lastPt bt).val (lastPt bt).isLt) (lenBlk m c (lastPt bt)) (ix2 p l)

theorem rowVal_congr (c : Dev nD) {bt bt' : Fin 2} {p p' : Fin 8} {l l' : Fin 128} (hb : bt = bt') (hp : p = p') (hl : l = l') :
    rowVal m c bt p l = rowVal m c bt' p' l' := by subst hb hp hl; rfl

/-- The 16 × 128 array in closed form: row r belongs to user tile r / 8, as its row r % 8. -/
def resArr (c : Dev nD) : Vec Ideal S16x128 .f32 := fun i =>
  rowVal m c ⟨(i 0).val / 8, by have := idx2_lt0 i; omega⟩ ⟨(i 0).val % 8, Nat.mod_lt _ (by decide)⟩ ⟨(i 1).val, idx2_lt1 i⟩

theorem resArr_apply (c : Dev nD) (i : S16x128.Idx) (bt : Fin 2) (p : Fin 8) (l : Fin 128)
    (h0 : (i 0).val = 8 * bt.val + p.val) (h1 : (i 1).val = l.val) : resArr m c i = rowVal m c bt p l := by
  have hp := p.isLt
  unfold resArr
  exact rowVal_congr m c (Fin.ext (by show (i 0).val / 8 = bt.val; omega)) (Fin.ext (by show (i 0).val % 8 = p.val; omega)) (Fin.ext h1)

/-- The result window's and the length window's block indices over the grid: the user tile, and zero. -/
theorem idx_facts : ∀ t : Fin cfg0.N, win0_3.index t (0 : Fin 2) = t.val / 40 ∧ win0_3.index t (1 : Fin 2) = 0
    ∧ win0_2.index t (0 : Fin 2) = t.val / 40 ∧ win0_2.index t (1 : Fin 2) = 0 :=
  (by decide +kernel : ∀ t : Fin grid0.N, _)

/-- WHAT A WRITE-BACK WRITES is its block of the closed form: only a sweep's last point writes back, and its block is
    the eight rows of its user tile. -/
theorem flushed3_eq (c : Dev nD) (t : Fin cfg0.N) (hf : (cfg0.win 3).flush t = true) :
    (dats m 0 c).flushed 3 t = ((cfg0.win 3).blk t).view.read (Elt Ideal) (resArr m c) := by
  have h39 : t.val % 40 = 39 := (flush0_3 t).mp hf
  have hN : t.val < 80 := lt_of_lt_of_eq t.isLt (show cfg0.N = 80 from N_0)
  obtain ⟨bt, rfl⟩ : ∃ bt : Fin 2, t = lastPt bt :=
    ⟨⟨t.val / 40, by omega⟩, Fin.ext (by show t.val = 40 * (t.val / 40) + 39; omega)⟩
  show (cfg0.win 3).cut (grid0.coords (lastPt bt)) ((dats m 0 c).after 3 (lastPt bt)) = _
  rw [after3]
  funext j
  rw [View.read_apply]
  have hj0 : (j 0).val < 8 := (j 0).isLt
  have hj1 : (j 1).val < 128 := (j 1).isLt
  obtain ⟨e0, e1, -, -⟩ := idx_facts (lastPt bt)
  have hbt := bt.isLt
  refine Eq.trans (b := rowVal m c bt ⟨(j 0).val, hj0⟩ ⟨(j 1).val, hj1⟩) ?_
    (resArr_apply m c _ bt ⟨(j 0).val, hj0⟩ ⟨(j 1).val, hj1⟩ ?_ ?_).symm
  · unfold rowVal
    refine congrArg (epi (accAt m c (lastPt bt).val (lastPt bt).isLt) (lenBlk m c (lastPt bt))) (funext fun a => ?_)
    match a with
    | ⟨0, _⟩ => rfl
    | ⟨1, _⟩ => rfl
  · show win0_3.index (lastPt bt) (0 : Fin 2) * 8 + 1 * (j 0).val = 8 * bt.val + (j 0).val
    rw [e0]
    show (40 * bt.val + 39) / 40 * 8 + 1 * (j 0).val = 8 * bt.val + (j 0).val
    omega
  · show win0_3.index (lastPt bt) (1 : Fin 2) * 128 + 1 * (j 1).val = (j 1).val
    rw [e1]
    omega

/-- An index of the array is in point t's block iff each coordinate is in the block's range on its axis. -/
theorem mem_blk3 (t : Fin cfg0.N) (i : S16x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v3).slice (win0_3.rect t)).set ↔ _
  rw [View.set_slice_whole, Rect.mem_set_unit]
  exact Iff.rfl

/-- Every row lies in the block of its user tile's last point. -/
theorem cover3 (i : S16x128.Idx) :
    ∃ t : Fin cfg0.N, (cfg0.win 3).flush t = true ∧ i ∈ ((cfg0.win 3).blk t).view.set := by
  have h0 : (i 0).val < 16 := idx2_lt0 i
  have h1 : (i 1).val < 128 := idx2_lt1 i
  refine ⟨lastPt ⟨(i 0).val / 8, by omega⟩, (flush0_3 _).mpr (by show (40 * ((i 0).val / 8) + 39) % 40 = 39; omega), ?_⟩
  obtain ⟨e0, e1, -, -⟩ := idx_facts (lastPt ⟨(i 0).val / 8, by omega⟩)
  rw [mem_blk3]
  intro a
  match a with
  | ⟨0, _⟩ =>
    show win0_3.index _ (0 : Fin 2) * 8 ≤ (i 0).val ∧ (i 0).val < win0_3.index _ (0 : Fin 2) * 8 + 8
    rw [e0]
    show (40 * ((i 0).val / 8) + 39) / 40 * 8 ≤ (i 0).val ∧ (i 0).val < (40 * ((i 0).val / 8) + 39) / 40 * 8 + 8
    omega
  | ⟨1, _⟩ =>
    show win0_3.index _ (1 : Fin 2) * 128 ≤ (i 1).val ∧ (i 1).val < win0_3.index _ (1 : Fin 2) * 128 + 128
    rw [e1]
    omega

/-- THE ARRAY THE REGION LEAVES is the closed form. -/
theorem final3 (c : Dev nD) : (dats m 0 c).arrAt 3 cfg0.N = resArr m c :=
  (dats m 0 c).arrAt_eq_of_cover 3 (resArr m c) (flushed3_eq m c) cover3

/-! ## Lane 0 of a row is the user's loss -/

/-- The length the last point of tile bt's sweep holds for its row p is user 8·bt + p's, as the region finds the lengths. -/
theorem lenBlk_apply (c : Dev nD) (bt : Fin 2) (p : Fin 8) :
    lenBlk m c (lastPt bt) (ix2 p 0) = lenArr m c (ix2 (urow bt p) 0) := by
  obtain ⟨-, -, e0, e1⟩ := idx_facts (lastPt bt)
  have hbt := bt.isLt
  show ((cfg0.win 2).blk (lastPt bt)).view.read (Elt Ideal) (V m c main_v2) (ix2 p 0) = V m c main_v2 (ix2 (urow bt p) 0)
  rw [View.read_apply]
  refine congrArg (V m c main_v2) (funext fun a => Fin.ext ?_)
  match a with
  | ⟨0, _⟩ =>
    show win0_2.index (lastPt bt) (0 : Fin 2) * 8 + 1 * p.val = 8 * bt.val + p.val
    rw [e0]
    show (40 * bt.val + 39) / 40 * 8 + 1 * p.val = 8 * bt.val + p.val
    omega
  | ⟨1, _⟩ =>
    show win0_2.index (lastPt bt) (1 : Fin 2) * 1 + 1 * 0 = 0
    rw [e1]

/-- Lane 0 of row p of user tile bt is the specification's loss of user 8·bt + p. -/
theorem rowVal_zero (hH : IdxOk m) (c : Dev nD) (bt : Fin 2) (p : Fin 8) :
    rowVal m c bt p 0 = Cert.Spec.userLoss (m ((c.tc : Thread nD τ).loc main_arg0)) (m ((c.tc : Thread nD τ).loc main_arg1))
      (m ((c.tc : Thread nD τ).loc main_arg2)) (m ((c.tc : Thread nD τ).loc main_arg4)) (urow bt p) := by
  have hlen : lenBlk m c (lastPt bt) (ix2 p 0) = (m ((c.tc : Thread nD τ).loc main_arg2) : IVec S16 32) (ix1 (urow bt p)) :=
    (lenBlk_apply m c bt p).trans (V_len m c (urow bt p))
  unfold rowVal
  refine (epi_apply _ _ p 0).trans ?_
  rw [if_pos (show ((0 : Fin 128) : ℕ) = 0 from rfl), hlen]
  unfold Cert.Spec.userLoss
  refine congrArg (fun s => Ideal.div (-s) _) (Finset.sum_congr rfl fun q _ => ?_)
  unfold Cert.Spec.stepLoss Cert.Spec.valid
  refine congrArg (fun s => s * _) (Finset.sum_congr rfl fun j _ => ?_)
  rw [accAt_last m hH c bt p q 0, accAt_last m hH c bt p q j.succ, V_idx_label, V_idx_neg, V_main_arg0]

/-- Lane 0 of row b of the array the region leaves is user b's loss. -/
theorem row_loss (hH : IdxOk m) (c : Dev nD) (b : Fin 16) :
    resArr m c (ix2 b 0) = Cert.Spec.userLoss (m ((c.tc : Thread nD τ).loc main_arg0)) (m ((c.tc : Thread nD τ).loc main_arg1))
      (m ((c.tc : Thread nD τ).loc main_arg2)) (m ((c.tc : Thread nD τ).loc main_arg4)) b := by
  have hb := b.isLt
  rw [resArr_apply m c (ix2 b 0) ⟨b.val / 8, by omega⟩ ⟨b.val % 8, Nat.mod_lt _ (by decide)⟩ 0
    (by show b.val = 8 * (b.val / 8) + b.val % 8; omega) rfl, rowVal_zero m hH c]
  exact congrArg _ (Fin.ext (by show 8 * (b.val / 8) + b.val % 8 = b.val; omega))

/-! ## The result -/

/-- What the lines after the region leave in the result buffer is the specification's function of the arguments. -/
theorem tail_value (hH : IdxOk m) (c : Dev nD) :
    Pipeline.afterTail₀ cfgs (dats m) 0 (V0 m) [hostOps1] c main_v8
      = Cert.Spec.G (m ((c.tc : Thread nD τ).loc main_arg0)) (m ((c.tc : Thread nD τ).loc main_arg1))
          (m ((c.tc : Thread nD τ).loc main_arg2)) (m ((c.tc : Thread nD τ).loc main_arg4)) := by
  have e : Pipeline.afterTail₀ cfgs (dats m) 0 (V0 m) [hostOps1] c main_v8
      = tail (Pipeline.withArrays spec0 c (V0 m c) (fun w => (dats m 0 c).arrAt w cfg0.N) (Proc.devRef .tc main_v3)) := by
    unfold Pipeline.afterTail₀
    show StableHlo.after hostOps1 _ (Proc.devRef .tc main_v8) = _
    after_results
    rfl
  have e3 : Pipeline.withArrays spec0 c (V0 m c) (fun w => (dats m 0 c).arrAt w cfg0.N) (Proc.devRef .tc main_v3) = resArr m c :=
    (Pipeline.withArrays_arr spec0 launch0.win.arr_inj c _ _ 3).trans (final3 m c)
  rw [e, e3]
  funext k
  rw [tail_apply]
  unfold Cert.Spec.G
  exact congrArg (fun s => Ideal.div s _) (Finset.sum_congr rfl fun b _ => row_loss m hH c b)

end Out

open Out

/-- THE KERNEL'S VALUE: under the index range the program ends with its result at the specification's function of
    the argument arrays, and the arguments unchanged. -/
theorem kernel_value (hH : IdxOk m) :
    θ_run (defs (F := Ideal)) (onTc (τ := τ) (main (F := Ideal))) ⟨m, fun _ => 0, ρ⟩ (fun r => ∀ c : Dev nD,
      r.2.mem ((c.tc : Thread nD τ).loc main_v8) = Cert.Spec.G (m ((c.tc : Thread nD τ).loc main_arg0)) (m ((c.tc : Thread nD τ).loc main_arg1)) (m ((c.tc : Thread nD τ).loc main_arg2)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run defs _ _).mono (fun _ h c =>
    ⟨((h c).2 main_v8 (Pipeline.mem_restRefs_of main_v8 (by decide) (by decide))).trans (tail_value m hH c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ hH)

end Cert.KernelIdeal.Hand

end
-- ==== Proof.RefRun.lean ====
/-
  The reference's run.

  @main of the reference is a straight line of host operations with three calls. Two are lookups along the
  last axis: a negative index is moved up by the axis length 50000, the moved index is tested against
  [0, 49999], the entry at it is gathered, and NaN stands where the test fails. The third is the logarithm of
  the logistic function, log σ(x) = -softplus(-x) with softplus(y) = max(y, 0) + log1p(exp(-|y|)). A call
  executes the callee's body on its operands, so @main is one list of 83 operations: 23 of its own and
  22 + 22 + 16 of the callees', each callee's over the buffers of its call.

  `ops` is that list and `main_eq` says @main is the list run in order. `run`: every weakly fair execution
  terminates with the result buffer at `result` of the argument arrays' launch contents, the argument arrays
  unchanged. `result` composes three pieces:
    `gather1 a0 a1`  the positive scores: at (b, t) the entry of a0[b, t, :] at index a1[b, t];
    `gather4 a0 a4`  the negative scores: at (b, t, k) the entry of a0[b, t, :] at index a4[b, t, k];
    `tail p n a2`    the loss: the mean over b of  -(Σ_{t < a2[b]} Σ_k log σ(p[b,t] - n[b,t,k])) / a2[b].
-/
import proofs.«401552_j2439541424724_1_alg».proof.ReferenceIdeal
import Idealize.ShloMosaic.Lib.StableHlo.Run

set_option synthInstance.maxSize 4096

noncomputable section

namespace Cert.ReferenceIdeal.RefRun

open Cert.ReferenceIdeal Idealize.ShloMosaic Idealize.ShloMosaic.TcCoe Idealize.SL.Sem Idealize.ShloMosaic.StableHlo

variable {F : FTy → Type} [FloatOps F]
variable [Cert.ReferenceIdeal.Facts]
open Facts₀ Facts

/-- @main's 83 operations in order, the calls' bodies at their call sites: the index's broadcast; the first
    lookup (22, into `main_call0`'s buffers, its index operand the broadcast); the second lookup (22, into
    `main_call1`'s, its index operand the fifth argument); the positive score's broadcast and the difference;
    log σ of the difference (16: the negation, softplus's 14 into `main_call2.call0`'s buffers, the negation);
    the masked sums, the division by the lengths and the mean (20). -/
abbrev ops : List (HloOp τ sig (Elt F)) :=
  [ unary main_arg1 main_v0 (broadcastInDim S16x100x1 ![0, 1] bcast_S16x100_S16x100x1_0_1 : (⟨S16x100, .i32⟩ : BufTy).Contents (Elt F) → (⟨S16x100x1, .i32⟩ : BufTy).Contents (Elt F)),
    TRef.nullary main_call0.c (constantI S_ 32 0#32),
    TRef.unary main_call0.c main_call0.v0 (broadcastInDim S16x100x1 ![] bcast_S_S16x100x1),
    TRef.binary (.of main_v0 : TRef sig ⟨S16x100x1, .i32⟩) main_call0.v0 main_call0.v1 (cmpi .slt),
    TRef.nullary main_call0.c_0 (constantI S_ 32 50000#32),
    TRef.unary main_call0.c_0 main_call0.v2 (broadcastInDim S16x100x1 ![] bcast_S_S16x100x1),
    TRef.binary (.of main_v0 : TRef sig ⟨S16x100x1, .i32⟩) main_call0.v2 main_call0.v3 addi,
    TRef.ternary main_call0.v1 main_call0.v3 (.of main_v0 : TRef sig ⟨S16x100x1, .i32⟩) main_call0.v4 select,
    TRef.reshape main_call0.v4 main_call0.v5 rfl shapeCasts_S16x100x1_S16x100x1x1,
    TRef.nullary main_call0.c_1 (constantI S1 32 49999#32),
    TRef.nullary main_call0.c_2 (constantI S_ 32 0#32),
    TRef.unary main_call0.c_2 main_call0.v6 (broadcastInDim S16x100x1x1 ![] bcast_S_S16x100x1x1),
    TRef.binary main_call0.v5 main_call0.v6 main_call0.v7 (cmpi .sge),
    TRef.unary main_call0.c_1 main_call0.v8 (broadcastInDim S1x1x1x1 ![3] bcast_S1_S1x1x1x1_3),
    TRef.unary main_call0.v8 main_call0.v9 (broadcastInDim S16x100x1x1 ![0, 1, 2, 3] bcast_S1x1x1x1_S16x100x1x1_0_1_2_3),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16x100x1x1_S16x100x1_d3 h_S_),
    TRef.binary (.of main_arg0 : TRef sig ⟨S16x100x50000, .f32⟩) main_call0.v5 main_call0.v13 (fun x i => Host.gather gather_S16x100x50000_S16x100x1x1_S16x100x1_n_2_01_01_2_3_111 x i),
    TRef.nullary main_call0.cst (constant S_ .f32 0x7FC00000#32),
    TRef.unary main_call0.cst main_call0.v14 (broadcastInDim S16x100x1 ![] bcast_S_S16x100x1),
    TRef.ternary main_call0.v12 main_call0.v13 main_call0.v14 main_call0.v15 select,
    TRef.nullary main_call1.c (constantI S_ 32 0#32),
    TRef.unary main_call1.c main_call1.v0 (broadcastInDim S16x100x4 ![] bcast_S_S16x100x4),
    TRef.binary (.of main_arg4 : TRef sig ⟨S16x100x4, .i32⟩) main_call1.v0 main_call1.v1 (cmpi .slt),
    TRef.nullary main_call1.c_0 (constantI S_ 32 50000#32),
    TRef.unary main_call1.c_0 main_call1.v2 (broadcastInDim S16x100x4 ![] bcast_S_S16x100x4),
    TRef.binary (.of main_arg4 : TRef sig ⟨S16x100x4, .i32⟩) main_call1.v2 main_call1.v3 addi,
    TRef.ternary main_call1.v1 main_call1.v3 (.of main_arg4 : TRef sig ⟨S16x100x4, .i32⟩) main_call1.v4 select,
    TRef.reshape main_call1.v4 main_call1.v5 rfl shapeCasts_S16x100x4_S16x100x4x1,
    TRef.nullary main_call1.c_1 (constantI S1 32 49999#32),
    TRef.nullary main_call1.c_2 (constantI S_ 32 0#32),
    TRef.unary main_call1.c_2 main_call1.v6 (broadcastInDim S16x100x4x1 ![] bcast_S_S16x100x4x1),
    TRef.binary main_call1.v5 main_call1.v6 main_call1.v7 (cmpi .sge),
    TRef.unary main_call1.c_1 main_call1.v8 (broadcastInDim S1x1x1x1 ![3] bcast_S1_S1x1x1x1_3),
    TRef.unary main_call1.v8 main_call1.v9 (broadcastInDim S16x100x4x1 ![0, 1, 2, 3] bcast_S1x1x1x1_S16x100x4x1_0_1_2_3),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16x100x4x1_S16x100x4_d3 h_S_),
    TRef.binary (.of main_arg0 : TRef sig ⟨S16x100x50000, .f32⟩) main_call1.v5 main_call1.v13 (fun x i => Host.gather gather_S16x100x50000_S16x100x4x1_S16x100x4_n_2_01_01_2_3_111 x i),
    TRef.nullary main_call1.cst (constant S_ .f32 0x7FC00000#32),
    TRef.unary main_call1.cst main_call1.v14 (broadcastInDim S16x100x4 ![] bcast_S_S16x100x4),
    TRef.ternary main_call1.v12 main_call1.v13 main_call1.v14 main_call1.v15 select,
    unary main_v1 main_v3 (broadcastInDim S16x100x4 ![0, 1, 2] bcast_S16x100x1_S16x100x4_0_1_2 : (⟨S16x100x1, .f32⟩ : BufTy).Contents (Elt F) → (⟨S16x100x4, .f32⟩ : BufTy).Contents (Elt F)),
    binary main_v3 main_v2 main_v4 (subf : (⟨S16x100x4, .f32⟩ : BufTy).Contents (Elt F) → (⟨S16x100x4, .f32⟩ : BufTy).Contents (Elt F) → (⟨S16x100x4, .f32⟩ : BufTy).Contents (Elt F)),
    TRef.unary (.of main_v4 : TRef sig ⟨S16x100x4, .f32⟩) main_call2.v0 Host.negf,
    TRef.nullary main_call2.call0.cst (constant S_ .f32 0x00000000#32),
    TRef.unary main_call2.call0.cst main_call2.call0.v0 (broadcastInDim S16x100x4 ![] bcast_S_S16x100x4),
    TRef.binary main_call2.v0 main_call2.call0.v0 main_call2.call0.v1 maximumf,
    TRef.unary main_call2.call0.cst main_call2.call0.v2 (broadcastInDim S16x100x4 ![] bcast_S_S16x100x4),
    TRef.binary main_call2.v0 main_call2.call0.v2 main_call2.call0.v3 subf,
    TRef.binary main_call2.call0.v3 main_call2.call0.v3 main_call2.call0.v4 (cmpf .une),
    TRef.unary main_call2.call0.cst main_call2.call0.v5 (broadcastInDim S16x100x4 ![] bcast_S_S16x100x4),
    TRef.binary main_call2.v0 main_call2.call0.v5 main_call2.call0.v6 addf,
    TRef.unary main_call2.call0.v3 main_call2.call0.v7 Host.absf,
    TRef.unary main_call2.call0.v7 main_call2.call0.v8 Host.negf,
    TRef.unary main_call2.call0.v8 main_call2.call0.v9 Host.exp,
    TRef.unary main_call2.call0.v9 main_call2.call0.v10 Host.log1p,
    TRef.binary main_call2.call0.v1 main_call2.call0.v10 main_call2.call0.v11 addf,
    TRef.ternary main_call2.call0.v4 main_call2.call0.v6 main_call2.call0.v11 main_call2.call0.v12 select,
    TRef.unary main_call2.call0.v12 main_call2.v2 Host.negf,
    nullary main_v6 (iotaInDim S100 32 0),
    unary main_v6 main_v7 (broadcastInDim S1x100 ![1] bcast_S100_S1x100_1 : (⟨S100, .i32⟩ : BufTy).Contents (Elt F) → (⟨S1x100, .i32⟩ : BufTy).Contents (Elt F)),
    unary main_arg2 main_v8 (broadcastInDim S16x1 ![0] bcast_S16_S16x1_0 : (⟨S16, .i32⟩ : BufTy).Contents (Elt F) → (⟨S16x1, .i32⟩ : BufTy).Contents (Elt F)),
    unary main_v7 main_v9 (broadcastInDim S16x100 ![0, 1] bcast_S1x100_S16x100_0_1 : (⟨S1x100, .i32⟩ : BufTy).Contents (Elt F) → (⟨S16x100, .i32⟩ : BufTy).Contents (Elt F)),
    unary main_v8 main_v10 (broadcastInDim S16x100 ![0, 1] bcast_S16x1_S16x100_0_1 : (⟨S16x1, .i32⟩ : BufTy).Contents (Elt F) → (⟨S16x100, .i32⟩ : BufTy).Contents (Elt F)),
    binary main_v9 main_v10 main_v11 (cmpi .slt : (⟨S16x100, .i32⟩ : BufTy).Contents (Elt F) → (⟨S16x100, .i32⟩ : BufTy).Contents (Elt F) → (⟨S16x100, .i1⟩ : BufTy).Contents (Elt F)),
    nullary main_cst (constant S_ .f32 0x00000000#32),
    binary main_v5 main_cst main_v12 ((fun x v => Host.reduceAdd x v reducesTo_S16x100x4_S16x100_d2 h_S_) : (⟨S16x100x4, .f32⟩ : BufTy).Contents (Elt F) → (⟨S_, .f32⟩ : BufTy).Contents (Elt F) → (⟨S16x100, .f32⟩ : BufTy).Contents (Elt F)),
    unary main_v11 main_v13 (uitofp .f32 : (⟨S16x100, .i1⟩ : BufTy).Contents (Elt F) → (⟨S16x100, .f32⟩ : BufTy).Contents (Elt F)),
    binary main_v12 main_v13 main_v14 (mulf : (⟨S16x100, .f32⟩ : BufTy).Contents (Elt F) → (⟨S16x100, .f32⟩ : BufTy).Contents (Elt F) → (⟨S16x100, .f32⟩ : BufTy).Contents (Elt F)),
    nullary main_cst_0 (constant S_ .f32 0x00000000#32),
    binary main_v14 main_cst_0 main_v15 ((fun x v => Host.reduceAdd x v reducesTo_S16x100_S16_d1 h_S_) : (⟨S16x100, .f32⟩ : BufTy).Contents (Elt F) → (⟨S_, .f32⟩ : BufTy).Contents (Elt F) → (⟨S16, .f32⟩ : BufTy).Contents (Elt F)),
    unary main_v15 main_v16 (Host.negf : (⟨S16, .f32⟩ : BufTy).Contents (Elt F) → (⟨S16, .f32⟩ : BufTy).Contents (Elt F)),
    unary main_arg2 main_v17 (sitofp .f32 : (⟨S16, .i32⟩ : BufTy).Contents (Elt F) → (⟨S16, .f32⟩ : BufTy).Contents (Elt F)),
    binary main_v16 main_v17 main_v18 (Host.divf : (⟨S16, .f32⟩ : BufTy).Contents (Elt F) → (⟨S16, .f32⟩ : BufTy).Contents (Elt F) → (⟨S16, .f32⟩ : BufTy).Contents (Elt F)),
    nullary main_cst_1 (constant S_ .f32 0x00000000#32),
    binary main_v18 main_cst_1 main_v19 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_2 (constant S_ .f32 0x41800000#32),
    binary main_v19 main_cst_2 main_v20 (Host.divf : (⟨S_, .f32⟩ : BufTy).Contents (Elt F) → (⟨S_, .f32⟩ : BufTy).Contents (Elt F) → (⟨S_, .f32⟩ : BufTy).Contents (Elt F)),
    reshape main_v20 main_v21 rfl shapeCasts_S_S1 ]

-- eighty-three binds to re-associate: the rewrite under the chain recurses once per statement
set_option maxRecDepth 2048 in
set_option maxHeartbeats 1000000 in
/-- @main is that straight line: with the callees' bodies put at their calls and the call records read at
    their fields, both sides are one chain of the same 83 steps once sequencing is re-associated. -/
theorem main_eq (c : Dev nD) : main (F := F) c = seq ops := by
  simp only [main, fn_take_along_axis.body, fn_take_along_axis_0.body, fn_log_sigmoid.body, fn_softplus.body,
    seq, bind_assoc, pure_bind]

/-- The signature scopes no TensorCore buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    nullary_bufs_sub .., unary_bufs_sub .., binary_bufs_sub .., nullary_bufs_sub .., unary_bufs_sub .., binary_bufs_sub ..,
    ternary_bufs_sub .., reshape_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..,
    unary_bufs_sub .., binary_bufs_sub ..,
    unary_bufs_sub .., nullary_bufs_sub .., unary_bufs_sub .., binary_bufs_sub .., unary_bufs_sub .., binary_bufs_sub ..,
    binary_bufs_sub .., unary_bufs_sub .., binary_bufs_sub .., unary_bufs_sub .., unary_bufs_sub .., unary_bufs_sub ..,
    unary_bufs_sub .., binary_bufs_sub .., ternary_bufs_sub .., unary_bufs_sub ..,
    nullary_bufs_sub .., unary_bufs_sub .., unary_bufs_sub .., unary_bufs_sub .., unary_bufs_sub .., binary_bufs_sub ..,
    nullary_bufs_sub .., binary_bufs_sub .., unary_bufs_sub .., binary_bufs_sub .., nullary_bufs_sub .., binary_bufs_sub ..,
    unary_bufs_sub .., unary_bufs_sub .., binary_bufs_sub .., nullary_bufs_sub .., binary_bufs_sub .., nullary_bufs_sub ..,
    binary_bufs_sub .., reshape_bufs_sub ..⟩

/-- The positive scores: the index array broadcast to a unit last axis, a negative index moved up by 50000,
    the entry of `a0` along its last axis at the moved index where that lies in [0, 49999], NaN elsewhere. -/
noncomputable def gather1 (a0 : FVec F S16x100x50000 .f32) (a1 : IVec S16x100 32) : FVec F S16x100x1 .f32 :=
  let i0 : IVec S16x100x1 32 := broadcastInDim S16x100x1 ![0, 1] bcast_S16x100_S16x100x1_0_1 a1
  let w : IVec S16x100x1 32 :=
    select (cmpi .slt i0 (broadcastInDim S16x100x1 ![] bcast_S_S16x100x1 (constantI S_ 32 0#32)))
      (addi i0 (broadcastInDim S16x100x1 ![] bcast_S_S16x100x1 (constantI S_ 32 50000#32))) i0
  let j : IVec S16x100x1x1 32 := shapeCast S16x100x1x1 w shapeCasts_S16x100x1_S16x100x1x1
  let ok : IVec S16x100x1 1 :=
    Host.reduce IntOp.andi
      (andi (cmpi .sge j (broadcastInDim S16x100x1x1 ![] bcast_S_S16x100x1x1 (constantI S_ 32 0#32)))
        (cmpi .sle j (broadcastInDim S16x100x1x1 ![0, 1, 2, 3] bcast_S1x1x1x1_S16x100x1x1_0_1_2_3
          (broadcastInDim S1x1x1x1 ![3] bcast_S1_S1x1x1x1_3 (constantI S1 32 49999#32)))))
      (constantI S_ 1 1#1) reducesTo_S16x100x1x1_S16x100x1_d3 h_S_
  select ok (Host.gather gather_S16x100x50000_S16x100x1x1_S16x100x1_n_2_01_01_2_3_111 a0 j)
    (broadcastInDim S16x100x1 ![] bcast_S_S16x100x1 (constant S_ .f32 0x7FC00000#32))

/-- The negative scores: the same lookup at each of the four indices of `a4`'s last axis. -/
noncomputable def gather4 (a0 : FVec F S16x100x50000 .f32) (a4 : IVec S16x100x4 32) : FVec F S16x100x4 .f32 :=
  let w : IVec S16x100x4 32 :=
    select (cmpi .slt a4 (broadcastInDim S16x100x4 ![] bcast_S_S16x100x4 (constantI S_ 32 0#32)))
      (addi a4 (broadcastInDim S16x100x4 ![] bcast_S_S16x100x4 (constantI S_ 32 50000#32))) a4
  let j : IVec S16x100x4x1 32 := shapeCast S16x100x4x1 w shapeCasts_S16x100x4_S16x100x4x1
  let ok : IVec S16x100x4 1 :=
    Host.reduce IntOp.andi
      (andi (cmpi .sge j (broadcastInDim S16x100x4x1 ![] bcast_S_S16x100x4x1 (constantI S_ 32 0#32)))
        (cmpi .sle j (broadcastInDim S16x100x4x1 ![0, 1, 2, 3] bcast_S1x1x1x1_S16x100x4x1_0_1_2_3
          (broadcastInDim S1x1x1x1 ![3] bcast_S1_S1x1x1x1_3 (constantI S1 32 49999#32)))))
      (constantI S_ 1 1#1) reducesTo_S16x100x4x1_S16x100x4_d3 h_S_
  select ok (Host.gather gather_S16x100x50000_S16x100x4x1_S16x100x4_n_2_01_01_2_3_111 a0 j)
    (broadcastInDim S16x100x4 ![] bcast_S_S16x100x4 (constant S_ .f32 0x7FC00000#32))

/-- The loss from the scores. With d = p - n (p broadcast along the last axis) and y = -d:
    softplus(y) = max(y, 0) + log1p(exp(-|y - 0|)), replaced by y + 0 where y - 0 is not equal to itself;
    log σ(d) = -softplus(y); summed over the last axis, times the mask (t < a2[b]) as a float, summed over t,
    negated, divided by a2[b] as a float, summed over b, divided by 16. -/
noncomputable def tail (p : FVec F S16x100x1 .f32) (n : FVec F S16x100x4 .f32) (a2 : IVec S16 32) : FVec F S1 .f32 :=
  let d : FVec F S16x100x4 .f32 := subf (broadcastInDim S16x100x4 ![0, 1, 2] bcast_S16x100x1_S16x100x4_0_1_2 p) n
  let y : FVec F S16x100x4 .f32 := Host.negf d
  let z : FVec F S16x100x4 .f32 := broadcastInDim S16x100x4 ![] bcast_S_S16x100x4 (constant S_ .f32 0x00000000#32)
  let y0 : FVec F S16x100x4 .f32 := subf y z
  let sp : FVec F S16x100x4 .f32 :=
    select (cmpf .une y0 y0) (addf y z) (addf (maximumf y z) (Host.log1p (Host.exp (Host.negf (Host.absf y0)))))
  let ls : FVec F S16x100x4 .f32 := Host.negf sp
  let mask : IVec S16x100 1 :=
    cmpi .slt
      (broadcastInDim S16x100 ![0, 1] bcast_S1x100_S16x100_0_1 (broadcastInDim S1x100 ![1] bcast_S100_S1x100_1 (iotaInDim S100 32 0)))
      (broadcastInDim S16x100 ![0, 1] bcast_S16x1_S16x100_0_1 (broadcastInDim S16x1 ![0] bcast_S16_S16x1_0 a2))
  let s2 : FVec F S16x100 .f32 := Host.reduceAdd ls (constant S_ .f32 0x00000000#32) reducesTo_S16x100x4_S16x100_d2 h_S_
  let s1 : FVec F S16 .f32 :=
    Host.reduceAdd (mulf s2 (uitofp .f32 mask)) (constant S_ .f32 0x00000000#32) reducesTo_S16x100_S16_d1 h_S_
  let q : FVec F S16 .f32 := Host.divf (Host.negf s1) (sitofp .f32 a2)
  let s0 : FVec F S_ .f32 := Host.reduceAdd q (constant S_ .f32 0x00000000#32) reducesTo_S16_S_d0 h_S_
  shapeCast S1 (Host.divf s0 (constant S_ .f32 0x41800000#32)) shapeCasts_S_S1

/-- The reference's result in its argument arrays (the fourth argument is not read). -/
noncomputable def result (a0 : FVec F S16x100x50000 .f32) (a1 : IVec S16x100 32) (a2 : IVec S16 32) (a4 : IVec S16x100x4 32) :
    FVec F S1 .f32 :=
  tail (gather1 a0 a1) (gather4 a0 a4) a2

attribute [local irreducible] Host.reduce Host.gather Host.reduceAdd in
set_option maxRecDepth 8192 in
set_option maxHeartbeats 1000000 in
/-- The fold at the result buffer is `result` of the contents at the argument buffers: each operation's result
    at its own buffer is its function's value and at any other buffer what was there, and what is left equates
    two compositions of the same functions, the typed references' transports being identities at these
    references. The reductions and the gather are kept folded: the equation does not look inside them. -/
theorem out_eq (V : Valuation τ sig (Elt F)) :
    after ops V (Proc.devRef .tc main_v21)
      = result (V (Proc.devRef .tc main_arg0)) (V (Proc.devRef .tc main_arg1)) (V (Proc.devRef .tc main_arg2))
          (V (Proc.devRef .tc main_arg4)) := by
  after_results_simp
  rfl

/-- No operation writes an argument buffer: each keeps its contents through the line. -/
theorem arg0_eq (V : Valuation τ sig (Elt F)) :
    after ops V (Proc.devRef .tc main_arg0) = V (Proc.devRef .tc main_arg0) := by
  after_results_simp
theorem arg1_eq (V : Valuation τ sig (Elt F)) :
    after ops V (Proc.devRef .tc main_arg1) = V (Proc.devRef .tc main_arg1) := by
  after_results_simp
theorem arg2_eq (V : Valuation τ sig (Elt F)) :
    after ops V (Proc.devRef .tc main_arg2) = V (Proc.devRef .tc main_arg2) := by
  after_results_simp
theorem arg3_eq (V : Valuation τ sig (Elt F)) :
    after ops V (Proc.devRef .tc main_arg3) = V (Proc.devRef .tc main_arg3) := by
  after_results_simp
theorem arg4_eq (V : Valuation τ sig (Elt F)) :
    after ops V (Proc.devRef .tc main_arg4) = V (Proc.devRef .tc main_arg4) := by
  after_results_simp

/-- On every device, for any float values, from any memory with zero counters: every weakly fair execution of
    @main terminates with the result buffer at `result` of the argument arrays' launch contents and the five
    argument arrays unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v21)
          = result (m ((c.tc : Thread nD τ).loc main_arg0)) (m ((c.tc : Thread nD τ).loc main_arg1))
              (m ((c.tc : Thread nD τ).loc main_arg2)) (m ((c.tc : Thread nD τ).loc main_arg4))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))) :=
  (θ_run defs _ _).mono (fun _ h c => ⟨(h c main_v21).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.ReferenceIdeal.RefRun

end
-- ==== Proof.RefValue.lean ====
/-
  The reference's value is the specification.

  The reference's result is a composition of three pieces: two lookups along the last axis of the score array and the
  loss computed from the looked-up scores. This module reads each piece at an index, at the ideal instance (a float an
  extended real, every operation exact), and identifies the whole with `Cert.Spec.G`.

  The lookup. An index word is moved up by the axis length 50000 when it is negative as a signed word, the moved word
  is tested against [0, 49999], the entry at it (read signed, clamped into the axis) is gathered, and NaN stands where
  the test fails. A word whose unsigned value is below 50000 has a clear sign bit, so it is not negative, it is not
  moved, it passes the test, the clamp does nothing, and the entry read is the score array at that item: the
  specification's `score`.

  The loss. With d = pos − neg, the program computes −(max(−d, 0) + log1p(exp(−|−d − 0|))), guarded by the test
  "−d − 0 ≠ −d − 0", which no extended real satisfies; −d − 0 = −d and |−d| = max(−d, d), so the term is the
  specification's `lsig d`. A host sum over one axis is its initial value, zero, plus the sum over that axis's
  coordinates; the sum into rank zero is the sum over every index of the vector. The mask is the bit of the signed
  comparison "step number below the length" read as 0 or 1. Both sides are then the same sums of the same terms.
-/
import proofs.«401552_j2439541424724_1_alg».proof.Proof.RefRun
import proofs.«401552_j2439541424724_1_alg».proof.Proof.Spec
import Idealize.ShloMosaic.Lib.ValueIdx
import Idealize.ShloMosaic.Lib.ValueIdxRank1
import Idealize.ShloMosaic.Lib.StableHlo.Predicate
import Idealize.ShloMosaic.Lib.Pipeline.Value
import Idealize.ShloMosaic.PureOps.Ideal.Laws

set_option synthInstance.maxSize 4096

noncomputable section

namespace Cert.ReferenceIdeal.RefValue

open Idealize.ShloMosaic Idealize.ShloMosaic.ValueIdx

section Generic
variable {α : Type}

/-- The dimension numbers of a lookup along the last axis of a rank-3 array. -/
abbrev takeAlongDims (B T V K : Nat)
    (wf : GatherDims.WF ⟨3, ![B, T, V]⟩ ⟨4, ![B, T, K, 1]⟩ ⟨3, ![B, T, K]⟩ [] [2] [0, 1] [2] [0, 1] 3 ![1, 1, 1]) :
    GatherDims ⟨3, ![B, T, V]⟩ ⟨4, ![B, T, K, 1]⟩ ⟨3, ![B, T, K]⟩ where
  offsetDims := []
  collapsedSliceDims := [2]
  operandBatchingDims := [0, 1]
  startIndicesBatchingDims := [0, 1]
  startIndexMap := [2]
  indexVectorDim := 3
  sliceSizes := ![1, 1, 1]
  wf := wf

theorem mem_0_01 : (0 : Fin 3) ∈ ([0, 1] : List (Fin 3)) := by decide
theorem mem_1_01 : (1 : Fin 3) ∈ ([0, 1] : List (Fin 3)) := by decide
theorem not_mem_2_01 : (2 : Fin 3) ∉ ([0, 1] : List (Fin 3)) := by decide
theorem mem_2_2 : (2 : Fin 3) ∈ ([2] : List (Fin 3)) := by decide

variable {B T V K w : Nat}
  (wf : GatherDims.WF ⟨3, ![B, T, V]⟩ ⟨4, ![B, T, K, 1]⟩ ⟨3, ![B, T, K]⟩ [] [2] [0, 1] [2] [0, 1] 3 ![1, 1, 1])
  (idx : IVec ⟨4, ![B, T, K, 1]⟩ w) (b : Fin B) (t : Fin T) (k : Fin K)

theorem takeAlong_coord0 :
    (takeAlongDims B T V K wf).start (ix3 b t k) idx 0 + (takeAlongDims B T V K wf).batchCoord (ix3 b t k) 0
      + (takeAlongDims B T V K wf).offCoord (ix3 b t k) 0 = b.val := by
  have hb : (0 : Fin 3) ∈ (takeAlongDims B T V K wf).operandBatchingDims :=
    mem_0_01
  rw [GatherDims.start_batching _ _ _ _ hb,
    GatherDims.offCoord_eq_zero _ _ _ (fun h => ((GatherDims.mem_sKept _ _).mp h).2 hb), Nat.zero_add, Nat.add_zero]
  unfold GatherDims.batchCoord
  rw [dif_pos hb]
  rfl

theorem takeAlong_coord1 :
    (takeAlongDims B T V K wf).start (ix3 b t k) idx 1 + (takeAlongDims B T V K wf).batchCoord (ix3 b t k) 1
      + (takeAlongDims B T V K wf).offCoord (ix3 b t k) 1 = t.val := by
  have hb : (1 : Fin 3) ∈ (takeAlongDims B T V K wf).operandBatchingDims :=
    mem_1_01
  rw [GatherDims.start_batching _ _ _ _ hb,
    GatherDims.offCoord_eq_zero _ _ _ (fun h => ((GatherDims.mem_sKept _ _).mp h).2 hb), Nat.zero_add, Nat.add_zero]
  unfold GatherDims.batchCoord
  rw [dif_pos hb]
  rfl

theorem takeAlong_coord2 :
    (takeAlongDims B T V K wf).start (ix3 b t k) idx 2 + (takeAlongDims B T V K wf).batchCoord (ix3 b t k) 2
      + (takeAlongDims B T V K wf).offCoord (ix3 b t k) 2 = min (idx (ix4 b t k (0 : Fin 1))).toInt.toNat (V - 1) := by
  have hb : (2 : Fin 3) ∉ (takeAlongDims B T V K wf).operandBatchingDims :=
    not_mem_2_01
  have hm : (2 : Fin 3) ∈ (takeAlongDims B T V K wf).startIndexMap :=
    mem_2_2
  have hc : (2 : Fin 3) ∈ (takeAlongDims B T V K wf).collapsedSliceDims :=
    mem_2_2
  rw [GatherDims.batchCoord_eq_zero _ _ _ hb,
    GatherDims.offCoord_eq_zero _ _ _ (fun h => ((GatherDims.mem_sKept _ _).mp h).1 hc), Nat.add_zero]
  unfold GatherDims.start
  rw [dif_pos hm]
  have hsi : (takeAlongDims B T V K wf).siIdx (ix3 b t k) ⟨List.idxOf (2 : Fin 3) (takeAlongDims B T V K wf).startIndexMap,
      List.idxOf_lt_length_iff.2 hm⟩ = ix4 b t k (0 : Fin 1) := by
    funext c; refine Fin.ext ?_
    match c with
    | ⟨0, _⟩ => rfl
    | ⟨1, _⟩ => rfl
    | ⟨2, _⟩ => rfl
    | ⟨3, _⟩ => rfl
  rw [hsi]
  rfl

/-- The lookup read at (b, t, k): the operand at (b, t, ·) at the start index idx[b, t, k, 0], read signed and clamped
    into [0, V − 1]. -/
theorem gather_takeAlong_apply (hV : 0 < V)
    (x : (⟨3, ![B, T, V]⟩ : Shape).Idx → α) :
    Host.gather (takeAlongDims B T V K wf) x idx (ix3 b t k)
      = x (ix3 b t ⟨min (idx (ix4 b t k (0 : Fin 1))).toInt.toNat (V - 1), by omega⟩) := by
  unfold Host.gather
  congr 1
  funext a
  refine Fin.ext ?_
  show (takeAlongDims B T V K wf).start (ix3 b t k) idx a + (takeAlongDims B T V K wf).batchCoord (ix3 b t k) a
    + (takeAlongDims B T V K wf).offCoord (ix3 b t k) a = _
  match a with
  | ⟨0, _⟩ => exact takeAlong_coord0 wf idx b t k
  | ⟨1, _⟩ => exact takeAlong_coord1 wf idx b t k
  | ⟨2, _⟩ => exact takeAlong_coord2 wf idx b t k

end Generic

section Words
open Idealize.ShloMosaic.StableHlo.Predicate

/-- A word below 50000 is not negative as a signed word: the move up by the axis length does not fire. -/
theorem wrap_word (x : BitVec 32) (hx : x.toNat < 50000) :
    Scalar.select (IntOp.cmpi .slt x 0#32) (IntOp.addi x 50000#32) x = x := by
  have h0 : IntOp.cmpi .slt x 0#32 = 0#1 := by
    refine eq_zero_of_ne_one fun h => ?_
    have := (slt_iff_toNat (a := x) (b := 0#32) (by omega) (by decide)).mp h
    simp at this
  rw [h0, select_zero]

/-- A word below 50000 passes the test 0 ≤ x ≤ 49999 (signed). -/
theorem range_word (x : BitVec 32) (hx : x.toNat < 50000) :
    IntOp.andi (IntOp.cmpi .sge x 0#32) (IntOp.cmpi .sle x 49999#32) = 1#1 := by
  have h1 : IntOp.cmpi .sge x 0#32 = 1#1 :=
    (sge_iff_toNat (a := x) (b := 0#32) (by omega) (by decide)).mpr (by simp)
  have h2 : IntOp.cmpi .sle x 49999#32 = 1#1 :=
    (sle_iff_toNat (a := x) (b := 49999#32) (by omega) (by decide)).mpr (by
      show x.toNat ≤ 49999
      omega)
  rw [h1, h2]; rfl

/-- Read signed and clamped into [0, 49999], a word below 50000 is its value. -/
theorem clamp_word (x : BitVec 32) (hx : x.toNat < 50000) : min x.toInt.toNat (50000 - 1) = x.toNat := by
  rw [toInt_eq_toNat_of_lt (by omega), Int.toNat_natCast]
  omega

end Words

section ReduceAnd
variable {s t u : Shape} {axes : List (Fin s.rank)}

/-- The conjunction of bits that are all 1, from 1, is 1. -/
theorem reduce_andi_all_one (X : IVec s 1) (init : IVec u 1) (h : s.ReducesTo axes t) (hu : 0 < u.numel)
    (hX : ∀ i, X i = 1#1) (hinit : init (Shape.Idx.first hu) = 1#1) (j : t.Idx) :
    Host.reduce IntOp.andi X init h hu j = 1#1 := by
  rw [Host.reduce_eq_foldl, hinit]
  generalize (((List.finRange s.numel).map s.rowMajor.symm).filter fun i => h.drop i = j) = l
  induction l with
  | nil => rfl
  | cons a l ih =>
    rw [List.foldl_cons, hX a, show IntOp.andi 1#1 1#1 = 1#1 from by decide]
    exact ih

/-- The range test 0 ≤ j ≤ 49999 reduced over a set of positions, when every position's word is below 50000, is 1. -/
theorem ok_all_one (j c0 c1 : IVec s 32) (init : IVec u 1) (h : s.ReducesTo axes t) (hu : 0 < u.numel)
    (hc0 : ∀ i, c0 i = 0#32) (hc1 : ∀ i, c1 i = 49999#32) (hj : ∀ i, (j i).toNat < 50000)
    (hinit : init (Shape.Idx.first hu) = 1#1) (i : t.Idx) :
    Host.reduce IntOp.andi (andi (cmpi .sge j c0) (cmpi .sle j c1)) init h hu i = 1#1 :=
  reduce_andi_all_one _ _ _ _ (fun i => by
    show IntOp.andi (IntOp.cmpi .sge (j i) (c0 i)) (IntOp.cmpi .sle (j i) (c1 i)) = 1#1
    rw [hc0, hc1]; exact range_word _ (hj i)) hinit i

/-- A select on a bit that is 1 is its first operand. -/
theorem select_of_eq_one {α : Type} {c : BitVec 1} (hc : c = 1#1) (a b : α) : Scalar.select c a b = a := by
  rw [hc, select_one]

end ReduceAnd

section Layout
variable {α : Type}

/-- An [a, b, c] array cast to [a, b, c, 1] reads, at (i, j, k, 0), the operand at (i, j, k). -/
theorem shapeCast_abc_abc1_apply {a b c : Nat} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) := by
  refine shapeCast_apply x h _ _ ?_
  rw [Shape.rowMajor_val_three, Shape.rowMajor_val_four]
  show (i.val * b + j.val) * c + k.val = ((i.val * b + j.val) * c + k.val) * 1 + u.val
  have := u.isLt
  omega

end Layout

section Gathers
open Cert.ReferenceIdeal Cert.ReferenceIdeal.RefRun
variable [Cert.ReferenceIdeal.Facts]
open Facts₀ Facts

/-- The labels with a unit last axis read, at (b, t, 0), the label of (b, t). -/
theorem bcast_labels_apply (a1 : IVec S16x100 32) (b : Fin 16) (t : Fin 100) (u : Fin 1) :
    broadcastInDim S16x100x1 ![0, 1] bcast_S16x100_S16x100x1_0_1 a1 (ix3 b t u) = a1 (ix2 b t) :=
  broadcastInDim_apply _ _ a1 _ (ix2 b t) fun a => match a with
    | ⟨0, _⟩ => rfl
    | ⟨1, _⟩ => rfl

/-- The negatives' lookup at (b, t, k) is the score at the item the word a4[b, t, k] names. -/
theorem gather4_apply (a0 : FVec Ideal S16x100x50000 .f32) (a4 : IVec S16x100x4 32) (h4 : ∀ i, (a4 i).toNat < 50000)
    (b : Fin 16) (t : Fin 100) (k : Fin 4) :
    gather4 a0 a4 (ix3 b t k) = Cert.Spec.score a0 b t (a4 (ix3 b t k)) := by
  have hw : select (cmpi .slt a4 (broadcastInDim S16x100x4 ![] bcast_S_S16x100x4 (constantI S_ 32 0#32)))
      (addi a4 (broadcastInDim S16x100x4 ![] bcast_S_S16x100x4 (constantI S_ 32 50000#32))) a4 = a4 :=
    funext fun i => wrap_word (a4 i) (h4 i)
  unfold gather4
  simp only [hw]
  rw [select_apply]
  refine (select_of_eq_one (ok_all_one _ _ _ _ _ _ ?_ ?_ ?_ ?_ _) _ _).trans ?_
  · exact fun _ => rfl
  · exact fun _ => rfl
  · exact fun i => h4 _
  · rfl
  have hd : gather_S16x100x50000_S16x100x4x1_S16x100x4_n_2_01_01_2_3_111
      = takeAlongDims 16 100 50000 4 gather_S16x100x50000_S16x100x4x1_S16x100x4_n_2_01_01_2_3_111_wf := rfl
  rw [hd, gather_takeAlong_apply _ _ b t k (by decide)]
  unfold Cert.Spec.score
  rw [dif_pos (h4 _)]
  refine congrArg a0 (congrArg (ix3 b t) (Fin.ext ?_))
  show min (shapeCast S16x100x4x1 a4 shapeCasts_S16x100x4_S16x100x4x1 (ix4 b t k (0 : Fin 1))).toInt.toNat (50000 - 1)
    = (a4 (ix3 b t k)).toNat
  rw [shapeCast_abc_abc1_apply]
  exact clamp_word _ (h4 _)

/-- The labels' lookup at (b, t, 0) is the score at the item the word a1[b, t] names. -/
theorem gather1_apply (a0 : FVec Ideal S16x100x50000 .f32) (a1 : IVec S16x100 32) (h1 : ∀ i, (a1 i).toNat < 50000)
    (b : Fin 16) (t : Fin 100) (u : Fin 1) :
    gather1 a0 a1 (ix3 b t u) = Cert.Spec.score a0 b t (a1 (ix2 b t)) := by
  have hi : ∀ i, (broadcastInDim S16x100x1 ![0, 1] bcast_S16x100_S16x100x1_0_1 a1 i).toNat < 50000 := fun i => h1 _
  have hw : select (cmpi .slt (broadcastInDim S16x100x1 ![0, 1] bcast_S16x100_S16x100x1_0_1 a1)
        (broadcastInDim S16x100x1 ![] bcast_S_S16x100x1 (constantI S_ 32 0#32)))
      (addi (broadcastInDim S16x100x1 ![0, 1] bcast_S16x100_S16x100x1_0_1 a1)
        (broadcastInDim S16x100x1 ![] bcast_S_S16x100x1 (constantI S_ 32 50000#32)))
      (broadcastInDim S16x100x1 ![0, 1] bcast_S16x100_S16x100x1_0_1 a1)
      = broadcastInDim S16x100x1 ![0, 1] bcast_S16x100_S16x100x1_0_1 a1 :=
    funext fun i => wrap_word _ (hi i)
  unfold gather1
  simp only [hw]
  rw [select_apply]
  refine (select_of_eq_one (ok_all_one _ _ _ _ _ _ ?_ ?_ ?_ ?_ _) _ _).trans ?_
  · exact fun _ => rfl
  · exact fun _ => rfl
  · exact fun i => hi _
  · rfl
  have hd : gather_S16x100x50000_S16x100x1x1_S16x100x1_n_2_01_01_2_3_111
      = takeAlongDims 16 100 50000 1 gather_S16x100x50000_S16x100x1x1_S16x100x1_n_2_01_01_2_3_111_wf := rfl
  rw [hd, gather_takeAlong_apply _ _ b t u (by decide)]
  unfold Cert.Spec.score
  rw [dif_pos (h1 _)]
  refine congrArg a0 (congrArg (ix3 b t) (Fin.ext ?_))
  show min (shapeCast S16x100x1x1 (broadcastInDim S16x100x1 ![0, 1] bcast_S16x100_S16x100x1_0_1 a1)
      shapeCasts_S16x100x1_S16x100x1x1 (ix4 b t u (0 : Fin 1))).toInt.toNat (50000 - 1) = (a1 (ix2 b t)).toNat
  rw [shapeCast_abc_abc1_apply, bcast_labels_apply]
  exact clamp_word _ (h1 _)

end Gathers

section Tail
open Cert.ReferenceIdeal Cert.ReferenceIdeal.RefRun
variable [Cert.ReferenceIdeal.Facts]
open Facts₀ Facts

/-! ### The pieces of the loss, named -/

/-- log σ of the differences, as the program computes it. -/
noncomputable def lsVec (p : FVec Ideal S16x100x1 .f32) (n : FVec Ideal S16x100x4 .f32) : FVec Ideal S16x100x4 .f32 :=
  let d : FVec Ideal S16x100x4 .f32 := subf (broadcastInDim S16x100x4 ![0, 1, 2] bcast_S16x100x1_S16x100x4_0_1_2 p) n
  let y : FVec Ideal S16x100x4 .f32 := Host.negf d
  let z : FVec Ideal S16x100x4 .f32 := broadcastInDim S16x100x4 ![] bcast_S_S16x100x4 (constant S_ .f32 0x00000000#32)
  let y0 : FVec Ideal S16x100x4 .f32 := subf y z
  let sp : FVec Ideal S16x100x4 .f32 :=
    select (cmpf .une y0 y0) (addf y z) (addf (maximumf y z) (Host.log1p (Host.exp (Host.negf (Host.absf y0)))))
  Host.negf sp

/-- The validity mask: step number below the length. -/
noncomputable def maskVec (a2 : IVec S16 32) : IVec S16x100 1 :=
  cmpi .slt
    (broadcastInDim S16x100 ![0, 1] bcast_S1x100_S16x100_0_1 (broadcastInDim S1x100 ![1] bcast_S100_S1x100_1 (iotaInDim S100 32 0)))
    (broadcastInDim S16x100 ![0, 1] bcast_S16x1_S16x100_0_1 (broadcastInDim S16x1 ![0] bcast_S16_S16x1_0 a2))

/-- The sums over the negatives. -/
noncomputable def s2Vec (p : FVec Ideal S16x100x1 .f32) (n : FVec Ideal S16x100x4 .f32) : FVec Ideal S16x100 .f32 :=
  Host.reduceAdd (lsVec p n) (constant S_ .f32 0x00000000#32) reducesTo_S16x100x4_S16x100_d2 h_S_

/-- The masked sums over the steps. -/
noncomputable def s1Vec (p : FVec Ideal S16x100x1 .f32) (n : FVec Ideal S16x100x4 .f32) (a2 : IVec S16 32) : FVec Ideal S16 .f32 :=
  Host.reduceAdd (mulf (s2Vec p n) (uitofp .f32 (maskVec a2))) (constant S_ .f32 0x00000000#32) reducesTo_S16x100_S16_d1 h_S_

/-- The users' losses. -/
noncomputable def qVec (p : FVec Ideal S16x100x1 .f32) (n : FVec Ideal S16x100x4 .f32) (a2 : IVec S16 32) : FVec Ideal S16 .f32 :=
  Host.divf (Host.negf (s1Vec p n a2)) (sitofp .f32 a2)

/-- Their sum. -/
noncomputable def s0Vec (p : FVec Ideal S16x100x1 .f32) (n : FVec Ideal S16x100x4 .f32) (a2 : IVec S16 32) : FVec Ideal S_ .f32 :=
  Host.reduceAdd (qVec p n a2) (constant S_ .f32 0x00000000#32) reducesTo_S16_S_d0 h_S_

theorem tail_eq (p : FVec Ideal S16x100x1 .f32) (n : FVec Ideal S16x100x4 .f32) (a2 : IVec S16 32) :
    tail p n a2 = shapeCast S1 (Host.divf (s0Vec p n a2) (constant S_ .f32 0x41800000#32)) shapeCasts_S_S1 := rfl

/-! ### log σ -/

/-- The chain of operations on one difference d is log σ(d): the test "y − 0 ≠ y − 0" is false, y − 0 = y with y = −d,
    and |y| = max(−d, d). -/
theorem lsig_chain (d : EReal) :
    -(Scalar.select (Ideal.cmp .une (-d - Ideal.ofBits .f32 0x00000000#32) (-d - Ideal.ofBits .f32 0x00000000#32))
        (-d + Ideal.ofBits .f32 0x00000000#32)
        (max (-d) (Ideal.ofBits .f32 0x00000000#32)
          + Ideal.log1p (Ideal.exp (-(max (-d - Ideal.ofBits .f32 0x00000000#32) (-(-d - Ideal.ofBits .f32 0x00000000#32)))))))
      = Cert.Spec.lsig d := by
  rw [Ideal.ofBits_zero_f32, sub_zero, neg_neg]
  have hc : Ideal.cmp .une (-d) (-d) = 0#1 := by simp [Ideal.cmp]
  rw [hc, select_zero, max_comm (-d) d]
  rfl

/-- The positive score along the negatives' axis reads, at (b, t, k), the score at (b, t, 0). -/
theorem bcast_pos_apply {α : Type} (p : S16x100x1.Idx → α) (b : Fin 16) (t : Fin 100) (k : Fin 4) :
    broadcastInDim S16x100x4 ![0, 1, 2] bcast_S16x100x1_S16x100x4_0_1_2 p (ix3 b t k) = p (ix3 b t (0 : Fin 1)) :=
  broadcastInDim_apply _ _ p _ (ix3 b t (0 : Fin 1)) fun a => match a with
    | ⟨0, _⟩ => rfl
    | ⟨1, _⟩ => rfl
    | ⟨2, _⟩ => rfl

theorem ls_apply (p : FVec Ideal S16x100x1 .f32) (n : FVec Ideal S16x100x4 .f32) (b : Fin 16) (t : Fin 100) (k : Fin 4) :
    lsVec p n (ix3 b t k) = Cert.Spec.lsig (p (ix3 b t (0 : Fin 1)) - n (ix3 b t k)) := by
  rw [← bcast_pos_apply p b t k]
  exact lsig_chain _

/-! ### The mask -/

theorem mask_apply (a2 : IVec S16 32) (b : Fin 16) (t : Fin 100) :
    (uitofp .f32 (maskVec a2) : FVec Ideal S16x100 .f32) (ix2 b t) = Cert.Spec.valid a2 b t := by
  have hi : broadcastInDim S16x100 ![0, 1] bcast_S1x100_S16x100_0_1
      (broadcastInDim S1x100 ![1] bcast_S100_S1x100_1 (iotaInDim S100 32 0)) (ix2 b t) = BitVec.ofNat 32 t.val := by
    rw [broadcastInDim_apply _ _ _ _ (ix2 (0 : Fin 1) t) (fun a => match a with | ⟨0, _⟩ => rfl | ⟨1, _⟩ => rfl),
      broadcastInDim_apply _ _ _ _ (ix1 t) (fun a => match a with | ⟨0, _⟩ => rfl)]
    rfl
  have hl : broadcastInDim S16x100 ![0, 1] bcast_S16x1_S16x100_0_1
      (broadcastInDim S16x1 ![0] bcast_S16_S16x1_0 a2) (ix2 b t) = a2 (ix1 b) := by
    rw [broadcastInDim_apply _ _ _ _ (ix2 b (0 : Fin 1)) (fun a => match a with | ⟨0, _⟩ => rfl | ⟨1, _⟩ => rfl),
      broadcastInDim_apply _ _ _ _ (ix1 b) (fun a => match a with | ⟨0, _⟩ => rfl)]
  show (((IntOp.cmpi .slt
      (broadcastInDim S16x100 ![0, 1] bcast_S1x100_S16x100_0_1
        (broadcastInDim S1x100 ![1] bcast_S100_S1x100_1 (iotaInDim S100 32 0)) (ix2 b t))
      (broadcastInDim S16x100 ![0, 1] bcast_S16x1_S16x100_0_1
        (broadcastInDim S16x1 ![0] bcast_S16_S16x1_0 a2) (ix2 b t))).toNat : ℝ) : EReal) = _
  rw [hi, hl]
  unfold Cert.Spec.valid IntOp.cmpi
  cases (BitVec.ofNat 32 t.val).slt (a2 (ix1 b)) <;> simp

/-! ### The three sums -/

theorem sum_k (x : FVec Ideal S16x100x4 .f32) (b : Fin 16) (t : Fin 100) :
    Host.reduceAdd (F := Ideal) x (constant (F := Ideal) S_ .f32 0x00000000#32) reducesTo_S16x100x4_S16x100_d2 h_S_ (ix2 b t)
      = ∑ k : Fin 4, x (ix3 b t k) := by
  have hR : S16x100x4.Reduces [2] S16x100 := by decide
  show Ideal.hostReduceAdd reducesTo_S16x100x4_S16x100_d2 x (Ideal.ofBits .f32 0x00000000#32) (ix2 b t) = _
  rw [Ideal.hostReduceAdd_single _ hR, Ideal.ofBits_zero_f32, zero_add]
  refine Finset.sum_congr rfl fun k _ => congrArg x (funext fun c => Fin.ext ?_)
  match c with
  | ⟨0, _⟩ => rfl
  | ⟨1, _⟩ => rfl
  | ⟨2, _⟩ => rfl

theorem sum_t (x : FVec Ideal S16x100 .f32) (b : Fin 16) :
    Host.reduceAdd (F := Ideal) x (constant (F := Ideal) S_ .f32 0x00000000#32) reducesTo_S16x100_S16_d1 h_S_ (ix1 b)
      = ∑ t : Fin 100, x (ix2 b t) := by
  have hR : S16x100.Reduces [1] S16 := by decide
  show Ideal.hostReduceAdd reducesTo_S16x100_S16_d1 x (Ideal.ofBits .f32 0x00000000#32) (ix1 b) = _
  rw [Ideal.hostReduceAdd_single _ hR, Ideal.ofBits_zero_f32, zero_add]
  refine Finset.sum_congr rfl fun t _ => congrArg x (funext fun c => Fin.ext ?_)
  match c with
  | ⟨0, _⟩ => rfl
  | ⟨1, _⟩ => rfl

theorem sum_b (x : FVec Ideal S16 .f32) (j : S_.Idx) :
    Host.reduceAdd (F := Ideal) x (constant (F := Ideal) S_ .f32 0x00000000#32) reducesTo_S16_S_d0 h_S_ j
      = ∑ b : Fin 16, x (ix1 b) := by
  show Ideal.hostReduceAdd reducesTo_S16_S_d0 x (Ideal.ofBits .f32 0x00000000#32) j = _
  rw [Ideal.hostReduceAdd_total _ (fun b => b.elim0), Ideal.ofBits_zero_f32, zero_add]
  exact (Equiv.sum_comp (idxEquiv1 (n := 16)).symm x).symm

/-! ### The loss at its one index -/

theorem s2_apply (p : FVec Ideal S16x100x1 .f32) (n : FVec Ideal S16x100x4 .f32) (b : Fin 16) (t : Fin 100) :
    s2Vec p n (ix2 b t) = ∑ k : Fin 4, Cert.Spec.lsig (p (ix3 b t (0 : Fin 1)) - n (ix3 b t k)) := by
  unfold s2Vec
  rw [sum_k]
  exact Finset.sum_congr rfl fun k _ => ls_apply p n b t k

theorem s1_apply (p : FVec Ideal S16x100x1 .f32) (n : FVec Ideal S16x100x4 .f32) (a2 : IVec S16 32) (b : Fin 16) :
    s1Vec p n a2 (ix1 b)
      = ∑ t : Fin 100, (∑ k : Fin 4, Cert.Spec.lsig (p (ix3 b t (0 : Fin 1)) - n (ix3 b t k))) * Cert.Spec.valid a2 b t := by
  unfold s1Vec
  rw [sum_t]
  refine Finset.sum_congr rfl fun t _ => ?_
  rw [mulf_apply, s2_apply, mask_apply]

theorem q_apply (p : FVec Ideal S16x100x1 .f32) (n : FVec Ideal S16x100x4 .f32) (a2 : IVec S16 32) (b : Fin 16) :
    qVec p n a2 (ix1 b) = Ideal.div (-(s1Vec p n a2 (ix1 b))) ((((a2 (ix1 b)).toInt : ℝ)) : EReal) := rfl

theorem tail_apply (p : FVec Ideal S16x100x1 .f32) (n : FVec Ideal S16x100x4 .f32) (a2 : IVec S16 32) (i : S1.Idx) :
    tail p n a2 i
      = Ideal.div (∑ b : Fin 16, Ideal.div
          (-(∑ t : Fin 100, (∑ k : Fin 4, Cert.Spec.lsig (p (ix3 b t (0 : Fin 1)) - n (ix3 b t k))) * Cert.Spec.valid a2 b t))
          ((((a2 (ix1 b)).toInt : ℝ)) : EReal)) (Ideal.ofBits .f32 0x41800000#32) := by
  rw [tail_eq]
  show Ideal.div (s0Vec p n a2 _) (Ideal.ofBits .f32 0x41800000#32) = _
  unfold s0Vec
  rw [sum_b]
  congr 1
  exact Finset.sum_congr rfl fun b _ => by rw [q_apply, s1_apply]

end Tail

section Result
open Cert.ReferenceIdeal Cert.ReferenceIdeal.RefRun
variable [Cert.ReferenceIdeal.Facts]

/-- THE REFERENCE'S RESULT IS THE SPECIFICATION, when every label word and every negative word names an item
    (its unsigned value is below 50000). -/
theorem result_eq (a0 : FVec Ideal S16x100x50000 .f32) (a1 : IVec S16x100 32) (a2 : IVec S16 32) (a4 : IVec S16x100x4 32)
    (h1 : ∀ i, (a1 i).toNat < 50000) (h4 : ∀ i, (a4 i).toNat < 50000) :
    Cert.ReferenceIdeal.RefRun.result (F := Ideal) a0 a1 a2 a4 = Cert.Spec.G a0 a1 a2 a4 := by
  funext i
  unfold Cert.ReferenceIdeal.RefRun.result
  rw [tail_apply]
  unfold Cert.Spec.G Cert.Spec.userLoss Cert.Spec.stepLoss
  simp only [gather1_apply a0 a1 h1, gather4_apply a0 a4 h4]

end Result

end Cert.ReferenceIdeal.RefValue

end
-- ==== Proof.lean ====
/-
  A masked-reduction gather against a gather.
  The kernel sweeps the item axis (50000 items) in 40 tiles of 1280 for each of two tiles of 8 users: at every tile it
  adds, for each (user, step) and each of five target items (the label, four negatives), the sum over the tile's lanes
  of the score where the lane's item number equals the target and of zero elsewhere; on a sweep's last tile it turns the
  five sums into log σ(pos − neg) summed over the negatives, masks the steps past the user's length, sums the steps,
  negates, divides by the length, and puts the user's loss in lane 0 of its result row; the host then averages the
  sixteen lane-0 entries. The reference gathers the five scores directly and does the same arithmetic on the host.
  With every target inside the item range each target matches exactly one lane of exactly one tile, so the masked
  sums ARE the gathered scores: a sum of zeros and one term, exact on the extended reals with no finiteness needed; the
  50000 items leave the last tile 80 lanes inside the array, and the lanes past its end, whose staged contents nothing
  names, carry item numbers ≥ 50000 that no target equals, so the select discards them. After the gather the two
  programs apply the same operations; log σ(d) is −(max(−d, 0) + log(1 + e^{−|d|})) on both sides.
  The precondition adds to finiteness that every label and every negative lies in [0, 50000): the frames need it (it
  is what makes the running sums independent of the staged lanes past the array's end), and the value claim needs it
  (outside it the reference's gather is out of range above, and wraps a negative index where the kernel's mask
  matches nothing).
  Claims: the two kernels' frames from the body's run in its three control cases (a sweep's first tile resets the
  sums, its last tile runs the epilogue) carried over the grid by the running sums; the reference's frame from its run;
  `preserves` is `True` (the idealization rewrote nothing); `algebraic`: both runs end at the one function `Cert.Spec.G`
  of the argument arrays.
-/
import proofs.«401552_j2439541424724_1_alg».proof.Defs
import proofs.«401552_j2439541424724_1_alg».proof.Proof.Gen.Kernel
import proofs.«401552_j2439541424724_1_alg».proof.Proof.Gen.KernelIdeal
import proofs.«401552_j2439541424724_1_alg».proof.Proof.Gen.ReferenceIdeal
import proofs.«401552_j2439541424724_1_alg».proof.Proof.Gen.Pre_finite_inputs
import proofs.«401552_j2439541424724_1_alg».proof.Proof.K.Data
import proofs.«401552_j2439541424724_1_alg».proof.Proof.K.IdxOk
import proofs.«401552_j2439541424724_1_alg».proof.Proof.KI.Data
import proofs.«401552_j2439541424724_1_alg».proof.Proof.KI.IdxOk
import proofs.«401552_j2439541424724_1_alg».proof.Proof.KI.ValueOut
import proofs.«401552_j2439541424724_1_alg».proof.Proof.RefRun
import proofs.«401552_j2439541424724_1_alg».proof.Proof.RefValue
import proofs.«401552_j2439541424724_1_alg».proof.Proof.PreRead
import Idealize.ShloMosaic.Adequacy
import Idealize.ShloMosaic.Init

noncomputable section

namespace Cert.Proof

open Idealize.ShloMosaic Idealize.SL.Sem

/-- The word-level kernel's frame: the precondition gives the index range, under which the frame holds. -/
theorem frame_kernel : Cert.frame_Kernel := fun m ρ hpre =>
  Cert.Kernel.Hand.frame m ρ (Cert.Kernel.Hand.idxOk_of_pre m hpre)

/-- The idealized kernel's frame, the same way. -/
theorem frame_kernelIdeal : Cert.frame_KernelIdeal := fun m ρ hpre =>
  Cert.KernelIdeal.Hand.frame m ρ (Cert.KernelIdeal.Hand.idxOk_of_pre m hpre)

/-- The reference's frame: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- Both idealized programs end at `Cert.Spec.G` of the argument arrays: the kernel's masked sums are the gathered
    scores, the reference's gather reads them directly, and the arithmetic after the gather is the same. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg4)),
    Cert.KernelIdeal.Hand.kernel_value m ρ (Cert.KernelIdeal.Hand.idxOk_of_pre m hpre), ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.2]
  exact Cert.ReferenceIdeal.RefValue.result_eq _ _ _ _
    (Cert.PreRead.labels_lt _ _ _ _ _ (hpre c)) (Cert.PreRead.negs_lt _ _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
